-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S800000x16 : Shape := ⟨2, ![800000, 16]⟩
abbrev S3x128x128 : Shape := ⟨3, ![3, 128, 128]⟩
abbrev S3x128 : Shape := ⟨2, ![3, 128]⟩
abbrev S3x16x128 : Shape := ⟨3, ![3, 16, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x16x128 : S_.BroadcastsInDim S3x16x128 (![] : Fin 0 → Fin S3x16x128.rank)
  reducesTo_S3x16x128_S_d0_1_2 : S3x16x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg1 : IVec S2x800000 32) (main_arg13 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : IVec S1x800000 32 := (extractStridedSlice S1x800000 ![0, 0] · slices_S2x800000_S1x800000_0_0) main_arg1
  let main_v60 : IVec S800000 32 := shapeCast S800000 main_v59 shapeCasts_S1x800000_S800000
  let main_c_22 : IVec S_ 32 := constantI S_ 32 0#32
  let main_v61 : IVec S800000 32 := broadcastInDim S800000 ![] bcast_S_S800000 main_c_22
  let main_v62 : IVec S800000 1 := cmpi .sge main_v60 main_v61
  let main_v63 : IVec S1x800000 32 := (extractStridedSlice S1x800000 ![0, 0] · slices_S2x800000_S1x800000_0_0) main_arg1
  let main_v64 : IVec S800000 32 := shapeCast S800000 main_v63 shapeCasts_S1x800000_S800000
  let main_c_23 : IVec S_ 32 := constantI S_ 32 50000#32
  let main_v65 : IVec S800000 32 := broadcastInDim S800000 ![] bcast_S_S800000 main_c_23
  let main_v66 : IVec S800000 1 := cmpi .slt main_v64 main_v65
  let main_v67 : IVec S800000 1 := andi main_v62 main_v66
  let main_c_24 : IVec S_ 1 := constantI S_ 1 1#1
  let main_v68 : IVec S_ 1 := (fun x v => Host.reduce IntOp.andi x v reducesTo_S800000_S_d0 h_S_) main_v67 main_c_24
  fn_part4 (F := F) main_v58 main_v68

def fn_part2 {F : FTy → Type} [FloatOps F] (main_arg1 : IVec S2x800000 32) (main_arg9 : FVec F S3x128 .f32) (main_arg10 : FVec F S128x128 .f32) (main_arg11 : FVec F S128 .f32) (main_arg12 : FVec F S128x1 .f32) (main_arg13 : FVec F S1 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg12
  let main_cst_18 : FVec F S_ .f32 := constant S_ .f32 0x7F800000#32
  let main_v50 : FVec F S128x1 .f32 := broadcastInDim S128x1 ![] bcast_S_S128x1 main_cst_18
  fn_part3 (F := F) main_arg1 main_arg13 main_v48 main_v49 main_v50

def fn_part1 {F : FTy → Type} [FloatOps F] (main_arg1 : IVec S2x800000 32) (main_arg6 : FVec F S3x128x128 .f32) (main_arg7 : FVec F S3x128 .f32) (main_arg8 : FVec F S3x16x128 .f32) (main_arg9 : FVec F S3x128 .f32) (main_arg10 : FVec F S128x128 .f32) (main_arg11 : FVec F S128 .f32) (main_arg12 : FVec F S128x1 .f32) (main_arg13 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x16x128 .f32 := Host.absf main_arg8
  let main_cst_10 : FVec F S_ .f32 := constant S_ .f32 0x7F800000#32
  let main_v30 : FVec F S3x16x128 .f32 := broadcastInDim S3x16x128 ![] bcast_S_S3x16x128 main_cst_10
  let main_v31 : IVec S3x16x128 1 := cmpf .olt main_v29 main_v30
  let main_c_11 : IVec S_ 1 := constantI S_ 1 1#1
  let main_v32 : IVec S_ 1 := (fun x v => Host.reduce IntOp.andi x v reducesTo_S3x16x128_S_d0_1_2 h_S_) main_v31 main_c_11
  let main_v33 : IVec S_ 1 := andi main_v28 main_v32
  fn_part2 (F := F) main_arg1 main_arg9 main_arg10 main_arg11 main_arg12 main_arg13 main_v33

def fn {F : FTy → Type} [FloatOps F] (main_arg0 : FVec F S50000x128 .f32) (main_arg1 : IVec S2x800000 32) (main_arg2 : IVec S50000 32) (main_arg3 : FVec F S800000x16 .f32) (main_arg4 : FVec F S3x128x128 .f32) (main_arg5 : FVec F S3x128 .f32) (main_arg6 : FVec F S3x128x128 .f32) (main_arg7 : FVec F S3x128 .f32) (main_arg8 : FVec F S3x16x128 .f32) (main_arg9 : FVec F S3x128 .f32) (main_arg10 : FVec F S128x128 .f32) (main_arg11 : FVec F S128 .f32) (main_arg12 : FVec F S128x1 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg3
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg1 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S800000x16 : Shape := ⟨2, ![800000, 16]⟩
abbrev S3x128x128 : Shape := ⟨3, ![3, 128, 128]⟩
abbrev S3x128 : Shape := ⟨2, ![3, 128]⟩
abbrev S3x16x128 : Shape := ⟨3, ![3, 16, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S1x16x128 : Shape := ⟨3, ![1, 16, 128]⟩
abbrev S16x128 : Shape := ⟨2, ![16, 128]⟩
abbrev S1x128 : Shape := ⟨2, ![1, 128]⟩
abbrev S8000x16 : Shape := ⟨2, ![8000, 16]⟩
abbrev S8000x128 : Shape := ⟨2, ![8000, 128]⟩
abbrev S1x128x128 : Shape := ⟨3, ![1, 128, 128]⟩
abbrev S5000x128 : Shape := ⟨2, ![5000, 128]⟩
abbrev S64 : Shape := ⟨1, ![64]⟩
abbrev S50000x1 : Shape := ⟨2, ![50000, 1]⟩
abbrev S64x128 : Shape := ⟨2, ![64, 128]⟩
abbrev S64x1 : Shape := ⟨2, ![64, 1]⟩

abbrev nBuf : Space → Nat
  | .hbm => 159
  | .vmem => 60
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S800000x16, .f32⟩
  | 4 => ⟨S3x128x128, .f32⟩
  | 5 => ⟨S3x128, .f32⟩
  | 6 => ⟨S3x128x128, .f32⟩
  | 7 => ⟨S3x128, .f32⟩
  | 8 => ⟨S3x16x128, .f32⟩
  | 9 => ⟨S3x128, .f32⟩
  | 10 => ⟨S128x128, .f32⟩
  | 11 => ⟨S128, .f32⟩
  | 12 => ⟨S128x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S1, .i32⟩
  | 27 => ⟨S_, .i32⟩
  | 28 => ⟨S800000x1, .i32⟩
  | 29 => ⟨S800000x1, .i1⟩
  | 30 => ⟨S1x1, .i32⟩
  | 31 => ⟨S800000x1, .i32⟩
  | 32 => ⟨S800000x1, .i1⟩
  | 33 => ⟨S800000x1, .i1⟩
  | 34 => ⟨S_, .i1⟩
  | 35 => ⟨S800000, .i1⟩
  | 36 => ⟨S800000x128, .f32⟩
  | 37 => ⟨S800000x128, .i1⟩
  | 38 => ⟨S_, .f32⟩
  | 39 => ⟨S800000x128, .f32⟩
  | 40 => ⟨S800000x128, .f32⟩
  | 41 => ⟨S1x16x128, .f32⟩
  | 42 => ⟨S16x128, .f32⟩
  | 43 => ⟨S1x128, .f32⟩
  | 44 => ⟨S128, .f32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S1x128x128, .f32⟩
  | 51 => ⟨S128x128, .f32⟩
  | 52 => ⟨S1x128, .f32⟩
  | 53 => ⟨S128, .f32⟩
  | 54 => ⟨S1x128x128, .f32⟩
  | 55 => ⟨S128x128, .f32⟩
  | 56 => ⟨S1x128, .f32⟩
  | 57 => ⟨S128, .f32⟩
  | 58 => ⟨S50000x128, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S1, .i32⟩
  | 68 => ⟨S_, .i32⟩
  | 69 => ⟨S800000x1, .i32⟩
  | 70 => ⟨S800000x1, .i1⟩
  | 71 => ⟨S1x1, .i32⟩
  | 72 => ⟨S800000x1, .i32⟩
  | 73 => ⟨S800000x1, .i1⟩
  | 74 => ⟨S800000x1, .i1⟩
  | 75 => ⟨S_, .i1⟩
  | 76 => ⟨S800000, .i1⟩
  | 77 => ⟨S800000x128, .f32⟩
  | 78 => ⟨S800000x128, .i1⟩
  | 79 => ⟨S_, .f32⟩
  | 80 => ⟨S800000x128, .f32⟩
  | 81 => ⟨S800000x128, .f32⟩
  | 82 => ⟨S1x16x128, .f32⟩
  | 83 => ⟨S16x128, .f32⟩
  | 84 => ⟨S1x128, .f32⟩
  | 85 => ⟨S128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S1x128x128, .f32⟩
  | 92 => ⟨S128x128, .f32⟩
  | 93 => ⟨S1x128, .f32⟩
  | 94 => ⟨S128, .f32⟩
  | 95 => ⟨S1x128x128, .f32⟩
  | 96 => ⟨S128x128, .f32⟩
  | 97 => ⟨S1x128, .f32⟩
  | 98 => ⟨S128, .f32⟩
  | 99 => ⟨S50000x128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S1, .i32⟩
  | 109 => ⟨S_, .i32⟩
  | 110 => ⟨S800000x1, .i32⟩
  | 111 => ⟨S800000x1, .i1⟩
  | 112 => ⟨S1x1, .i32⟩
  | 113 => ⟨S800000x1, .i32⟩
  | 114 => ⟨S800000x1, .i1⟩
  | 115 => ⟨S800000x1, .i1⟩
  | 116 => ⟨S_, .i1⟩
  | 117 => ⟨S800000, .i1⟩
  | 118 => ⟨S800000x128, .f32⟩
  | 119 => ⟨S800000x128, .i1⟩
  | 120 => ⟨S_, .f32⟩
  | 121 => ⟨S800000x128, .f32⟩
  | 122 => ⟨S800000x128, .f32⟩
  | 123 => ⟨S1x16x128, .f32⟩
  | 124 => ⟨S16x128, .f32⟩
  | 125 => ⟨S1x128, .f32⟩
  | 126 => ⟨S128, .f32⟩
  | 127 => ⟨S800000x128, .f32⟩
  | _ => ⟨S50000x128, .f32⟩

abbrev hbmTy0_1 (i : Nat) : BufTy := match i % 128 with
  | 0 => ⟨S_, .f32⟩
  | 1 => ⟨S50000x128, .f32⟩
  | 2 => ⟨S800000x1, .i32⟩
  | 3 => ⟨S50000x128, .f32⟩
  | 4 => ⟨S1x128x128, .f32⟩
  | 5 => ⟨S128x128, .f32⟩
  | 6 => ⟨S1x128, .f32⟩
  | 7 => ⟨S128, .f32⟩
  | 8 => ⟨S1x128x128, .f32⟩
  | 9 => ⟨S128x128, .f32⟩
  | 10 => ⟨S1x128, .f32⟩
  | 11 => ⟨S128, .f32⟩
  | 12 => ⟨S50000x128, .f32⟩
  | 13 => ⟨S_, .f32⟩
  | 14 => ⟨S50000, .f32⟩
  | 15 => ⟨S_, .f32⟩
  | 16 => ⟨S64, .f32⟩
  | 17 => ⟨S50000x1, .i32⟩
  | 18 => ⟨S64, .f32⟩
  | 19 => ⟨S_, .f32⟩
  | 20 => ⟨S64x128, .f32⟩
  | 21 => ⟨S50000x1, .i32⟩
  | 22 => ⟨S64x128, .f32⟩
  | 23 => ⟨S_, .f32⟩
  | 24 => ⟨S64, .f32⟩
  | 25 => ⟨S64, .f32⟩
  | 26 => ⟨S64x1, .f32⟩
  | 27 => ⟨S64x128, .f32⟩
  | 28 => ⟨S64x128, .f32⟩
  | 29 => ⟨S64x1, .f32⟩
  | 30 => ⟨S64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S8000x16, .f32⟩
  | .local _ .vmem, ⟨1, _⟩ => ⟨S8000x16, .f32⟩
  | .local _ .vmem, ⟨2, _⟩ => ⟨S8000x128, .f32⟩
  | .local _ .vmem, ⟨3, _⟩ => ⟨S8000x128, .f32⟩
  | .local _ .vmem, ⟨4, _⟩ => ⟨S16x128, .f32⟩
  | .local _ .vmem, ⟨5, _⟩ => ⟨S128, .f32⟩
  | .local _ .vmem, ⟨6, _⟩ => ⟨S8000x128, .f32⟩
  | .local _ .vmem, ⟨7, _⟩ => ⟨S8000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S8000x16, .f32⟩
  | .local _ .vmem, ⟨19, _⟩ => ⟨S8000x16, .f32⟩
  | .local _ .vmem, ⟨20, _⟩ => ⟨S8000x128, .f32⟩
  | .local _ .vmem, ⟨21, _⟩ => ⟨S8000x128, .f32⟩
  | .local _ .vmem, ⟨22, _⟩ => ⟨S16x128, .f32⟩
  | .local _ .vmem, ⟨23, _⟩ => ⟨S128, .f32⟩
  | .local _ .vmem, ⟨24, _⟩ => ⟨S8000x128, .f32⟩
  | .local _ .vmem, ⟨25, _⟩ => ⟨S8000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S128, .f32⟩
  | .local _ .vmem, ⟨32, _⟩ => ⟨S128x128, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S8000x16, .f32⟩
  | .local _ .vmem, ⟨37, _⟩ => ⟨S8000x16, .f32⟩
  | .local _ .vmem, ⟨38, _⟩ => ⟨S8000x128, .f32⟩
  | .local _ .vmem, ⟨39, _⟩ => ⟨S8000x128, .f32⟩
  | .local _ .vmem, ⟨40, _⟩ => ⟨S16x128, .f32⟩
  | .local _ .vmem, ⟨41, _⟩ => ⟨S128, .f32⟩
  | .local _ .vmem, ⟨42, _⟩ => ⟨S8000x128, .f32⟩
  | .local _ .vmem, ⟨43, _⟩ => ⟨S8000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S128, .f32⟩
  | .local _ .vmem, ⟨50, _⟩ => ⟨S128x128, .f32⟩
  | .local _ .vmem, ⟨51, _⟩ => ⟨S128, .f32⟩
  | .local _ .vmem, ⟨52, _⟩ => ⟨S5000x128, .f32⟩
  | .local _ .vmem, ⟨53, _⟩ => ⟨S5000x128, .f32⟩
  | .local _ .vmem, ⟨54, _⟩ => ⟨S64x128, .f32⟩
  | .local _ .vmem, ⟨55, _⟩ => ⟨S128x128, .f32⟩
  | .local _ .vmem, ⟨56, _⟩ => ⟨S128, .f32⟩
  | .local _ .vmem, ⟨57, _⟩ => ⟨S128x1, .f32⟩
  | .local _ .vmem, ⟨58, _⟩ => ⟨S1, .f32⟩
  | .local _ .vmem, ⟨59, _⟩ => ⟨S64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_cst : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_cst_0 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_call2_c : Ref sig .tc := ⟨.hbm, 100, rfl⟩
abbrev main_call2_v0 : Ref sig .tc := ⟨.hbm, 101, rfl⟩
abbrev main_call2_v1 : Ref sig .tc := ⟨.hbm, 102, rfl⟩
abbrev main_call2_c_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_c_1 : Ref sig .tc := ⟨.hbm, 108, rfl⟩
abbrev main_call2_c_2 : Ref sig .tc := ⟨.hbm, 109, rfl⟩
abbrev main_call2_v6 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_c_3 : Ref sig .tc := ⟨.hbm, 116, rfl⟩
abbrev main_call2_v12 : Ref sig .tc := ⟨.hbm, 117, rfl⟩
abbrev main_call2_v13 : Ref sig .tc := ⟨.hbm, 118, rfl⟩
abbrev main_call2_v14 : Ref sig .tc := ⟨.hbm, 119, rfl⟩
abbrev main_call2_cst : Ref sig .tc := ⟨.hbm, 120, rfl⟩
abbrev main_call2_v15 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_cst_1 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_cst_2 : Ref sig .tc := ⟨.hbm, 141, rfl⟩
abbrev main_v58 : Ref sig .tc := ⟨.hbm, 142, rfl⟩
abbrev main_cst_3 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_cst_4 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_cst_5 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg6_1 : Ref sig .tc := ⟨.vmem, 53, rfl⟩
abbrev cc6_stg0_0 : Ref sig .tc := ⟨.vmem, 54, rfl⟩
abbrev cc6_stg1_0 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem6_1 : DmaSem sig := 53
abbrev cc6_sem0_0 : DmaSem sig := 54
abbrev cc6_sem1_0 : DmaSem sig := 55
abbrev cc6_sem2_0 : DmaSem sig := 56
abbrev cc6_sem3_0 : DmaSem sig := 57
abbrev cc6_sem4_0 : DmaSem sig := 58
abbrev cc6_sem5_0 : DmaSem sig := 59

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S8000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S3x16x128_S1x16x128_0_0_0 : S3x16x128.Slices ![0, 0, 0] S1x16x128
  shapeCasts_S1x16x128_S16x128 : S1x16x128.ShapeCasts S16x128
  slices_S3x128_S1x128_0_0 : S3x128.Slices ![0, 0] S1x128
  shapeCasts_S1x128_S128 : S1x128.ShapeCasts S128
  inb_S8000x16_S8000x16_0_0 : ∀ a, (![0, 0] : Fin 2 → Nat) a + S8000x16.size a ≤ S8000x16.size a
  h_S8000x16 : 0 < S8000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  slices_S3x16x128_S1x16x128_1_0_0 : S3x16x128.Slices ![1, 0, 0] S1x16x128
  slices_S3x128_S1x128_1_0 : S3x128.Slices ![1, 0] S1x128
  slices_S3x128x128_S1x128x128_1_0_0 : S3x128x128.Slices ![1, 0, 0] S1x128x128
  slices_S3x16x128_S1x16x128_2_0_0 : S3x16x128.Slices ![2, 0, 0] S1x16x128
  slices_S3x128_S1x128_2_0 : S3x128.Slices ![2, 0] S1x128
  slices_S3x128x128_S1x128x128_2_0_0 : S3x128x128.Slices ![2, 0, 0] S1x128x128
  bcast_S_S50000 : S_.BroadcastsInDim S50000 (![] : Fin 0 → Fin S50000.rank)
  bcast_S_S64 : S_.BroadcastsInDim S64 (![] : Fin 0 → Fin S64.rank)
  bcast_S50000_S50000x1_0 : S50000.BroadcastsInDim S50000x1 (![0] : Fin 1 → Fin S50000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S64x128 : S1x128.Broadcasts S64x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  shapeCasts_S64x1_S64 : S64x1.ShapeCasts S64
  gather_S50000x128_S800000x1_S800000x128_1_0_n_n_0_1_1128_wf : GatherDims.WF S50000x128 S800000x1 S800000x128 [1] [0] [] [0] [] 1 ![1, 128]
  dot_S8000x16_S16x128_S8000x128_1_0_0_1_n_n_wf : DotDims.WF S8000x16 S16x128 S8000x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S800000x16.size a
  hwx0_0 : ∀ i : grid0.Coords, EltTy.bits .f32 = 32 ∨ (Rect.block (s := S800000x16) S8000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S800000x128.size a
  hwx0_4 : ∀ i : grid0.Coords, EltTy.bits .f32 = 32 ∨ (Rect.block (s := S800000x128) S8000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x16.size a ≤ S800000x16.size a
  hwx2_0 : ∀ i : grid2.Coords, EltTy.bits .f32 = 32 ∨ (Rect.block (s := S800000x16) S8000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .f32 = 32 ∨ (Rect.block (s := S800000x128) S8000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x128.size a ≤ S16x128.size a
  hwx2_2 : ∀ i : grid2.Coords, EltTy.bits .f32 = 32 ∨ (Rect.block (s := S16x128) S16x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x128.size a ≤ S800000x128.size a
  hwx2_4 : ∀ i : grid2.Coords, EltTy.bits .f32 = 32 ∨ (Rect.block (s := S800000x128) S8000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x16.size a ≤ S800000x16.size a
  hwx4_0 : ∀ i : grid4.Coords, EltTy.bits .f32 = 32 ∨ (Rect.block (s := S800000x16) S8000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S800000x128.size a
  hwx4_1 : ∀ i : grid4.Coords, EltTy.bits .f32 = 32 ∨ (Rect.block (s := S800000x128) S8000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x128.size a ≤ S16x128.size a
  hwx4_2 : ∀ i : grid4.Coords, EltTy.bits .f32 = 32 ∨ (Rect.block (s := S16x128) S16x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8000x128.size a ≤ S800000x128.size a
  hwx4_4 : ∀ i : grid4.Coords, EltTy.bits .f32 = 32 ∨ (Rect.block (s := S800000x128) S8000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S64x128.size a ≤ S64x128.size a
  hwx6_0 : ∀ i : grid6.Coords, EltTy.bits .f32 = 32 ∨ (Rect.block (s := S64x128) S64x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x1.size a ≤ S128x1.size a
  hwx6_3 : ∀ i : grid6.Coords, EltTy.bits .f32 = 32 ∨ (Rect.block (s := S128x1) S128x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1.size a ≤ S1.size a
  hwx6_4 : ∀ i : grid6.Coords, EltTy.bits .f32 = 32 ∨ (Rect.block (s := S1) S1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x1.size a ≤ S64x1.size a
  hwx6_5 : ∀ i : grid6.Coords, EltTy.bits .f32 = 32 ∨ (Rect.block (s := S64x1) S64x1.size (cc6_transform_5 i) (hinb6_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg3) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg3) S8000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S16x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S8000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v21) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v38) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v39) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_arg3) S8000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v42) S16x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v45) S8000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v39) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v48) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v50) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v52) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v54) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v56) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v57) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v69) S64x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg11) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg12) S128x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg13) S1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v70) S64x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S800000x16 : Shape := ⟨2, ![800000, 16]⟩
abbrev S3x128x128 : Shape := ⟨3, ![3, 128, 128]⟩
abbrev S3x128 : Shape := ⟨2, ![3, 128]⟩
abbrev S3x16x128 : Shape := ⟨3, ![3, 16, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S1x16x128 : Shape := ⟨3, ![1, 16, 128]⟩
abbrev S16x128 : Shape := ⟨2, ![16, 128]⟩
abbrev S800000x128 : Shape := ⟨2, ![800000, 128]⟩
abbrev S1x128 : Shape := ⟨2, ![1, 128]⟩
abbrev S_ : Shape := ⟨0, ![]⟩
abbrev S800000x1 : Shape := ⟨2, ![800000, 1]⟩
abbrev S1x128x128 : Shape := ⟨3, ![1, 128, 128]⟩
abbrev S64 : Shape := ⟨1, ![64]⟩
abbrev S50000x1 : Shape := ⟨2, ![50000, 1]⟩
abbrev S64x128 : Shape := ⟨2, ![64, 128]⟩
abbrev S64x1 : Shape := ⟨2, ![64, 1]⟩
abbrev S1x1 : Shape := ⟨2, ![1, 1]⟩

abbrev nBuf : Space → Nat
  | .hbm => 199
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S800000x16, .f32⟩
  | 4 => ⟨S3x128x128, .f32⟩
  | 5 => ⟨S3x128, .f32⟩
  | 6 => ⟨S3x128x128, .f32⟩
  | 7 => ⟨S3x128, .f32⟩
  | 8 => ⟨S3x16x128, .f32⟩
  | 9 => ⟨S3x128, .f32⟩
  | 10 => ⟨S128x128, .f32⟩
  | 11 => ⟨S128, .f32⟩
  | 12 => ⟨S128x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S1x16x128, .f32⟩
  | 19 => ⟨S16x128, .f32⟩
  | 20 => ⟨S800000x128, .f32⟩
  | 21 => ⟨S1x128, .f32⟩
  | 22 => ⟨S128, .f32⟩
  | 23 => ⟨S1x128, .f32⟩
  | 24 => ⟨S800000x128, .f32⟩
  | 25 => ⟨S800000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S800000x128, .f32⟩
  | 36 => ⟨S_, .f32⟩
  | 37 => ⟨S800000x128, .f32⟩
  | 38 => ⟨S800000x128, .f32⟩
  | 39 => ⟨S_, .f32⟩
  | 40 => ⟨S50000x128, .f32⟩
  | 41 => ⟨S800000x1, .i32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S1x128x128, .f32⟩
  | 48 => ⟨S128x128, .f32⟩
  | 49 => ⟨S50000x128, .f32⟩
  | 50 => ⟨S1x128, .f32⟩
  | 51 => ⟨S128, .f32⟩
  | 52 => ⟨S1x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S1x128x128, .f32⟩
  | 59 => ⟨S128x128, .f32⟩
  | 60 => ⟨S50000x128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S1x16x128, .f32⟩
  | 70 => ⟨S16x128, .f32⟩
  | 71 => ⟨S800000x128, .f32⟩
  | 72 => ⟨S1x128, .f32⟩
  | 73 => ⟨S128, .f32⟩
  | 74 => ⟨S1x128, .f32⟩
  | 75 => ⟨S800000x128, .f32⟩
  | 76 => ⟨S800000x128, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S800000x128, .f32⟩
  | 87 => ⟨S_, .f32⟩
  | 88 => ⟨S800000x128, .f32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S1x128x128, .f32⟩
  | 99 => ⟨S128x128, .f32⟩
  | 100 => ⟨S50000x128, .f32⟩
  | 101 => ⟨S1x128, .f32⟩
  | 102 => ⟨S128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S1x128x128, .f32⟩
  | 110 => ⟨S128x128, .f32⟩
  | 111 => ⟨S50000x128, .f32⟩
  | 112 => ⟨S1x128, .f32⟩
  | 113 => ⟨S128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S1x16x128, .f32⟩
  | 121 => ⟨S16x128, .f32⟩
  | 122 => ⟨S800000x128, .f32⟩
  | 123 => ⟨S1x128, .f32⟩
  | 124 => ⟨S128, .f32⟩
  | 125 => ⟨S1x128, .f32⟩
  | 126 => ⟨S800000x128, .f32⟩
  | 127 => ⟨S800000x128, .f32⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x128, .f32⟩
  | 9 => ⟨S800000x128, .f32⟩
  | 10 => ⟨S_, .f32⟩
  | 11 => ⟨S800000x128, .f32⟩
  | 12 => ⟨S800000x128, .f32⟩
  | 13 => ⟨S_, .f32⟩
  | 14 => ⟨S50000x128, .f32⟩
  | 15 => ⟨S800000x1, .i32⟩
  | 16 => ⟨S50000x128, .f32⟩
  | 17 => ⟨S_, .f32⟩
  | 18 => ⟨S50000x128, .f32⟩
  | 19 => ⟨S50000x128, .f32⟩
  | 20 => ⟨S50000x128, .f32⟩
  | 21 => ⟨S1x128x128, .f32⟩
  | 22 => ⟨S128x128, .f32⟩
  | 23 => ⟨S50000x128, .f32⟩
  | 24 => ⟨S1x128, .f32⟩
  | 25 => ⟨S128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S1x128x128, .f32⟩
  | 33 => ⟨S128x128, .f32⟩
  | 34 => ⟨S50000x128, .f32⟩
  | 35 => ⟨S1x128, .f32⟩
  | 36 => ⟨S128, .f32⟩
  | 37 => ⟨S1x128, .f32⟩
  | 38 => ⟨S50000x128, .f32⟩
  | 39 => ⟨S50000x128, .f32⟩
  | 40 => ⟨S_, .f32⟩
  | 41 => ⟨S50000x128, .f32⟩
  | 42 => ⟨S50000x128, .f32⟩
  | 43 => ⟨S_, .f32⟩
  | 44 => ⟨S50000, .f32⟩
  | 45 => ⟨S_, .f32⟩
  | 46 => ⟨S64, .f32⟩
  | 47 => ⟨S50000x1, .i32⟩
  | 48 => ⟨S64, .f32⟩
  | 49 => ⟨S_, .f32⟩
  | 50 => ⟨S64x128, .f32⟩
  | 51 => ⟨S50000x1, .i32⟩
  | 52 => ⟨S64x128, .f32⟩
  | 53 => ⟨S_, .f32⟩
  | 54 => ⟨S64, .f32⟩
  | 55 => ⟨S64, .f32⟩
  | 56 => ⟨S64x1, .f32⟩
  | 57 => ⟨S64x128, .f32⟩
  | 58 => ⟨S64x128, .f32⟩
  | 59 => ⟨S64x128, .f32⟩
  | 60 => ⟨S1x128, .f32⟩
  | 61 => ⟨S64x128, .f32⟩
  | 62 => ⟨S64x128, .f32⟩
  | 63 => ⟨S_, .f32⟩
  | 64 => ⟨S64x128, .f32⟩
  | 65 => ⟨S64x128, .f32⟩
  | 66 => ⟨S64x1, .f32⟩
  | 67 => ⟨S1x1, .f32⟩
  | 68 => ⟨S64x1, .f32⟩
  | 69 => ⟨S64x1, .f32⟩
  | 70 => ⟨S64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call0_cst : Ref sig .tc := ⟨.hbm, 36, rfl⟩
abbrev main_call0_v0 : Ref sig .tc := ⟨.hbm, 37, rfl⟩
abbrev main_v20 : Ref sig .tc := ⟨.hbm, 38, rfl⟩
abbrev main_cst : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_cst : Ref sig .tc := ⟨.hbm, 55, rfl⟩
abbrev main_call1_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call2_cst : Ref sig .tc := ⟨.hbm, 66, rfl⟩
abbrev main_call2_v0 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_2 : Ref sig .tc := ⟨.hbm, 77, rfl⟩
abbrev main_v53 : Ref sig .tc := ⟨.hbm, 78, rfl⟩
abbrev main_v54 : Ref sig .tc := ⟨.hbm, 79, rfl⟩
abbrev main_c_3 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_call3_cst : Ref sig .tc := ⟨.hbm, 87, rfl⟩
abbrev main_call3_v0 : Ref sig .tc := ⟨.hbm, 88, rfl⟩
abbrev main_v61 : Ref sig .tc := ⟨.hbm, 89, rfl⟩
abbrev main_cst_4 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_5 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_call4_cst : Ref sig .tc := ⟨.hbm, 106, rfl⟩
abbrev main_call4_v0 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call5_cst : Ref sig .tc := ⟨.hbm, 117, rfl⟩
abbrev main_call5_v0 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_6 : Ref sig .tc := ⟨.hbm, 128, rfl⟩
abbrev main_v94 : Ref sig .tc := ⟨.hbm, 129, rfl⟩
abbrev main_v95 : Ref sig .tc := ⟨.hbm, 130, rfl⟩
abbrev main_c_7 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_call6_cst : Ref sig .tc := ⟨.hbm, 138, rfl⟩
abbrev main_call6_v0 : Ref sig .tc := ⟨.hbm, 139, rfl⟩
abbrev main_v102 : Ref sig .tc := ⟨.hbm, 140, rfl⟩
abbrev main_cst_8 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_9 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_call7_cst : Ref sig .tc := ⟨.hbm, 157, rfl⟩
abbrev main_call7_v0 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_call8_cst : Ref sig .tc := ⟨.hbm, 168, rfl⟩
abbrev main_call8_v0 : Ref sig .tc := ⟨.hbm, 169, rfl⟩
abbrev main_v126 : Ref sig .tc := ⟨.hbm, 170, rfl⟩
abbrev main_cst_10 : Ref sig .tc := ⟨.hbm, 171, rfl⟩
abbrev main_v127 : Ref sig .tc := ⟨.hbm, 172, rfl⟩
abbrev main_cst_11 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_12 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_13 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_call9_cst : Ref sig .tc := ⟨.hbm, 191, rfl⟩
abbrev main_call9_v0 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x16x128_S1x16x128_0_0_0 : S3x16x128.Slices ![0, 0, 0] S1x16x128
  shapeCasts_S1x16x128_S16x128 : S1x16x128.ShapeCasts S16x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  bcast_S1x128_S50000x128_0_1 : S1x128.BroadcastsInDim S50000x128 (![0, 1] : Fin 2 → Fin S50000x128.rank)
  slices_S3x16x128_S1x16x128_1_0_0 : S3x16x128.Slices ![1, 0, 0] S1x16x128
  slices_S3x128_S1x128_1_0 : S3x128.Slices ![1, 0] S1x128
  slices_S3x128x128_S1x128x128_1_0_0 : S3x128x128.Slices ![1, 0, 0] S1x128x128
  slices_S3x16x128_S1x16x128_2_0_0 : S3x16x128.Slices ![2, 0, 0] S1x16x128
  slices_S3x128_S1x128_2_0 : S3x128.Slices ![2, 0] S1x128
  slices_S3x128x128_S1x128x128_2_0_0 : S3x128x128.Slices ![2, 0, 0] S1x128x128
  bcast_S_S50000 : S_.BroadcastsInDim S50000 (![] : Fin 0 → Fin S50000.rank)
  bcast_S_S64 : S_.BroadcastsInDim S64 (![] : Fin 0 → Fin S64.rank)
  bcast_S50000_S50000x1_0 : S50000.BroadcastsInDim S50000x1 (![0] : Fin 1 → Fin S50000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  dot_S800000x16_S16x128_S800000x128_1_0_0_1_n_n_wf : DotDims.WF S800000x16 S16x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []

variable [Facts₀]

def dot_S800000x16_S16x128_S800000x128_1_0_0_1_n_n : DotDims S800000x16 S16x128 S800000x128 where
  lhsContracting := [1]
  rhsContracting := [0]
  lhsNonContracting := [0]
  rhsNonContracting := [1]
  lhsBatch := []
  rhsBatch := []
  wf := dot_S800000x16_S16x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.LibMatmulPlain.lean ====
import Idealize.ShloMosaic.PureOps.Ideal
import Idealize.ShloMosaic.PureOps.Ideal.Laws
import Idealize.ShloMosaic.Lib.ValueIdx
import Mathlib.Algebra.BigOperators.Group.Finset.Basic

/-!
# The plain matrix product of the matrix unit, read at an index

For the dimension numbers of an M×K by K×N product (the left operand contracted on its axis 1, the right on its
axis 0, no batch axes), the matrix unit's product into an accumulator is, at (p, n), the accumulator there plus
the sum over q of lhs(p, q) · rhs(q, n) on the extended reals.
-/

noncomputable section

open scoped BigOperators

namespace Cert.MatmulPlain

open Idealize.ShloMosaic Idealize.ShloMosaic.ValueIdx

variable {M K N : Nat} (D : DotDims ⟨2, ![M, K]⟩ ⟨2, ![K, N]⟩ ⟨2, ![M, N]⟩)

/-- The one contracted extent is the left operand's extent on its axis 1. -/
private theorem contr_size_plain (hlc : D.lhsContracting = [1]) (h0 : 0 < D.contr.rank) :
    D.contr.size ⟨0, h0⟩ = K := by
  have hp : 0 < D.lhsContracting.length := by rw [hlc]; exact Nat.one_pos
  have hsz := D.size_contr 0 hp
  have hK : ∀ (l : List (Fin 2)) (h : 0 < l.length), l = [1] → (⟨2, ![M, K]⟩ : Shape).size l[0] = K := by
    intro l h e; subst e; rfl
  exact hsz.trans (hK _ hp hlc)

/-- On the left operand's axis 0, its one non-contracting axis and the result's first, the left index reads the
    result index's first coordinate. -/
theorem lhsIdx_val_zero (hln : D.lhsNonContracting = [0]) (hlb : D.lhsBatch = [])
    (j : (⟨2, ![M, N]⟩ : Shape).Idx) (k : D.contr.Idx) :
    (D.lhsIdx j k (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val :=
    fun a b ha hb h => by subst h; rfl
  exact key _ _ _ _ (by simp [hlb, hln])

/-- On the left operand's axis 1, the contracted one, the left index reads the contraction position's coordinate. -/
theorem lhsIdx_val_one (hlc : D.lhsContracting = [1]) (j : (⟨2, ![M, N]⟩ : Shape).Idx) (k : D.contr.Idx) :
    (D.lhsIdx j k (1 : Fin 2)).val = (k ⟨0, by rw [D.rank_contr, hlc]; exact Nat.one_pos⟩).val :=
  D.lhsIdx_val_of_single hlc j k

/-- On the right operand's axis 0, the contracted one, the right index reads the contraction position's coordinate. -/
theorem rhsIdx_val_zero (hrc : D.rhsContracting = [0]) (j : (⟨2, ![M, N]⟩ : Shape).Idx) (k : D.contr.Idx) :
    (D.rhsIdx j k (0 : Fin 2)).val = (k ⟨0, by rw [D.rank_contr, ← D.length_contracting, hrc]; exact Nat.one_pos⟩).val :=
  D.rhsIdx_val_of_single hrc j k

/-- On the right operand's axis 1, its one non-contracting axis and the result's second (after the left operand's
    one), the right index reads the result index's second coordinate. -/
theorem rhsIdx_val_one (hln : D.lhsNonContracting = [0]) (hrn : D.rhsNonContracting = [1]) (hlb : D.lhsBatch = [])
    (hrb : D.rhsBatch = []) (j : (⟨2, ![M, N]⟩ : Shape).Idx) (k : D.contr.Idx) :
    (D.rhsIdx j k (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val :=
    fun a b ha hb h => by subst h; rfl
  exact key _ _ _ _ (by simp [hlb, hln, hrn])

/-- THE PRODUCT READ AT (p, n): the accumulator's entry plus the sum over the contracted position q of
    lhs(p, q) · rhs(q, n). -/
theorem matmul_plain_apply (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul D prec lhs rhs acc (ix2 p n) = acc (ix2 p n) + ∑ q : Fin K, lhs (ix2 p q) * rhs (ix2 q n) := by
  have hr : D.contr.rank = 1 := by rw [DotDims.rank_contr, hlc]; rfl
  have hs : D.contr.size ⟨0, by omega⟩ = K := contr_size_plain D hlc (by omega)
  rw [Ideal.matmul_apply]
  congr 1
  -- the contraction index set is its one coordinate's range: re-index the sum through that bijection
  rw [← Equiv.sum_comp (contrEquiv1 D K hr hs).symm]
  refine Finset.sum_congr rfl fun q _ => ?_
  have hl : D.lhsIdx (ix2 p n) ((contrEquiv1 D K hr hs).symm q) = ix2 p q := by
    funext a
    match a with
    | ⟨0, _⟩ => exact Fin.ext (lhsIdx_val_zero D hln hlb (ix2 p n) _)
    | ⟨1, _⟩ => exact Fin.ext ((lhsIdx_val_one D hlc (ix2 p n) _).trans (contrEquiv1_symm_val D K hr hs q))
  have hrr : D.rhsIdx (ix2 p n) ((contrEquiv1 D K hr hs).symm q) = ix2 q n := by
    funext a
    match a with
    | ⟨0, _⟩ => exact Fin.ext ((rhsIdx_val_zero D hrc (ix2 p n) _).trans (contrEquiv1_symm_val D K hr hs q))
    | ⟨1, _⟩ => exact Fin.ext (rhsIdx_val_one D hln hrn hlb hrb (ix2 p n) _)
  rw [hl, hrr]

end Cert.MatmulPlain

end
-- ==== Proof.LibDotPlain.lean ====
import Idealize.ShloMosaic.PureOps.Ideal
import Idealize.ShloMosaic.PureOps.Ideal.Laws
import Idealize.ShloMosaic.Lib.ValueIdx
import Mathlib.Algebra.BigOperators.Group.Finset.Basic
import proofs.«431309_j3118146257466_1_alg».proof.Proof.LibMatmulPlain

/-!
# The host's plain matrix product, read at an index

For the dimension numbers of an M×K by K×N product (the left operand contracted on its axis 1, the right on its
axis 0, no batch axes), the host's dot_general over the extended reals is, at (p, n), the sum over q of
lhs(p, q) · rhs(q, n). Over the extended reals the host's product is the same contraction as the matrix unit's
onto an accumulator that is zero everywhere, so the statement is the matrix unit's with the accumulator's
entry 0 dropped from the front of the sum.
-/

noncomputable section

open scoped BigOperators

namespace Cert.DotPlain

open Idealize.ShloMosaic Idealize.ShloMosaic.ValueIdx

variable {M K N : Nat} (D : DotDims ⟨2, ![M, K]⟩ ⟨2, ![K, N]⟩ ⟨2, ![M, N]⟩)

/-- THE HOST'S PRODUCT READ AT (p, n): the sum over the contracted position q of lhs(p, q) · rhs(q, n), whatever
    the precision mode and the schedule key. -/
theorem dot_plain_apply (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision) (sched : HostSchedule)
    (lhs : FVec Ideal ⟨2, ![M, K]⟩ φ₁) (rhs : FVec Ideal ⟨2, ![K, N]⟩ φ₂) (p : Fin M) (n : Fin N) :
    FloatOps.dotGeneral D prec sched lhs rhs (ix2 p n) = ∑ q : Fin K, lhs (ix2 p q) * rhs (ix2 q n) := by
  -- the host's product is the contraction onto the zero accumulator
  have hz : FloatOps.dotGeneral D prec sched lhs rhs (ix2 p n)
      = FloatOps.matmul D prec lhs rhs (fun _ => (0 : Ideal .f32)) (ix2 p n) := rfl
  rw [hz, Cert.MatmulPlain.matmul_plain_apply D hlc hrc hln hrn hlb hrb prec lhs rhs (fun _ => (0 : Ideal .f32)) p n]
  exact zero_add _

end Cert.DotPlain

end
-- ==== Proof.LibDenseRow.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Mathlib.Algebra.BigOperators.Group.Finset.Basic
import proofs.«431309_j3118146257466_1_alg».proof.Proof.LibMatmulPlain
import proofs.«431309_j3118146257466_1_alg».proof.Proof.LibDotPlain

/-!
# A dense layer with ReLU, one row at a time

A dense layer sends a row `h` of `K` entries to the row `n ↦ max (∑ q, h q · W q n + b n) 0` of `N` entries, over the
extended reals. A matrix of `M` rows goes through the layer row by row, so every vector operation the layer is made
of — the matrix product into a zero accumulator or the host's product, the bias laid along every row, the maximum
with zero — is read here on ONE ROW of its operand: the row of the result is a function of the same row of the
operand and of the whole weight matrix and bias. The statements are general in the three extents.
-/

noncomputable section

open scoped BigOperators

namespace Cert.Mlp

open Idealize.ShloMosaic Idealize.ShloMosaic.ValueIdx

/-! ## Rows -/

/-- The row times the matrix: entry `n` is `∑ q, h q · W q n`. -/
def lin {K N : Nat} (W : Fin K → Fin N → EReal) (h : Fin K → EReal) : Fin N → EReal := fun n => ∑ q : Fin K, h q * W q n

/-- Two rows added entry by entry. -/
def addRow {N : Nat} (u b : Fin N → EReal) : Fin N → EReal := fun n => u n + b n

/-- The maximum with zero, entry by entry. -/
def relu {N : Nat} (u : Fin N → EReal) : Fin N → EReal := fun n => max (u n) 0

/-- One dense layer with ReLU on a row. -/
def dense {K N : Nat} (W : Fin K → Fin N → EReal) (b : Fin N → EReal) (h : Fin K → EReal) : Fin N → EReal :=
  relu (addRow (lin W h) b)

/-- A rank-2 array as a function of its two coordinates. -/
def mat {K N : Nat} (W : (⟨2, ![K, N]⟩ : Shape).Idx → EReal) : Fin K → Fin N → EReal := fun q n => W (ix2 q n)

/-- Row `p` of a rank-2 array. -/
def rowAt {M K : Nat} (X : (⟨2, ![M, K]⟩ : Shape).Idx → EReal) (p : Fin M) : Fin K → EReal := fun q => X (ix2 p q)

/-- The one row of a `[1, N]` array. -/
def rowOf {N : Nat} (b : (⟨2, ![1, N]⟩ : Shape).Idx → EReal) : Fin N → EReal := fun n => b (ix2 (0 : Fin 1) n)

/-- A rank-1 array as a function of its coordinate. -/
def vecOf {N : Nat} (b : (⟨1, ![N]⟩ : Shape).Idx → EReal) : Fin N → EReal := fun n => b (ix1 n)

/-! ## Format changes and same-shape casts are the identity on the extended reals -/

/-- Narrowing the float format changes nothing at the extended reals. -/
theorem truncf_id {s : Shape} {φ ψ : FTy} (x : FVec Ideal s φ) (h : ψ.bits < φ.bits) : truncf ψ x h = x := rfl

/-! ## The matrix unit's side, on a row -/

section Mxu
variable {M K N : Nat} (D : DotDims ⟨2, ![M, K]⟩ ⟨2, ![K, N]⟩ ⟨2, ![M, N]⟩)

/-- Row `p` of the product into a zero accumulator is row `p` of the left operand times the right operand. -/
theorem mxu_rowAt (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision)
    (lhs : FVec Ideal ⟨2, ![M, K]⟩ φ₁) (rhs : FVec Ideal ⟨2, ![K, N]⟩ φ₂) (p : Fin M) :
    rowAt (matmul D prec lhs rhs (constant (F := Ideal) ⟨2, ![M, N]⟩ .f32 0x00000000#32)) p = lin (mat rhs) (rowAt lhs p) := by
  funext n
  show FloatOps.matmul D prec lhs rhs (constant (F := Ideal) ⟨2, ![M, N]⟩ .f32 0x00000000#32) (ix2 p n) = _
  rw [Cert.MatmulPlain.matmul_plain_apply D hlc hrc hln hrn hlb hrb prec lhs rhs _ p n]
  show Ideal.ofBits .f32 0x00000000#32 + _ = _
  rw [Ideal.ofBits_zero_f32, zero_add]
  rfl

/-- Row `p` of the host's product is row `p` of the left operand times the right operand. -/
theorem dot_rowAt (hlc : D.lhsContracting = [1]) (hrc : D.rhsContracting = [0])
    (hln : D.lhsNonContracting = [0]) (hrn : D.rhsNonContracting = [1]) (hlb : D.lhsBatch = []) (hrb : D.rhsBatch = [])
    {φ₁ φ₂ : FTy} (prec : Option ContractPrecision)
    (lhs : FVec Ideal ⟨2, ![M, K]⟩ φ₁) (rhs : FVec Ideal ⟨2, ![K, N]⟩ φ₂) (p : Fin M) :
    rowAt (Host.dotGeneral D prec lhs rhs) p = lin (mat rhs) (rowAt lhs p) := by
  funext n
  show FloatOps.dotGeneral D prec .single lhs rhs (ix2 p n) = _
  rw [Cert.DotPlain.dot_plain_apply D hlc hrc hln hrn hlb hrb prec .single lhs rhs p n]
  rfl

end Mxu

/-! ## The bias and the maximum with zero, on a row -/

section Pointwise
variable {M N : Nat}

/-- Row `p` of a matrix plus a one-row array laid along every row. -/
theorem bias_rowAt (v : FVec Ideal ⟨2, ![M, N]⟩ .f32) (b : FVec Ideal ⟨2, ![1, N]⟩ .f32)
    (hb : (⟨2, ![1, N]⟩ : Shape).Broadcasts ⟨2, ![M, N]⟩) (p : Fin M) :
    rowAt (addf v (broadcastTo ⟨2, ![M, N]⟩ b hb)) p = addRow (rowAt v p) (rowOf b) := by
  funext n
  show v (ix2 p n) + broadcastTo ⟨2, ![M, N]⟩ b hb (ix2 p n) = _
  rw [broadcastTo_1b_ab_apply]
  rfl

/-- Row `p` of the maximum of a matrix with the zero scalar spread over its shape (the kernel's spelling). -/
theorem relu_rowAt (v : FVec Ideal ⟨2, ![M, N]⟩ .f32) (p : Fin M) :
    rowAt (maximumf v (broadcast ⟨2, ![M, N]⟩ (Scalar.ofBits (F := Ideal) .f32 0x00000000#32))) p = relu (rowAt v p) := by
  funext n
  show max (v (ix2 p n)) (Ideal.ofBits .f32 0x00000000#32) = _
  rw [Ideal.ofBits_zero_f32]
  rfl

/-- Row `p` of a matrix plus a rank-1 array laid along every row through a one-row array (the host's spelling). -/
theorem hostBias_rowAt (v : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) :
    rowAt (addf v (broadcastInDim ⟨2, ![M, N]⟩ ![0, 1] h2 (broadcastInDim ⟨2, ![1, N]⟩ ![1] h1 b))) p
      = addRow (rowAt v p) (vecOf b) := by
  funext n
  show v (ix2 p n) + broadcastInDim ⟨2, ![M, N]⟩ ![0, 1] h2 (broadcastInDim ⟨2, ![1, N]⟩ ![1] h1 b) (ix2 p n) = _
  rw [Idealize.ShloMosaic.broadcastInDim_oneRow_apply]
  have e : broadcastInDim ⟨2, ![1, N]⟩ ![1] h1 b (ix2 (0 : Fin 1) n) = b (ix1 n) := by
    refine broadcastInDim_apply ![1] h1 b (ix2 (0 : Fin 1) n) (ix1 n) fun a => ?_
    match a with
    | ⟨0, _⟩ =>
      show n.val = if N = 1 then 0 else n.val
      split
      · have := n.isLt; omega
      · rfl
  rw [e]
  rfl

/-- Row `p` of the maximum of a matrix with the zero scalar array spread over its shape (the host's spelling). -/
theorem hostRelu_rowAt (v : FVec Ideal ⟨2, ![M, N]⟩ .f32)
    (h0 : (⟨0, ![]⟩ : Shape).BroadcastsInDim ⟨2, ![M, N]⟩ ![]) (p : Fin M) :
    rowAt (maximumf v (broadcastInDim ⟨2, ![M, N]⟩ ![] h0 (constant (F := Ideal) ⟨0, ![]⟩ .f32 0x00000000#32))) p
      = relu (rowAt v p) := by
  funext n
  show max (v (ix2 p n)) (broadcastInDim ⟨2, ![M, N]⟩ ![] h0 (constant (F := Ideal) ⟨0, ![]⟩ .f32 0x00000000#32) (ix2 p n)) = _
  rw [broadcastInDim_scalar_apply]
  show max (v (ix2 p n)) (Ideal.ofBits .f32 0x00000000#32) = _
  rw [Ideal.ofBits_zero_f32]
  rfl

/-- A rank-1 array recast as one row has that array as its row. -/
theorem rowOf_shapeCast (b : (⟨1, ![N]⟩ : Shape).Idx → EReal) (h : (⟨1, ![N]⟩ : Shape).ShapeCasts ⟨2, ![1, N]⟩) :
    rowOf (shapeCast ⟨2, ![1, N]⟩ b h) = vecOf b := by
  funext n
  show shapeCast ⟨2, ![1, N]⟩ b h (ix2 (0 : Fin 1) n) = b (ix1 n)
  exact shapeCast_a_1a_apply b h 0 n

end Pointwise

end Cert.Mlp

end
-- ==== Proof.Spec.lean ====
import proofs.«431309_j3118146257466_1_alg».proof.Proof.LibDenseRow

/-!
# The three layers of the network, one row at a time

Over the extended reals. An edge's message is the source node's row plus the edge's attribute row through a linear
map with bias, cut at zero. A node's update is its own row plus the sum of its incoming messages, through two dense
layers with the cut at zero. The readout sends a pooled row through one dense layer with the cut and then a linear
map with bias and no cut. Each whole array below is the row function applied on every row.
-/

noncomputable section

namespace Cert.Gine

open Idealize.ShloMosaic Idealize.ShloMosaic.ValueIdx Cert.Mlp

/-- An edge's message: `max (hs n + (∑ q, a q · We q n + be n)) 0`. -/
def msgRow {K N : Nat} (We : Fin K → Fin N → EReal) (be : Fin N → EReal) (hs : Fin N → EReal) (a : Fin K → EReal) :
    Fin N → EReal :=
  relu (addRow hs (addRow (lin We a) be))

/-- A node's update from its row `h` and its aggregate `agg`: two dense layers with the cut on `h + agg`. -/
def updRow {K H N : Nat} (W1 : Fin K → Fin H → EReal) (b1 : Fin H → EReal) (W2 : Fin H → Fin N → EReal) (b2 : Fin N → EReal)
    (h agg : Fin K → EReal) : Fin N → EReal :=
  dense W2 b2 (dense W1 b1 (addRow h agg))

/-- The readout of a pooled row: a dense layer with the cut, then a linear map with bias. -/
def headRow {K H N : Nat} (W1 : Fin K → Fin H → EReal) (b1 : Fin H → EReal) (W2 : Fin H → Fin N → EReal) (b2 : Fin N → EReal)
    (g : Fin K → EReal) : Fin N → EReal :=
  addRow (lin W2 (dense W1 b1 g)) b2

/-- All messages: row `e` is `msgRow` of row `e` of the gathered source rows and of the edge attributes. -/
def edgeMsg {E K N : Nat} (ea : (⟨2, ![E, K]⟩ : Shape).Idx → EReal) (hs : (⟨2, ![E, N]⟩ : Shape).Idx → EReal)
    (We : (⟨2, ![K, N]⟩ : Shape).Idx → EReal) (be : (⟨1, ![N]⟩ : Shape).Idx → EReal) : (⟨2, ![E, N]⟩ : Shape).Idx → EReal :=
  fun i => msgRow (mat We) (vecOf be) (rowAt hs (i 0)) (rowAt ea (i 0)) (i 1)

/-- All node updates: row `p` is `updRow` of row `p` of the node features and of the aggregates. -/
def nodeUpd {M K H N : Nat} (h agg : (⟨2, ![M, K]⟩ : Shape).Idx → EReal)
    (W1 : (⟨2, ![K, H]⟩ : Shape).Idx → EReal) (b1 : (⟨1, ![H]⟩ : Shape).Idx → EReal)
    (W2 : (⟨2, ![H, N]⟩ : Shape).Idx → EReal) (b2 : (⟨1, ![N]⟩ : Shape).Idx → EReal) : (⟨2, ![M, N]⟩ : Shape).Idx → EReal :=
  fun i => updRow (mat W1) (vecOf b1) (mat W2) (vecOf b2) (rowAt h (i 0)) (rowAt agg (i 0)) (i 1)

/-- The readout of every pooled row. -/
def headOut {M K H N : Nat} (g : (⟨2, ![M, K]⟩ : Shape).Idx → EReal)
    (W1 : (⟨2, ![K, H]⟩ : Shape).Idx → EReal) (b1 : (⟨1, ![H]⟩ : Shape).Idx → EReal)
    (W2 : (⟨2, ![H, N]⟩ : Shape).Idx → EReal) (b2 : (⟨1, ![N]⟩ : Shape).Idx → EReal) : (⟨2, ![M, N]⟩ : Shape).Idx → EReal :=
  fun i => headRow (mat W1) (vecOf b1) (mat W2) (vecOf b2) (rowAt g (i 0)) (i 1)

end Cert.Gine

end
-- ==== Proof.TakeDefs.lean ====
import Idealize.ShloMosaic.PureOps.Ideal
import Idealize.ShloMosaic.Lib.ValueIdx
import proofs.«431309_j3118146257466_1_alg».proof.KernelIdeal

/-!
# The row lookup with fill, as one function

The kernel program looks node rows up by index with a fill outside the table: a negative index wraps by the table's
length, a row whose wrapped index lies outside `[0, 49999]` is replaced by the fill word, and every other row is the
table's row at the wrapped index.
-/

noncomputable section

namespace Cert.KernelIdeal.TakeRows

open Cert.KernelIdeal Idealize.ShloMosaic Idealize.ShloMosaic.ValueIdx

variable [Cert.KernelIdeal.Facts]
open Cert.KernelIdeal.Facts₀ Cert.KernelIdeal.Facts

/-- The index column: a negative index wraps by the table's length; then one column. -/
def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The lookup with fill: rows whose wrapped index lies outside `[0, 49999]` are replaced by the fill word. -/
def takeRows (h : FVec Ideal S50000x128 .f32) (src : IVec S800000 32) : FVec Ideal S800000x128 .f32 :=
  select (broadcastInDim S800000x128 ![0] bcast_S800000_S800000x128_0
      (Host.reduce IntOp.andi
        (andi (cmpi .sge (wrapIdx src) (broadcastInDim S800000x1 ![] bcast_S_S800000x1 (constantI S_ 32 0#32)))
          (cmpi .sle (wrapIdx src) (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_))
    (Host.gather gather_S50000x128_S800000x1_S800000x128_1_0_n_n_0_1_1128 h (wrapIdx src))
    (broadcastInDim S800000x128 ![] bcast_S_S800000x128 (constant (F := Ideal) S_ .f32 0x7FC00000#32))

end Cert.KernelIdeal.TakeRows

end
-- ==== Proof.NetK.lean ====
import proofs.«431309_j3118146257466_1_alg».proof.Proof.Spec
import proofs.«431309_j3118146257466_1_alg».proof.Proof.TakeDefs

/-!
# The kernel program's network, as a composition of whole-array functions

One layer: look the source rows up, form every edge's message, add the messages into their target nodes, update
every node. The three layers use the three slices of the stacked weights. The readout pools the node rows by graph
(a sum per graph divided by the graph's node count, at least one), applies the readout rows and flattens.
-/

noncomputable section

namespace Cert.KernelIdeal.NetK

open Cert.KernelIdeal Idealize.ShloMosaic Idealize.ShloMosaic.ValueIdx

variable [Cert.KernelIdeal.Facts]
open Cert.KernelIdeal.Facts₀ Cert.KernelIdeal.Facts

/-- Row 0 of the edge list: the source nodes. -/
def srcK (ei : IVec S2x800000 32) : IVec S800000 32 :=
  shapeCast S800000 (extractStridedSlice S1x800000 ![0, 0] ei slices_S2x800000_S1x800000_0_0) shapeCasts_S1x800000_S800000
/-- Row 1 of the edge list: the target nodes. -/
def dstK (ei : IVec S2x800000 32) : IVec S800000 32 :=
  shapeCast S800000 (extractStridedSlice S1x800000 ![1, 0] ei slices_S2x800000_S1x800000_1_0) shapeCasts_S1x800000_S800000

/-- Slice `l` of a stack of three `[16, 128]` matrices. -/
def we0 (W : FVec Ideal S3x16x128 .f32) : FVec Ideal S16x128 .f32 :=
  shapeCast S16x128 (extractStridedSlice S1x16x128 ![0, 0, 0] W slices_S3x16x128_S1x16x128_0_0_0) shapeCasts_S1x16x128_S16x128
def we1 (W : FVec Ideal S3x16x128 .f32) : FVec Ideal S16x128 .f32 :=
  shapeCast S16x128 (extractStridedSlice S1x16x128 ![1, 0, 0] W slices_S3x16x128_S1x16x128_1_0_0) shapeCasts_S1x16x128_S16x128
def we2 (W : FVec Ideal S3x16x128 .f32) : FVec Ideal S16x128 .f32 :=
  shapeCast S16x128 (extractStridedSlice S1x16x128 ![2, 0, 0] W slices_S3x16x128_S1x16x128_2_0_0) shapeCasts_S1x16x128_S16x128

/-- Slice `l` of a stack of three rows of 128. -/
def vec0 (b : FVec Ideal S3x128 .f32) : FVec Ideal S128 .f32 :=
  shapeCast S128 (extractStridedSlice S1x128 ![0, 0] b slices_S3x128_S1x128_0_0) shapeCasts_S1x128_S128
def vec1 (b : FVec Ideal S3x128 .f32) : FVec Ideal S128 .f32 :=
  shapeCast S128 (extractStridedSlice S1x128 ![1, 0] b slices_S3x128_S1x128_1_0) shapeCasts_S1x128_S128
def vec2 (b : FVec Ideal S3x128 .f32) : FVec Ideal S128 .f32 :=
  shapeCast S128 (extractStridedSlice S1x128 ![2, 0] b slices_S3x128_S1x128_2_0) shapeCasts_S1x128_S128

/-- Slice `l` of a stack of three `[128, 128]` matrices. -/
def mat0 (W : FVec Ideal S3x128x128 .f32) : FVec Ideal S128x128 .f32 :=
  shapeCast S128x128 (extractStridedSlice S1x128x128 ![0, 0, 0] W slices_S3x128x128_S1x128x128_0_0_0) shapeCasts_S1x128x128_S128x128
def mat1 (W : FVec Ideal S3x128x128 .f32) : FVec Ideal S128x128 .f32 :=
  shapeCast S128x128 (extractStridedSlice S1x128x128 ![1, 0, 0] W slices_S3x128x128_S1x128x128_1_0_0) shapeCasts_S1x128x128_S128x128
def mat2 (W : FVec Ideal S3x128x128 .f32) : FVec Ideal S128x128 .f32 :=
  shapeCast S128x128 (extractStridedSlice S1x128x128 ![2, 0, 0] W slices_S3x128x128_S1x128x128_2_0_0) shapeCasts_S1x128x128_S128x128

/-- The messages added into their target nodes, from zero. -/
def aggK (dst : IVec S800000 32) (msg : FVec Ideal S800000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst) msg

/-- One layer on the node rows `h`, with that layer's weights. -/
def layerK (h : FVec Ideal S50000x128 .f32) (src dst : IVec S800000 32) (ea : FVec Ideal S800000x16 .f32)
    (We : FVec Ideal S16x128 .f32) (be : FVec Ideal S128 .f32) (W1 : FVec Ideal S128x128 .f32) (b1 : FVec Ideal S128 .f32)
    (W2 : FVec Ideal S128x128 .f32) (b2 : FVec Ideal S128 .f32) : FVec Ideal S50000x128 .f32 :=
  Cert.Gine.nodeUpd h (aggK dst (Cert.Gine.edgeMsg ea (TakeRows.takeRows h src) We be)) W1 b1 W2 b2

/-- The node rows pooled by graph: the sum of each graph's rows over its node count, at least one. -/
def poolK (h : FVec Ideal S50000x128 .f32) (batch : IVec S50000 32) : FVec Ideal S64x128 .f32 :=
  Host.divf
    (Host.scatterAdd scatter_S64x128_S50000x1_S50000x128_1_0_0_1
      (broadcastInDim S64x128 ![] bcast_S_S64x128 (constant (F := Ideal) S_ .f32 0x00000000#32))
      (broadcastInDim S50000x1 ![0] bcast_S50000_S50000x1_0 batch) h)
    (broadcastInDim S64x128 ![0, 1] bcast_S64x1_S64x128_0_1 (broadcastInDim S64x1 ![0] bcast_S64_S64x1_0
      (maximumf
        (Host.scatterAdd scatter_S64_S50000x1_S50000_n_0_0_1
          (broadcastInDim S64 ![] bcast_S_S64 (constant (F := Ideal) S_ .f32 0x00000000#32))
          (broadcastInDim S50000x1 ![0] bcast_S50000_S50000x1_0 batch)
          (broadcastInDim S50000 ![] bcast_S_S50000 (constant (F := Ideal) S_ .f32 0x3F800000#32)))
        (broadcastInDim S64 ![] bcast_S_S64 (constant (F := Ideal) S_ .f32 0x3F800000#32)))))

/-- The readout of the pooled rows, flattened. -/
def headK (h : FVec Ideal S50000x128 .f32) (batch : IVec S50000 32) (Wh1 : FVec Ideal S128x128 .f32)
    (bh1 : FVec Ideal S128 .f32) (Wh2 : FVec Ideal S128x1 .f32) (bh2 : FVec Ideal S1 .f32) : FVec Ideal S64 .f32 :=
  shapeCast S64 (Cert.Gine.headOut (poolK h batch) Wh1 bh1 Wh2 bh2) shapeCasts_S64x1_S64

/-- The whole network: three layers, then the readout. -/
def netK (x : FVec Ideal S50000x128 .f32) (ei : IVec S2x800000 32) (batch : IVec S50000 32) (ea : FVec Ideal S800000x16 .f32)
    (W1 : FVec Ideal S3x128x128 .f32) (b1 : FVec Ideal S3x128 .f32) (W2 : FVec Ideal S3x128x128 .f32) (b2 : FVec Ideal S3x128 .f32)
    (We : FVec Ideal S3x16x128 .f32) (be : FVec Ideal S3x128 .f32) (Wh1 : FVec Ideal S128x128 .f32) (bh1 : FVec Ideal S128 .f32)
    (Wh2 : FVec Ideal S128x1 .f32) (bh2 : FVec Ideal S1 .f32) : FVec Ideal S64 .f32 :=
  headK
    (layerK
      (layerK
        (layerK x (srcK ei) (dstK ei) ea (we0 We) (vec0 be) (mat0 W1) (vec0 b1) (mat0 W2) (vec0 b2))
        (srcK ei) (dstK ei) ea (we1 We) (vec1 be) (mat1 W1) (vec1 b1) (mat1 W2) (vec1 b2))
      (srcK ei) (dstK ei) ea (we2 We) (vec2 be) (mat2 W1) (vec2 b1) (mat2 W2) (vec2 b2))
    batch Wh1 bh1 Wh2 bh2

end Cert.KernelIdeal.NetK

end
-- ==== Proof.KHead.lean ====
import proofs.«431309_j3118146257466_1_alg».proof.Proof.Gen.KernelIdeal.Frame
import proofs.«431309_j3118146257466_1_alg».proof.Proof.NetK
import Idealize.ShloMosaic.Lib.StableHlo.Run

/-!
# The readout of the kernel program: from the last layer's node rows to the returned vector

After the third layer the program pools the node rows by graph (each graph's row sum over its node count, at least
one), sends the pooled rows through the readout region, and flattens the region's one-column result. Each step is
read off the fold of buffer contents: a host stretch gives a result buffer the operations' term of the stretch's
entry contents and leaves every other buffer alone; the region gives its result array the readout of its input
arrays as entered. Composed, the returned vector is `NetK.headK` of the node rows, the graph ids and the readout
weights as they stood at the third layer's exit.
-/

set_option maxRecDepth 16384

noncomputable section

namespace Cert.KernelIdeal.KHead

open Cert.KernelIdeal Cert.KernelIdeal.Gen Idealize.ShloMosaic Idealize.ShloMosaic.ValueIdx Idealize.ShloMosaic.TcCoe
  Idealize.ShloMosaic.StableHlo

variable (m : (ℓ : Loc nD τ sig) → Buf (Elt Ideal) ℓ) (ρ : Dev nD → PrngReg)

/-- A buffer that no operation of a host stretch writes holds after the stretch what it held before it. -/
local macro "unwritten " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The pooling stretch -/

/-- The pooled rows: each graph's row sum over its node count (at least one), of the node rows and graph ids at the
    stretch's entry. -/
theorem pooled (c : Dev nD) :
    (W17 m ρ c (Proc.devRef .tc main_v69) : FVec Ideal S64x128 .f32)
      = NetK.poolK (W16 m ρ c (Proc.devRef .tc main_v57)) (W16 m ρ c (Proc.devRef .tc main_arg2)) := by
  show StableHlo.after hostOps6 (W16 m ρ c) (Proc.devRef .tc main_v69) = _
  unfold NetK.poolK
  after_results_simp <;> rfl

/-- The pooling writes none of the readout weights. -/
theorem arg10_pool (c : Dev nD) :
    W17 m ρ c (Proc.devRef .tc main_arg10) = W16 m ρ c (Proc.devRef .tc main_arg10) := by
  unwritten hostOps6
theorem arg11_pool (c : Dev nD) :
    W17 m ρ c (Proc.devRef .tc main_arg11) = W16 m ρ c (Proc.devRef .tc main_arg11) := by
  unwritten hostOps6
theorem arg12_pool (c : Dev nD) :
    W17 m ρ c (Proc.devRef .tc main_arg12) = W16 m ρ c (Proc.devRef .tc main_arg12) := by
  unwritten hostOps6
theorem arg13_pool (c : Dev nD) :
    W17 m ρ c (Proc.devRef .tc main_arg13) = W16 m ρ c (Proc.devRef .tc main_arg13) := by
  unwritten hostOps6

/-! ## The readout region -/

/-- The region's result array is the readout of its five input arrays as the region finds them. -/
theorem readout
    (hheadOut : ∀ (V : (c : Dev nD) → (b : Ref sig .tc) → Buf (Elt Ideal) ((c : Thread nD τ).loc b)) (c : Dev nD),
      (Gen.dat6 (F := Ideal) V c).arrAt 5 cfg6.N
        = Cert.Gine.headOut (V c (Pipeline.arrRef spec6 0) : Vec Ideal S64x128 .f32)
            (V c (Pipeline.arrRef spec6 1) : Vec Ideal S128x128 .f32) (V c (Pipeline.arrRef spec6 2) : Vec Ideal S128 .f32)
            (V c (Pipeline.arrRef spec6 3) : Vec Ideal S128x1 .f32) (V c (Pipeline.arrRef spec6 4) : Vec Ideal S1 .f32))
    (c : Dev nD) :
    (W18 m ρ c (Proc.devRef .tc main_v70) : FVec Ideal S64x1 .f32)
      = Cert.Gine.headOut (W17 m ρ c (Proc.devRef .tc main_v69) : FVec Ideal S64x128 .f32)
          (W17 m ρ c (Proc.devRef .tc main_arg10) : FVec Ideal S128x128 .f32)
          (W17 m ρ c (Proc.devRef .tc main_arg11) : FVec Ideal S128 .f32)
          (W17 m ρ c (Proc.devRef .tc main_arg12) : FVec Ideal S128x1 .f32)
          (W17 m ρ c (Proc.devRef .tc main_arg13) : FVec Ideal S1 .f32) :=
  (W18_arr m ρ c 5).trans (hheadOut (V17 m ρ) c)

/-! ## The flattening -/

/-- The returned vector is the region's one-column result read as a vector of 64. -/
theorem flat (c : Dev nD) :
    W19 m ρ c (Proc.devRef .tc main_v71)
      = shapeCast S64 (W18 m ρ c (Proc.devRef .tc main_v70) : FVec Ideal S64x1 .f32) shapeCasts_S64x1_S64 := by
  show StableHlo.after hostOps7 (W18 m ρ c) (Proc.devRef .tc main_v71) = _
  after_results_simp
  rfl

/-! ## Composed -/

/-- The returned vector is the readout of the node rows, graph ids and readout weights at the third layer's exit. -/
theorem value
    (hheadOut : ∀ (V : (c : Dev nD) → (b : Ref sig .tc) → Buf (Elt Ideal) ((c : Thread nD τ).loc b)) (c : Dev nD),
      (Gen.dat6 (F := Ideal) V c).arrAt 5 cfg6.N
        = Cert.Gine.headOut (V c (Pipeline.arrRef spec6 0) : Vec Ideal S64x128 .f32)
            (V c (Pipeline.arrRef spec6 1) : Vec Ideal S128x128 .f32) (V c (Pipeline.arrRef spec6 2) : Vec Ideal S128 .f32)
            (V c (Pipeline.arrRef spec6 3) : Vec Ideal S128x1 .f32) (V c (Pipeline.arrRef spec6 4) : Vec Ideal S1 .f32))
    (c : Dev nD) :
    W19 m ρ c (Proc.devRef .tc main_v71)
      = NetK.headK (W16 m ρ c (Proc.devRef .tc main_v57)) (W16 m ρ c (Proc.devRef .tc main_arg2))
          (W16 m ρ c (Proc.devRef .tc main_arg10)) (W16 m ρ c (Proc.devRef .tc main_arg11))
          (W16 m ρ c (Proc.devRef .tc main_arg12)) (W16 m ρ c (Proc.devRef .tc main_arg13)) := by
  refine (flat m ρ c).trans ?_
  refine congrArg (fun X : FVec Ideal S64x1 .f32 => shapeCast S64 X shapeCasts_S64x1_S64) ?_
  refine (readout m ρ hheadOut c).trans ?_
  rw [pooled m ρ c, arg10_pool m ρ c, arg11_pool m ρ c, arg12_pool m ρ c, arg13_pool m ρ c]

end Cert.KernelIdeal.KHead

end
-- ==== Proof.KLayer1.lean ====
import proofs.«431309_j3118146257466_1_alg».proof.Proof.Gen.KernelIdeal.Frame
import proofs.«431309_j3118146257466_1_alg».proof.Proof.NetK
import Idealize.ShloMosaic.Lib.StableHlo.Run

/-!
# Layer 1 of the kernel program

From the launch memory to the exit of the first node-update region. The program's run is a fold over its segment
boundaries; this module reads that fold, boundary by boundary, at the buffers layer 1 goes through: the two rows of
the edge list, the source rows looked up with fill, the slices 0 of the edge weights, the edge region's messages,
their sum into the target nodes, the slices 0 of the node weights, and the node region's update. Each boundary is
one small equation (a buffer nobody wrote keeps its contents; a written buffer holds its operation's function of the
contents before), and the layer's value is their composition.
-/

set_option maxRecDepth 16384

noncomputable section

namespace Cert.KernelIdeal.KLayer1

open Cert.KernelIdeal Cert.KernelIdeal.Gen Idealize.ShloMosaic Idealize.ShloMosaic.ValueIdx Idealize.ShloMosaic.TcCoe
  Idealize.ShloMosaic.StableHlo

variable (m : (ℓ : Loc nD τ sig) → Buf (Elt Ideal) ℓ) (ρ : Dev nD → PrngReg)

/-- No operation of the stretch writes the buffer: every buffer it writes is another one. -/
local macro "host_keep " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- The fold over a stretch cut in two is the fold over the second part after the first. -/
private theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-! ## Buffers nobody writes between two boundaries -/

/-- The node rows are as launched when the lookup reads them. -/
private theorem arg0_W1 (c : Dev nD) :
    W1 m ρ c (Proc.devRef .tc main_arg0) = m ((c : Thread nD τ).loc main_arg0) :=
  calc W1 m ρ c (Proc.devRef .tc main_arg0)
    _ = W0 m ρ c (Proc.devRef .tc main_arg0) := host_keep hostOps0
    _ = m ((c : Thread nD τ).loc main_arg0) := rfl

/-- The node rows at the node region's entry are those the lookup read. -/
private theorem arg0_W5 (c : Dev nD) :
    W5 m ρ c (Proc.devRef .tc main_arg0) = W1 m ρ c (Proc.devRef .tc main_arg0) :=
  calc W5 m ρ c (Proc.devRef .tc main_arg0)
    _ = W4 m ρ c (Proc.devRef .tc main_arg0) := host_keep hostOps1
    _ = W3 m ρ c (Proc.devRef .tc main_arg0) := W4_of_ne m ρ c main_arg0 (by decide)
    _ = W2 m ρ c (Proc.devRef .tc main_arg0) := host_keep hostOps0_2
    _ = W1 m ρ c (Proc.devRef .tc main_arg0) := host_keep hostOps0_1

/-- The edge attributes are as launched at the edge region's entry. -/
private theorem arg3_W3 (c : Dev nD) :
    W3 m ρ c (Proc.devRef .tc main_arg3) = m ((c : Thread nD τ).loc main_arg3) :=
  calc W3 m ρ c (Proc.devRef .tc main_arg3)
    _ = W2 m ρ c (Proc.devRef .tc main_arg3) := host_keep hostOps0_2
    _ = W1 m ρ c (Proc.devRef .tc main_arg3) := host_keep hostOps0_1
    _ = W0 m ρ c (Proc.devRef .tc main_arg3) := host_keep hostOps0
    _ = m ((c : Thread nD τ).loc main_arg3) := rfl

/-- The stacked edge weights are as launched when their slice is taken. -/
private theorem arg8_W2 (c : Dev nD) :
    W2 m ρ c (Proc.devRef .tc main_arg8) = m ((c : Thread nD τ).loc main_arg8) :=
  calc W2 m ρ c (Proc.devRef .tc main_arg8)
    _ = W1 m ρ c (Proc.devRef .tc main_arg8) := host_keep hostOps0_1
    _ = W0 m ρ c (Proc.devRef .tc main_arg8) := host_keep hostOps0
    _ = m ((c : Thread nD τ).loc main_arg8) := rfl

/-- The stacked edge biases are as launched when their slice is taken. -/
private theorem arg9_W2 (c : Dev nD) :
    W2 m ρ c (Proc.devRef .tc main_arg9) = m ((c : Thread nD τ).loc main_arg9) :=
  calc W2 m ρ c (Proc.devRef .tc main_arg9)
    _ = W1 m ρ c (Proc.devRef .tc main_arg9) := host_keep hostOps0_1
    _ = W0 m ρ c (Proc.devRef .tc main_arg9) := host_keep hostOps0
    _ = m ((c : Thread nD τ).loc main_arg9) := rfl

/-- The stacked first node weights are as launched when their slice is taken. -/
private theorem arg4_W4 (c : Dev nD) :
    W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := host_keep hostOps0_2
    _ = W1 m ρ c (Proc.devRef .tc main_arg4) := host_keep hostOps0_1
    _ = W0 m ρ c (Proc.devRef .tc main_arg4) := host_keep hostOps0
    _ = m ((c : Thread nD τ).loc main_arg4) := rfl

/-- The stacked first node biases are as launched when their slice is taken. -/
private theorem arg5_W4 (c : Dev nD) :
    W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := host_keep hostOps0_2
    _ = W1 m ρ c (Proc.devRef .tc main_arg5) := host_keep hostOps0_1
    _ = W0 m ρ c (Proc.devRef .tc main_arg5) := host_keep hostOps0
    _ = m ((c : Thread nD τ).loc main_arg5) := rfl

/-- The stacked second node weights are as launched when their slice is taken. -/
private theorem arg6_W4 (c : Dev nD) :
    W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := host_keep hostOps0_2
    _ = W1 m ρ c (Proc.devRef .tc main_arg6) := host_keep hostOps0_1
    _ = W0 m ρ c (Proc.devRef .tc main_arg6) := host_keep hostOps0
    _ = m ((c : Thread nD τ).loc main_arg6) := rfl

/-- The stacked second node biases are as launched when their slice is taken. -/
private theorem arg7_W4 (c : Dev nD) :
    W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := host_keep hostOps0_2
    _ = W1 m ρ c (Proc.devRef .tc main_arg7) := host_keep hostOps0_1
    _ = W0 m ρ c (Proc.devRef .tc main_arg7) := host_keep hostOps0
    _ = m ((c : Thread nD τ).loc main_arg7) := rfl

/-- The target row of the edge list is kept up to the sum into the nodes. -/
private theorem v3_W4 (c : Dev nD) :
    W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := host_keep hostOps0_2
    _ = W1 m ρ c (Proc.devRef .tc main_v3) := host_keep hostOps0_1

/-- The looked-up rows are kept up to the edge region's entry. -/
private theorem v4_W3 (c : Dev nD) :
    W3 m ρ c (Proc.devRef .tc main_v4) = W2 m ρ c (Proc.devRef .tc main_v4) :=
  calc W3 m ρ c (Proc.devRef .tc main_v4)
    _ = W2 m ρ c (Proc.devRef .tc main_v4) := host_keep hostOps0_2

/-! ## The two rows of the edge list -/

/-- The source row, after the first host stretch. -/
private theorem src_W1 (c : Dev nD) :
    W1 m ρ c (Proc.devRef .tc main_v1) = NetK.srcK (m ((c : Thread nD τ).loc main_arg1)) := by
  dsimp only [W1, hostOps0]
  after_results_simp
  rfl

/-- The target row, after the first host stretch. -/
private theorem dst_W1 (c : Dev nD) :
    W1 m ρ c (Proc.devRef .tc main_v3) = NetK.dstK (m ((c : Thread nD τ).loc main_arg1)) := by
  dsimp only [W1, hostOps0]
  after_results_simp
  rfl

/-! ## The lookup with fill

The called function's twenty-three operations, cut in three: the wrapped index column; the in-range test of each
row; the lookup, and the fill where the test fails. -/

/-- Operations 1–8: the wrapped index column. -/
private abbrev take₁ : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] bcast_S_S800000),
    StableHlo.TRef.binary (.of main_v1 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S800000, .i32⟩) (broadcastInDim S800000 ![] bcast_S_S800000),
    StableHlo.TRef.binary (.of main_v1 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_v1 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] bcast_S800000_S800000x1_0) ]
/-- Operations 9–18: the in-range test of each row. -/
private abbrev take₂ : List (HloOp τ sig (Elt Ideal)) :=
  [ StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1),
    StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) (fun x v => Host.reduce IntOp.andi x v reducesTo_S800000x1_S800000_d1 h_S_) ]
/-- Operations 19–23: the lookup, and the fill where the test fails. -/
private abbrev take₃ : List (HloOp τ sig (Elt Ideal)) :=
  [ StableHlo.TRef.binary (.of main_arg0 : StableHlo.TRef sig ⟨S50000x128, .f32⟩) (.of main_call0_v5 : StableHlo.TRef sig ⟨S800000x1, .i32⟩) (.of main_call0_v13 : StableHlo.TRef sig ⟨S800000x128, .f32⟩) (fun x i => Host.gather gather_S50000x128_S800000x1_S800000x128_1_0_n_n_0_1_1128 x i),
    StableHlo.TRef.unary (.of main_call0_v12 : StableHlo.TRef sig ⟨S800000, .i1⟩) (.of main_call0_v14 : StableHlo.TRef sig ⟨S800000x128, .i1⟩) (broadcastInDim S800000x128 ![0] bcast_S800000_S800000x128_0),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S800000x128, .f32⟩) (broadcastInDim S800000x128 ![] bcast_S_S800000x128),
    StableHlo.TRef.ternary (.of main_call0_v14 : StableHlo.TRef sig ⟨S800000x128, .i1⟩) (.of main_call0_v13 : StableHlo.TRef sig ⟨S800000x128, .f32⟩) (.of main_call0_v15 : StableHlo.TRef sig ⟨S800000x128, .f32⟩) (.of main_v4 : StableHlo.TRef sig ⟨S800000x128, .f32⟩) select ]

private theorem take_split : (hostOps0_1 : List (HloOp τ sig (Elt Ideal))) = take₁ ++ (take₂ ++ take₃) := rfl

variable (X : Valuation τ sig (Elt Ideal))

private theorem take₁_idx :
    StableHlo.after take₁ X (Proc.devRef .tc main_call0_v5) = TakeRows.wrapIdx (X (Proc.devRef .tc main_v1)) := by
  dsimp only [take₁]
  after_results_simp
  rfl
private theorem take₁_tab : StableHlo.after take₁ X (Proc.devRef .tc main_arg0) = X (Proc.devRef .tc main_arg0) :=
  host_keep take₁
private theorem take₂_idx : StableHlo.after take₂ X (Proc.devRef .tc main_call0_v5) = X (Proc.devRef .tc main_call0_v5) :=
  host_keep take₂
private theorem take₂_tab : StableHlo.after take₂ X (Proc.devRef .tc main_arg0) = X (Proc.devRef .tc main_arg0) :=
  host_keep take₂
private theorem take₂_test :
    StableHlo.after take₂ X (Proc.devRef .tc main_call0_v12)
      = Host.reduce IntOp.andi
        (andi (cmpi .sge (X (Proc.devRef .tc main_call0_v5)) (broadcastInDim S800000x1 ![] bcast_S_S800000x1 (constantI S_ 32 0#32)))
          (cmpi .sle (X (Proc.devRef .tc main_call0_v5)) (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_ := by
  dsimp only [take₂]
  after_results_simp
  refine (cast_eq _ _).trans ?_
  rfl
private theorem take₃_rows :
    StableHlo.after take₃ X (Proc.devRef .tc main_v4)
      = select (broadcastInDim S800000x128 ![0] bcast_S800000_S800000x128_0 (X (Proc.devRef .tc main_call0_v12)))
        (Host.gather gather_S50000x128_S800000x1_S800000x128_1_0_n_n_0_1_1128 (X (Proc.devRef .tc main_arg0))
          (X (Proc.devRef .tc main_call0_v5)))
        (broadcastInDim S800000x128 ![] bcast_S_S800000x128 (constant (F := Ideal) S_ .f32 0x7FC00000#32)) := by
  dsimp only [take₃]
  after_results_simp
  rfl

/-- The looked-up rows, after the called function. -/
private theorem take_W2 (c : Dev nD) :
    W2 m ρ c (Proc.devRef .tc main_v4)
      = TakeRows.takeRows (W1 m ρ c (Proc.devRef .tc main_arg0)) (W1 m ρ c (Proc.devRef .tc main_v1)) := by
  show StableHlo.after hostOps0_1 (W1 m ρ c) (Proc.devRef .tc main_v4) = _
  rw [take_split, after_append, after_append, take₃_rows, take₂_test, take₂_idx, take₂_tab, take₁_idx, take₁_tab]
  unfold TakeRows.takeRows
  rfl

/-! ## The slices 0 of the edge weights -/

private theorem we_W3 (c : Dev nD) :
    W3 m ρ c (Proc.devRef .tc main_v6) = NetK.we0 (W2 m ρ c (Proc.devRef .tc main_arg8)) := by
  dsimp only [W3, hostOps0_2]
  after_results_simp
  rfl
private theorem be_W3 (c : Dev nD) :
    W3 m ρ c (Proc.devRef .tc main_v8) = NetK.vec0 (W2 m ρ c (Proc.devRef .tc main_arg9)) := by
  dsimp only [W3, hostOps0_2]
  after_results_simp
  rfl

/-! ## The sum into the target nodes and the slices 0 of the node weights -/

private theorem agg_W5 (c : Dev nD) :
    W5 m ρ c (Proc.devRef .tc main_v12) = NetK.aggK (W4 m ρ c (Proc.devRef .tc main_v3)) (W4 m ρ c (Proc.devRef .tc main_v9)) := by
  dsimp only [W5, hostOps1]
  after_results_simp
  rfl
private theorem w1_W5 (c : Dev nD) :
    W5 m ρ c (Proc.devRef .tc main_v14) = NetK.mat0 (W4 m ρ c (Proc.devRef .tc main_arg4)) := by
  dsimp only [W5, hostOps1]
  after_results_simp
  rfl
private theorem b1_W5 (c : Dev nD) :
    W5 m ρ c (Proc.devRef .tc main_v16) = NetK.vec0 (W4 m ρ c (Proc.devRef .tc main_arg5)) := by
  dsimp only [W5, hostOps1]
  after_results_simp
  rfl
private theorem w2_W5 (c : Dev nD) :
    W5 m ρ c (Proc.devRef .tc main_v18) = NetK.mat0 (W4 m ρ c (Proc.devRef .tc main_arg6)) := by
  dsimp only [W5, hostOps1]
  after_results_simp
  rfl
private theorem b2_W5 (c : Dev nD) :
    W5 m ρ c (Proc.devRef .tc main_v20) = NetK.vec0 (W4 m ρ c (Proc.devRef .tc main_arg7)) := by
  dsimp only [W5, hostOps1]
  after_results_simp
  rfl

/-! ## The two regions

Each region's result array holds the region's whole-array function (the hypothesis) of its input arrays as they
were at the region's entry. -/

/-- The messages, at the edge region's exit. -/
private theorem msg_W4
    (hedgeMsg : ∀ (V : (c : Dev nD) → (b : Ref sig .tc) → Buf (Elt Ideal) ((c : Thread nD τ).loc b)) (c : Dev nD), (Gen.dat0 (F := Ideal) V c).arrAt 4 cfg0.N = Cert.Gine.edgeMsg (V c (Pipeline.arrRef spec0 0) : Vec Ideal S800000x16 .f32) (V c (Pipeline.arrRef spec0 1) : Vec Ideal S800000x128 .f32) (V c (Pipeline.arrRef spec0 2) : Vec Ideal S16x128 .f32) (V c (Pipeline.arrRef spec0 3) : Vec Ideal S128 .f32))
    (c : Dev nD) :
    W4 m ρ c (Proc.devRef .tc main_v9)
      = Cert.Gine.edgeMsg (W3 m ρ c (Proc.devRef .tc main_arg3) : Vec Ideal S800000x16 .f32)
          (W3 m ρ c (Proc.devRef .tc main_v4) : Vec Ideal S800000x128 .f32)
          (W3 m ρ c (Proc.devRef .tc main_v6) : Vec Ideal S16x128 .f32)
          (W3 m ρ c (Proc.devRef .tc main_v8) : Vec Ideal S128 .f32) :=
  (W4_arr m ρ c 4).trans (hedgeMsg (V3 m ρ) c)

/-- The updated node rows, at the node region's exit. -/
private theorem upd_W6
    (hnodeUpd : ∀ (V : (c : Dev nD) → (b : Ref sig .tc) → Buf (Elt Ideal) ((c : Thread nD τ).loc b)) (c : Dev nD), (Gen.dat1 (F := Ideal) V c).arrAt 6 cfg1.N = Cert.Gine.nodeUpd (V c (Pipeline.arrRef spec1 0) : Vec Ideal S50000x128 .f32) (V c (Pipeline.arrRef spec1 1) : Vec Ideal S50000x128 .f32) (V c (Pipeline.arrRef spec1 2) : Vec Ideal S128x128 .f32) (V c (Pipeline.arrRef spec1 3) : Vec Ideal S128 .f32) (V c (Pipeline.arrRef spec1 4) : Vec Ideal S128x128 .f32) (V c (Pipeline.arrRef spec1 5) : Vec Ideal S128 .f32))
    (c : Dev nD) :
    W6 m ρ c (Proc.devRef .tc main_v21)
      = Cert.Gine.nodeUpd (W5 m ρ c (Proc.devRef .tc main_arg0) : Vec Ideal S50000x128 .f32)
          (W5 m ρ c (Proc.devRef .tc main_v12) : Vec Ideal S50000x128 .f32)
          (W5 m ρ c (Proc.devRef .tc main_v14) : Vec Ideal S128x128 .f32)
          (W5 m ρ c (Proc.devRef .tc main_v16) : Vec Ideal S128 .f32)
          (W5 m ρ c (Proc.devRef .tc main_v18) : Vec Ideal S128x128 .f32)
          (W5 m ρ c (Proc.devRef .tc main_v20) : Vec Ideal S128 .f32) :=
  (W6_arr m ρ c 6).trans (hnodeUpd (V5 m ρ) c)

/-! ## The layer -/

/-- Layer 1: at the node region's exit its result array holds the layer function of the launch memory's node rows,
edge list, edge attributes and slices 0 of the six stacked weights. -/
theorem value
    (hedgeMsg : ∀ (V : (c : Dev nD) → (b : Ref sig .tc) → Buf (Elt Ideal) ((c : Thread nD τ).loc b)) (c : Dev nD), (Gen.dat0 (F := Ideal) V c).arrAt 4 cfg0.N = Cert.Gine.edgeMsg (V c (Pipeline.arrRef spec0 0) : Vec Ideal S800000x16 .f32) (V c (Pipeline.arrRef spec0 1) : Vec Ideal S800000x128 .f32) (V c (Pipeline.arrRef spec0 2) : Vec Ideal S16x128 .f32) (V c (Pipeline.arrRef spec0 3) : Vec Ideal S128 .f32))
    (hnodeUpd : ∀ (V : (c : Dev nD) → (b : Ref sig .tc) → Buf (Elt Ideal) ((c : Thread nD τ).loc b)) (c : Dev nD), (Gen.dat1 (F := Ideal) V c).arrAt 6 cfg1.N = Cert.Gine.nodeUpd (V c (Pipeline.arrRef spec1 0) : Vec Ideal S50000x128 .f32) (V c (Pipeline.arrRef spec1 1) : Vec Ideal S50000x128 .f32) (V c (Pipeline.arrRef spec1 2) : Vec Ideal S128x128 .f32) (V c (Pipeline.arrRef spec1 3) : Vec Ideal S128 .f32) (V c (Pipeline.arrRef spec1 4) : Vec Ideal S128x128 .f32) (V c (Pipeline.arrRef spec1 5) : Vec Ideal S128 .f32))
    (c : Dev nD) :
    W6 m ρ c (Proc.devRef .tc main_v21)
      = NetK.layerK (m ((c : Thread nD τ).loc main_arg0)) (NetK.srcK (m ((c : Thread nD τ).loc main_arg1))) (NetK.dstK (m ((c : Thread nD τ).loc main_arg1)))
          (m ((c : Thread nD τ).loc main_arg3)) (NetK.we0 (m ((c : Thread nD τ).loc main_arg8))) (NetK.vec0 (m ((c : Thread nD τ).loc main_arg9)))
          (NetK.mat0 (m ((c : Thread nD τ).loc main_arg4))) (NetK.vec0 (m ((c : Thread nD τ).loc main_arg5)))
          (NetK.mat0 (m ((c : Thread nD τ).loc main_arg6))) (NetK.vec0 (m ((c : Thread nD τ).loc main_arg7))) := by
  rw [upd_W6 m ρ hnodeUpd c, agg_W5 m ρ c, msg_W4 m ρ hedgeMsg c, v4_W3 m ρ c, take_W2 m ρ c, src_W1 m ρ c,
    we_W3 m ρ c, be_W3 m ρ c, w1_W5 m ρ c, b1_W5 m ρ c, w2_W5 m ρ c, b2_W5 m ρ c, v3_W4 m ρ c, dst_W1 m ρ c,
    arg0_W5 m ρ c, arg0_W1 m ρ c, arg3_W3 m ρ c, arg8_W2 m ρ c, arg9_W2 m ρ c, arg4_W4 m ρ c, arg5_W4 m ρ c,
    arg6_W4 m ρ c, arg7_W4 m ρ c]
  rfl

end Cert.KernelIdeal.KLayer1

end
-- ==== Proof.KLayer2.lean ====
import proofs.«431309_j3118146257466_1_alg».proof.Proof.Gen.KernelIdeal.Frame
import proofs.«431309_j3118146257466_1_alg».proof.Proof.NetK
import Idealize.ShloMosaic.Lib.StableHlo.Run

/-!
# One middle layer of the kernel program, between two node updates

From the exit of the node update before it to the exit of its own node update, the program looks the node rows up by
the source index, slices this layer's edge weights out of the stacks, forms every edge's message, adds the messages
into their target nodes from zero, slices this layer's node weights out of the stacks, and updates every node. Each
boundary of that walk is one lemma below; the buffers the walk only reads are carried back to the layer's entry.
The two kernel regions' values are hypotheses: the messages as a function of the region's four input arrays, the
updated rows as a function of the region's six input arrays.
-/

set_option maxRecDepth 16384

noncomputable section

namespace Cert.KernelIdeal.KLayer2

open Cert.KernelIdeal Cert.KernelIdeal.Gen Idealize.ShloMosaic Idealize.ShloMosaic.ValueIdx Idealize.ShloMosaic.TcCoe
  Idealize.ShloMosaic.StableHlo

variable (m : (ℓ : Loc nD τ sig) → Buf (Elt Ideal) ℓ) (ρ : Dev nD → PrngReg)

/-- No operation of the stretch writes the buffer: every buffer an operation writes is another one. -/
local macro "host_keep " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The lookup: the node rows at the source index, with the fill outside the table

The called function's twenty-three operations, cut in three: the wrapped index column; the in-range test of each
row; the lookup, and the fill where the test fails. -/

/-- The contents after two stretches run one after the other. -/
private theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The first eight operations: the wrapped index column. -/
private abbrev wrapOps : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S800000, .i32⟩) (broadcastInDim S800000 ![] bcast_S_S800000),
    StableHlo.TRef.binary (.of main_v1 : StableHlo.TRef sig ⟨S800000, .i32⟩) (.of main_call1_v0 : StableHlo.TRef sig ⟨S800000, .i32⟩) (.of main_call1_v1 : StableHlo.TRef sig ⟨S800000, .i1⟩) (cmpi .slt),
    StableHlo.TRef.nullary (.of main_call1_c_0 : StableHlo.TRef sig ⟨S_, .i32⟩) (constantI S_ 32 50000#32),
    StableHlo.TRef.unary (.of main_call1_c_0 : StableHlo.TRef sig ⟨S_, .i32⟩) (.of main_call1_v2 : StableHlo.TRef sig ⟨S800000, .i32⟩) (broadcastInDim S800000 ![] bcast_S_S800000),
    StableHlo.TRef.binary (.of main_v1 : StableHlo.TRef sig ⟨S800000, .i32⟩) (.of main_call1_v2 : StableHlo.TRef sig ⟨S800000, .i32⟩) (.of main_call1_v3 : StableHlo.TRef sig ⟨S800000, .i32⟩) addi,
    StableHlo.TRef.ternary (.of main_call1_v1 : StableHlo.TRef sig ⟨S800000, .i1⟩) (.of main_call1_v3 : StableHlo.TRef sig ⟨S800000, .i32⟩) (.of main_v1 : StableHlo.TRef sig ⟨S800000, .i32⟩) (.of main_call1_v4 : StableHlo.TRef sig ⟨S800000, .i32⟩) select,
    StableHlo.TRef.unary main_call1_call0.v0 (.of main_call1_v5 : StableHlo.TRef sig ⟨S800000x1, .i32⟩) (broadcastInDim S800000x1 ![0] bcast_S800000_S800000x1_0) ]
/-- The next ten operations: the in-range test of each row. -/
private abbrev testOps : List (HloOp τ sig (Elt Ideal)) :=
  [ StableHlo.TRef.nullary (.of main_call1_c_1 : StableHlo.TRef sig ⟨S1, .i32⟩) (constantI S1 32 49999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S800000x1, .i32⟩) (broadcastInDim S800000x1 ![] bcast_S_S800000x1),
    StableHlo.TRef.binary (.of main_call1_v5 : StableHlo.TRef sig ⟨S800000x1, .i32⟩) (.of main_call1_v6 : StableHlo.TRef sig ⟨S800000x1, .i32⟩) (.of main_call1_v7 : StableHlo.TRef sig ⟨S800000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S800000x1, .i32⟩) (broadcastInDim S800000x1 ![0, 1] bcast_S1x1_S800000x1_0_1),
    StableHlo.TRef.binary (.of main_call1_v5 : StableHlo.TRef sig ⟨S800000x1, .i32⟩) (.of main_call1_v9 : StableHlo.TRef sig ⟨S800000x1, .i32⟩) (.of main_call1_v10 : StableHlo.TRef sig ⟨S800000x1, .i1⟩) (cmpi .sle),
    StableHlo.TRef.binary (.of main_call1_v7 : StableHlo.TRef sig ⟨S800000x1, .i1⟩) (.of main_call1_v10 : StableHlo.TRef sig ⟨S800000x1, .i1⟩) (.of main_call1_v11 : StableHlo.TRef sig ⟨S800000x1, .i1⟩) andi,
    StableHlo.TRef.nullary (.of main_call1_c_3 : StableHlo.TRef sig ⟨S_, .i1⟩) (constantI S_ 1 1#1),
    StableHlo.TRef.binary (.of main_call1_v11 : StableHlo.TRef sig ⟨S800000x1, .i1⟩) (.of main_call1_c_3 : StableHlo.TRef sig ⟨S_, .i1⟩) (.of main_call1_v12 : StableHlo.TRef sig ⟨S800000, .i1⟩) (fun x v => Host.reduce IntOp.andi x v reducesTo_S800000x1_S800000_d1 h_S_) ]
/-- The last five operations: the lookup, and the fill where the test fails. -/
private abbrev fillOps : List (HloOp τ sig (Elt Ideal)) :=
  [ StableHlo.TRef.binary (.of main_v21 : StableHlo.TRef sig ⟨S50000x128, .f32⟩) (.of main_call1_v5 : StableHlo.TRef sig ⟨S800000x1, .i32⟩) (.of main_call1_v13 : StableHlo.TRef sig ⟨S800000x128, .f32⟩) (fun x i => Host.gather gather_S50000x128_S800000x1_S800000x128_1_0_n_n_0_1_1128 x i),
    StableHlo.TRef.unary (.of main_call1_v12 : StableHlo.TRef sig ⟨S800000, .i1⟩) (.of main_call1_v14 : StableHlo.TRef sig ⟨S800000x128, .i1⟩) (broadcastInDim S800000x128 ![0] bcast_S800000_S800000x128_0),
    StableHlo.TRef.nullary (.of main_call1_cst : StableHlo.TRef sig ⟨S_, .f32⟩) (constant (F := Ideal) S_ .f32 0x7FC00000#32),
    StableHlo.TRef.unary (.of main_call1_cst : StableHlo.TRef sig ⟨S_, .f32⟩) (.of main_call1_v15 : StableHlo.TRef sig ⟨S800000x128, .f32⟩) (broadcastInDim S800000x128 ![] bcast_S_S800000x128),
    StableHlo.TRef.ternary (.of main_call1_v14 : StableHlo.TRef sig ⟨S800000x128, .i1⟩) (.of main_call1_v13 : StableHlo.TRef sig ⟨S800000x128, .f32⟩) (.of main_call1_v15 : StableHlo.TRef sig ⟨S800000x128, .f32⟩) (.of main_v22 : StableHlo.TRef sig ⟨S800000x128, .f32⟩) select ]

/-- The called function's operations are the three pieces in order. -/
private theorem lookup_split : (hostOps2 : List (HloOp τ sig (Elt Ideal))) = wrapOps ++ (testOps ++ fillOps) := rfl

section Pieces

variable (X : Valuation τ sig (Elt Ideal))

/-- After the first piece the index column holds the wrapped source index. -/
private theorem wrap_idx :
    StableHlo.after wrapOps X (Proc.devRef .tc main_call1_v5) = TakeRows.wrapIdx (X (Proc.devRef .tc main_v1)) := by
  dsimp only [wrapOps]
  after_results_simp
  rfl
/-- The first piece does not write the table. -/
private theorem wrap_tab : StableHlo.after wrapOps X (Proc.devRef .tc main_v21) = X (Proc.devRef .tc main_v21) :=
  host_keep wrapOps
/-- The second piece does not write the index column. -/
private theorem test_idx :
    StableHlo.after testOps X (Proc.devRef .tc main_call1_v5) = X (Proc.devRef .tc main_call1_v5) :=
  host_keep testOps
/-- The second piece does not write the table. -/
private theorem test_tab : StableHlo.after testOps X (Proc.devRef .tc main_v21) = X (Proc.devRef .tc main_v21) :=
  host_keep testOps
/-- After the second piece the test holds, for each row, whether its index lies in the table. -/
private theorem test_mask :
    StableHlo.after testOps X (Proc.devRef .tc main_call1_v12)
      = Host.reduce IntOp.andi
        (andi (cmpi .sge (X (Proc.devRef .tc main_call1_v5)) (broadcastInDim S800000x1 ![] bcast_S_S800000x1 (constantI S_ 32 0#32)))
          (cmpi .sle (X (Proc.devRef .tc main_call1_v5)) (broadcastInDim S800000x1 ![0, 1] bcast_S1x1_S800000x1_0_1
            (broadcastInDim S1x1 ![1] bcast_S1_S1x1_1 (constantI S1 32 49999#32)))))
        (constantI S_ 1 1#1) reducesTo_S800000x1_S800000_d1 h_S_ := by
  dsimp only [testOps]
  after_results_simp
  refine (cast_eq _ _).trans ?_
  rfl
/-- After the third piece the result holds the table's rows at the index column where the test holds, the fill
    elsewhere. -/
private theorem fill_rows :
    StableHlo.after fillOps X (Proc.devRef .tc main_v22)
      = select (broadcastInDim S800000x128 ![0] bcast_S800000_S800000x128_0 (X (Proc.devRef .tc main_call1_v12)))
        (Host.gather gather_S50000x128_S800000x1_S800000x128_1_0_n_n_0_1_1128 (X (Proc.devRef .tc main_v21))
          (X (Proc.devRef .tc main_call1_v5)))
        (broadcastInDim S800000x128 ![] bcast_S_S800000x128 (constant (F := Ideal) S_ .f32 0x7FC00000#32)) := by
  dsimp only [fillOps]
  after_results_simp
  rfl

end Pieces

/-- After the lookup's operations its result holds the rows of the entry's node rows at the entry's source index. -/
theorem lookup_at (c : Dev nD) :
    W7 m ρ c (Proc.devRef .tc main_v22)
      = TakeRows.takeRows (W6 m ρ c (Proc.devRef .tc main_v21)) (W6 m ρ c (Proc.devRef .tc main_v1)) := by
  show StableHlo.after hostOps2 (W6 m ρ c) (Proc.devRef .tc main_v22) = _
  rw [lookup_split, after_append, after_append, fill_rows, test_mask, test_idx, test_tab, wrap_idx, wrap_tab]
  unfold TakeRows.takeRows
  rfl

/-! ## This layer's edge weights, sliced out of the stacks -/

/-- The edge weight matrix: this layer's slice of the stack as it stood before the slicing. -/
theorem edgeWeight_at (c : Dev nD) :
    W8 m ρ c (Proc.devRef .tc main_v24) = NetK.we1 (W7 m ρ c (Proc.devRef .tc main_arg8)) := by
  show StableHlo.after hostOps2_1 (W7 m ρ c) (Proc.devRef .tc main_v24) = _
  generalize W7 m ρ c = X
  after_results_simp
  rfl

/-- The edge bias row: this layer's slice of the stack as it stood before the slicing. -/
theorem edgeBias_at (c : Dev nD) :
    W8 m ρ c (Proc.devRef .tc main_v26) = NetK.vec1 (W7 m ρ c (Proc.devRef .tc main_arg9)) := by
  show StableHlo.after hostOps2_1 (W7 m ρ c) (Proc.devRef .tc main_v26) = _
  generalize W7 m ρ c = X
  after_results_simp
  rfl

/-! ## The buffers the walk only reads, carried back to the layer's entry -/

/-- The edge attributes at the message region's entry are the layer's entry's. -/
theorem attr_kept (c : Dev nD) :
    W8 m ρ c (Proc.devRef .tc main_arg3) = W6 m ρ c (Proc.devRef .tc main_arg3) :=
  calc W8 m ρ c (Proc.devRef .tc main_arg3)
    _ = W7 m ρ c (Proc.devRef .tc main_arg3) := host_keep hostOps2_1
    _ = W6 m ρ c (Proc.devRef .tc main_arg3) := host_keep hostOps2

/-- The looked-up rows at the message region's entry are the lookup's result. -/
theorem lookup_kept (c : Dev nD) :
    W8 m ρ c (Proc.devRef .tc main_v22) = W7 m ρ c (Proc.devRef .tc main_v22) := host_keep hostOps2_1

/-- The stack of edge weight matrices after the lookup is the layer's entry's. -/
theorem edgeWeightStack_kept (c : Dev nD) :
    W7 m ρ c (Proc.devRef .tc main_arg8) = W6 m ρ c (Proc.devRef .tc main_arg8) := host_keep hostOps2

/-- The stack of edge bias rows after the lookup is the layer's entry's. -/
theorem edgeBiasStack_kept (c : Dev nD) :
    W7 m ρ c (Proc.devRef .tc main_arg9) = W6 m ρ c (Proc.devRef .tc main_arg9) := host_keep hostOps2

/-- The target index at the message region's exit is the layer's entry's. -/
theorem target_kept (c : Dev nD) :
    W9 m ρ c (Proc.devRef .tc main_v3) = W6 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := host_keep hostOps2_1
    _ = W6 m ρ c (Proc.devRef .tc main_v3) := host_keep hostOps2

/-- The stack of first node weight matrices at the message region's exit is the layer's entry's. -/
theorem firstWeightStack_kept (c : Dev nD) :
    W9 m ρ c (Proc.devRef .tc main_arg4) = W6 m ρ c (Proc.devRef .tc main_arg4) :=
  calc W9 m ρ c (Proc.devRef .tc main_arg4)
    _ = W8 m ρ c (Proc.devRef .tc main_arg4) := W9_of_ne m ρ c main_arg4 (by decide)
    _ = W7 m ρ c (Proc.devRef .tc main_arg4) := host_keep hostOps2_1
    _ = W6 m ρ c (Proc.devRef .tc main_arg4) := host_keep hostOps2

/-- The stack of first node bias rows at the message region's exit is the layer's entry's. -/
theorem firstBiasStack_kept (c : Dev nD) :
    W9 m ρ c (Proc.devRef .tc main_arg5) = W6 m ρ c (Proc.devRef .tc main_arg5) :=
  calc W9 m ρ c (Proc.devRef .tc main_arg5)
    _ = W8 m ρ c (Proc.devRef .tc main_arg5) := W9_of_ne m ρ c main_arg5 (by decide)
    _ = W7 m ρ c (Proc.devRef .tc main_arg5) := host_keep hostOps2_1
    _ = W6 m ρ c (Proc.devRef .tc main_arg5) := host_keep hostOps2

/-- The stack of second node weight matrices at the message region's exit is the layer's entry's. -/
theorem secondWeightStack_kept (c : Dev nD) :
    W9 m ρ c (Proc.devRef .tc main_arg6) = W6 m ρ c (Proc.devRef .tc main_arg6) :=
  calc W9 m ρ c (Proc.devRef .tc main_arg6)
    _ = W8 m ρ c (Proc.devRef .tc main_arg6) := W9_of_ne m ρ c main_arg6 (by decide)
    _ = W7 m ρ c (Proc.devRef .tc main_arg6) := host_keep hostOps2_1
    _ = W6 m ρ c (Proc.devRef .tc main_arg6) := host_keep hostOps2

/-- The stack of second node bias rows at the message region's exit is the layer's entry's. -/
theorem secondBiasStack_kept (c : Dev nD) :
    W9 m ρ c (Proc.devRef .tc main_arg7) = W6 m ρ c (Proc.devRef .tc main_arg7) :=
  calc W9 m ρ c (Proc.devRef .tc main_arg7)
    _ = W8 m ρ c (Proc.devRef .tc main_arg7) := W9_of_ne m ρ c main_arg7 (by decide)
    _ = W7 m ρ c (Proc.devRef .tc main_arg7) := host_keep hostOps2_1
    _ = W6 m ρ c (Proc.devRef .tc main_arg7) := host_keep hostOps2

/-- The node rows at the update region's entry are the layer's entry's. -/
theorem rows_kept (c : Dev nD) :
    W10 m ρ c (Proc.devRef .tc main_v21) = W6 m ρ c (Proc.devRef .tc main_v21) :=
  calc W10 m ρ c (Proc.devRef .tc main_v21)
    _ = W9 m ρ c (Proc.devRef .tc main_v21) := host_keep hostOps3
    _ = W8 m ρ c (Proc.devRef .tc main_v21) := W9_of_ne m ρ c main_v21 (by decide)
    _ = W7 m ρ c (Proc.devRef .tc main_v21) := host_keep hostOps2_1
    _ = W6 m ρ c (Proc.devRef .tc main_v21) := host_keep hostOps2

/-! ## The messages, added into their target nodes -/

/-- The message region's value: the messages as a function of its four input arrays as entered. -/
abbrev MessageValue : Prop :=
  ∀ (V : (c : Dev nD) → (b : Ref sig .tc) → Buf (Elt Ideal) ((c : Thread nD τ).loc b)) (c : Dev nD),
    (Gen.dat2 (F := Ideal) V c).arrAt 4 cfg2.N
      = Cert.Gine.edgeMsg (V c (Pipeline.arrRef spec2 0) : Vec Ideal S800000x16 .f32)
          (V c (Pipeline.arrRef spec2 1) : Vec Ideal S800000x128 .f32)
          (V c (Pipeline.arrRef spec2 2) : Vec Ideal S16x128 .f32) (V c (Pipeline.arrRef spec2 3) : Vec Ideal S128 .f32)

/-- At the message region's exit its output array holds the messages of its input arrays as entered. -/
theorem message_at (hedgeMsg : MessageValue) (c : Dev nD) :
    W9 m ρ c (Proc.devRef .tc main_v27)
      = Cert.Gine.edgeMsg (W8 m ρ c (Proc.devRef .tc main_arg3) : FVec Ideal S800000x16 .f32)
          (W8 m ρ c (Proc.devRef .tc main_v22) : FVec Ideal S800000x128 .f32)
          (W8 m ρ c (Proc.devRef .tc main_v24) : FVec Ideal S16x128 .f32)
          (W8 m ρ c (Proc.devRef .tc main_v26) : FVec Ideal S128 .f32) :=
  (W9_arr m ρ c 4).trans (hedgeMsg (V8 m ρ) c)

/-- The aggregate: the message region's output added into the target nodes, from zero. -/
theorem sum_at (c : Dev nD) :
    W10 m ρ c (Proc.devRef .tc main_v30)
      = NetK.aggK (W9 m ρ c (Proc.devRef .tc main_v3)) (W9 m ρ c (Proc.devRef .tc main_v27)) := by
  show StableHlo.after hostOps3 (W9 m ρ c) (Proc.devRef .tc main_v30) = _
  generalize W9 m ρ c = X
  after_results_simp
  rfl

/-! ## This layer's node weights, sliced out of the stacks -/

/-- The first node weight matrix: this layer's slice of the stack as it stood before the slicing. -/
theorem firstWeight_at (c : Dev nD) :
    W10 m ρ c (Proc.devRef .tc main_v32) = NetK.mat1 (W9 m ρ c (Proc.devRef .tc main_arg4)) := by
  show StableHlo.after hostOps3 (W9 m ρ c) (Proc.devRef .tc main_v32) = _
  generalize W9 m ρ c = X
  after_results_simp
  rfl

/-- The first node bias row: this layer's slice of the stack as it stood before the slicing. -/
theorem firstBias_at (c : Dev nD) :
    W10 m ρ c (Proc.devRef .tc main_v34) = NetK.vec1 (W9 m ρ c (Proc.devRef .tc main_arg5)) := by
  show StableHlo.after hostOps3 (W9 m ρ c) (Proc.devRef .tc main_v34) = _
  generalize W9 m ρ c = X
  after_results_simp
  rfl

/-- The second node weight matrix: this layer's slice of the stack as it stood before the slicing. -/
theorem secondWeight_at (c : Dev nD) :
    W10 m ρ c (Proc.devRef .tc main_v36) = NetK.mat1 (W9 m ρ c (Proc.devRef .tc main_arg6)) := by
  show StableHlo.after hostOps3 (W9 m ρ c) (Proc.devRef .tc main_v36) = _
  generalize W9 m ρ c = X
  after_results_simp
  rfl

/-- The second node bias row: this layer's slice of the stack as it stood before the slicing. -/
theorem secondBias_at (c : Dev nD) :
    W10 m ρ c (Proc.devRef .tc main_v38) = NetK.vec1 (W9 m ρ c (Proc.devRef .tc main_arg7)) := by
  show StableHlo.after hostOps3 (W9 m ρ c) (Proc.devRef .tc main_v38) = _
  generalize W9 m ρ c = X
  after_results_simp
  rfl

/-! ## The node update -/

/-- The update region's value: the updated rows as a function of its six input arrays as entered. -/
abbrev UpdateValue : Prop :=
  ∀ (V : (c : Dev nD) → (b : Ref sig .tc) → Buf (Elt Ideal) ((c : Thread nD τ).loc b)) (c : Dev nD),
    (Gen.dat3 (F := Ideal) V c).arrAt 6 cfg3.N
      = Cert.Gine.nodeUpd (V c (Pipeline.arrRef spec3 0) : Vec Ideal S50000x128 .f32)
          (V c (Pipeline.arrRef spec3 1) : Vec Ideal S50000x128 .f32)
          (V c (Pipeline.arrRef spec3 2) : Vec Ideal S128x128 .f32) (V c (Pipeline.arrRef spec3 3) : Vec Ideal S128 .f32)
          (V c (Pipeline.arrRef spec3 4) : Vec Ideal S128x128 .f32) (V c (Pipeline.arrRef spec3 5) : Vec Ideal S128 .f32)

/-- At the update region's exit its output array holds the update of its input arrays as entered. -/
theorem update_at (hnodeUpd : UpdateValue) (c : Dev nD) :
    W11 m ρ c (Proc.devRef .tc main_v39)
      = Cert.Gine.nodeUpd (W10 m ρ c (Proc.devRef .tc main_v21) : FVec Ideal S50000x128 .f32)
          (W10 m ρ c (Proc.devRef .tc main_v30) : FVec Ideal S50000x128 .f32)
          (W10 m ρ c (Proc.devRef .tc main_v32) : FVec Ideal S128x128 .f32)
          (W10 m ρ c (Proc.devRef .tc main_v34) : FVec Ideal S128 .f32)
          (W10 m ρ c (Proc.devRef .tc main_v36) : FVec Ideal S128x128 .f32)
          (W10 m ρ c (Proc.devRef .tc main_v38) : FVec Ideal S128 .f32) :=
  (W11_arr m ρ c 6).trans (hnodeUpd (V10 m ρ) c)

/-! ## The layer -/

/-- The layer's exit holds, in the update region's output array, the layer function of the layer's entry's node
    rows, source and target index, edge attributes, and this layer's slices of the six weight stacks. -/
theorem value
    (hedgeMsg : ∀ (V : (c : Dev nD) → (b : Ref sig .tc) → Buf (Elt Ideal) ((c : Thread nD τ).loc b)) (c : Dev nD),
      (Gen.dat2 (F := Ideal) V c).arrAt 4 cfg2.N
        = Cert.Gine.edgeMsg (V c (Pipeline.arrRef spec2 0) : Vec Ideal S800000x16 .f32)
            (V c (Pipeline.arrRef spec2 1) : Vec Ideal S800000x128 .f32)
            (V c (Pipeline.arrRef spec2 2) : Vec Ideal S16x128 .f32) (V c (Pipeline.arrRef spec2 3) : Vec Ideal S128 .f32))
    (hnodeUpd : ∀ (V : (c : Dev nD) → (b : Ref sig .tc) → Buf (Elt Ideal) ((c : Thread nD τ).loc b)) (c : Dev nD),
      (Gen.dat3 (F := Ideal) V c).arrAt 6 cfg3.N
        = Cert.Gine.nodeUpd (V c (Pipeline.arrRef spec3 0) : Vec Ideal S50000x128 .f32)
            (V c (Pipeline.arrRef spec3 1) : Vec Ideal S50000x128 .f32)
            (V c (Pipeline.arrRef spec3 2) : Vec Ideal S128x128 .f32) (V c (Pipeline.arrRef spec3 3) : Vec Ideal S128 .f32)
            (V c (Pipeline.arrRef spec3 4) : Vec Ideal S128x128 .f32) (V c (Pipeline.arrRef spec3 5) : Vec Ideal S128 .f32))
    (c : Dev nD) :
    W11 m ρ c (Proc.devRef .tc main_v39)
      = NetK.layerK (W6 m ρ c (Proc.devRef .tc main_v21)) (W6 m ρ c (Proc.devRef .tc main_v1))
          (W6 m ρ c (Proc.devRef .tc main_v3)) (W6 m ρ c (Proc.devRef .tc main_arg3))
          (NetK.we1 (W6 m ρ c (Proc.devRef .tc main_arg8))) (NetK.vec1 (W6 m ρ c (Proc.devRef .tc main_arg9)))
          (NetK.mat1 (W6 m ρ c (Proc.devRef .tc main_arg4))) (NetK.vec1 (W6 m ρ c (Proc.devRef .tc main_arg5)))
          (NetK.mat1 (W6 m ρ c (Proc.devRef .tc main_arg6))) (NetK.vec1 (W6 m ρ c (Proc.devRef .tc main_arg7))) := by
  unfold NetK.layerK
  rw [update_at m ρ hnodeUpd c, rows_kept m ρ c, sum_at m ρ c, target_kept m ρ c, message_at m ρ hedgeMsg c,
    attr_kept m ρ c, lookup_kept m ρ c, lookup_at m ρ c, edgeWeight_at m ρ c, edgeWeightStack_kept m ρ c,
    edgeBias_at m ρ c, edgeBiasStack_kept m ρ c, firstWeight_at m ρ c, firstWeightStack_kept m ρ c,
    firstBias_at m ρ c, firstBiasStack_kept m ρ c, secondWeight_at m ρ c, secondWeightStack_kept m ρ c,
    secondBias_at m ρ c, secondBiasStack_kept m ρ c]

end Cert.KernelIdeal.KLayer2

end
-- ==== Proof.KCarry1.lean ====
import proofs.«431309_j3118146257466_1_alg».proof.Proof.Gen.KernelIdeal.Frame
import proofs.«431309_j3118146257466_1_alg».proof.Proof.NetK
import Idealize.ShloMosaic.Lib.StableHlo.Run

/-!
# What the run holds after layer 1, at the buffers the later layers read

Layer 1 of the program is the boundaries `W1 … W6` of the run: the two rows of the edge list taken apart
(`hostOps0`), the row lookup (`hostOps0_1`), the slices of the edge weights (`hostOps0_2`), the message region
(region 0, `W4`), the aggregation and the slices of the node weights (`hostOps1`), the update region (region 1, `W6`).
The source and target index arrays are written once, by the first stretch, as rows 0 and 1 of the edge list; the
arguments 2 … 13 are written by nothing. A host stretch keeps every buffer it does not write, a region keeps every
buffer that is not one of its arrays, and an array a region only reads ends as it was entered. So at `W6` the index
arrays are the two rows of the launch edge list and each argument is as launched.
-/

set_option maxRecDepth 16384

noncomputable section

namespace Cert.KernelIdeal.KCarry1

open Cert.KernelIdeal Cert.KernelIdeal.Gen Idealize.ShloMosaic Idealize.ShloMosaic.ValueIdx Idealize.ShloMosaic.TcCoe Idealize.ShloMosaic.StableHlo

variable (m : (ℓ : Loc nD τ sig) → Buf (Elt Ideal) ℓ) (ρ : Dev nD → PrngReg)

/-- A buffer that no operation of a host stretch writes holds after the stretch what it held before: the buffer
    differs from every operation's result buffer. -/
local macro "host_skip " ops:ident b:ident : term =>
  `(StableHlo.after_of_forall_not_mem (b := Proc.devRef .tc $b) _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The index arrays -/

/-- After the first stretch the source array is row 0 of the launch edge list. -/
theorem src_W1 (c : Dev nD) :
    W1 m ρ c (Proc.devRef .tc main_v1) = NetK.srcK (m ((c : Thread nD τ).loc main_arg1)) := by
  dsimp only [W1, hostOps0]
  after_results_simp
  rfl

/-- After the first stretch the target array is row 1 of the launch edge list. -/
theorem dst_W1 (c : Dev nD) :
    W1 m ρ c (Proc.devRef .tc main_v3) = NetK.dstK (m ((c : Thread nD τ).loc main_arg1)) := by
  dsimp only [W1, hostOps0]
  after_results_simp
  rfl

set_option hygiene false in
/-- From `W6` back to `W1` for a buffer that the later stretches do not write and that is an array of neither
    region. -/
local macro "back_to_W1 " n:ident b:ident : command =>
  `(theorem $n (c : Dev nD) : W6 m ρ c (Proc.devRef .tc $b) = W1 m ρ c (Proc.devRef .tc $b) :=
      calc W6 m ρ c (Proc.devRef .tc $b)
        _ = W5 m ρ c (Proc.devRef .tc $b) := W6_of_ne m ρ c $b (by decide)
        _ = W4 m ρ c (Proc.devRef .tc $b) := host_skip hostOps1 $b
        _ = W3 m ρ c (Proc.devRef .tc $b) := W4_of_ne m ρ c $b (by decide)
        _ = W2 m ρ c (Proc.devRef .tc $b) := host_skip hostOps0_2 $b
        _ = W1 m ρ c (Proc.devRef .tc $b) := host_skip hostOps0_1 $b)

back_to_W1 v1_back main_v1
back_to_W1 v3_back main_v3

/-- The source array at the end of layer 1. -/
theorem src_at (c : Dev nD) : W6 m ρ c (Proc.devRef .tc main_v1) = NetK.srcK (m ((c : Thread nD τ).loc main_arg1)) :=
  (v1_back m ρ c).trans (src_W1 m ρ c)

/-- The target array at the end of layer 1. -/
theorem dst_at (c : Dev nD) : W6 m ρ c (Proc.devRef .tc main_v3) = NetK.dstK (m ((c : Thread nD τ).loc main_arg1)) :=
  (v3_back m ρ c).trans (dst_W1 m ρ c)

/-! ## The arguments -/

set_option hygiene false in
/-- An argument that is an array of neither region: four stretches that do not write it, two regions it is no array
    of, back to the launch memory. -/
local macro "carry_arg " n:ident b:ident : command =>
  `(theorem $n (c : Dev nD) : W6 m ρ c (Proc.devRef .tc $b) = m ((c : Thread nD τ).loc $b) :=
      calc W6 m ρ c (Proc.devRef .tc $b)
        _ = W5 m ρ c (Proc.devRef .tc $b) := W6_of_ne m ρ c $b (by decide)
        _ = W4 m ρ c (Proc.devRef .tc $b) := host_skip hostOps1 $b
        _ = W3 m ρ c (Proc.devRef .tc $b) := W4_of_ne m ρ c $b (by decide)
        _ = W2 m ρ c (Proc.devRef .tc $b) := host_skip hostOps0_2 $b
        _ = W1 m ρ c (Proc.devRef .tc $b) := host_skip hostOps0_1 $b
        _ = W0 m ρ c (Proc.devRef .tc $b) := host_skip hostOps0 $b
        _ = m ((c : Thread nD τ).loc $b) := rfl)

carry_arg arg2_at main_arg2

/-- The edge attributes are the message region's input window 0: read, never written, so they end as entered. -/
theorem arg3_at (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := host_skip hostOps1 main_arg3
    _ = W3 m ρ c (Proc.devRef .tc main_arg3) :=
        (W4_arr m ρ c 0).trans (((dat0 (V3 m ρ) c).arrAt_in 0 rfl _).trans (A_eq0 (V3 m ρ) c 0))
    _ = W2 m ρ c (Proc.devRef .tc main_arg3) := host_skip hostOps0_2 main_arg3
    _ = W1 m ρ c (Proc.devRef .tc main_arg3) := host_skip hostOps0_1 main_arg3
    _ = W0 m ρ c (Proc.devRef .tc main_arg3) := host_skip hostOps0 main_arg3
    _ = m ((c : Thread nD τ).loc main_arg3) := rfl

carry_arg arg4_at main_arg4
carry_arg arg5_at main_arg5
carry_arg arg6_at main_arg6
carry_arg arg7_at main_arg7
carry_arg arg8_at main_arg8
carry_arg arg9_at main_arg9
carry_arg arg10_at main_arg10
carry_arg arg11_at main_arg11
carry_arg arg12_at main_arg12
carry_arg arg13_at main_arg13

end Cert.KernelIdeal.KCarry1

end
-- ==== Proof.KCarry2.lean ====
import proofs.«431309_j3118146257466_1_alg».proof.Proof.Gen.KernelIdeal.Frame
import Idealize.ShloMosaic.Lib.StableHlo.Run
import Idealize.ShloMosaic.PureOps.Ideal

/-!
# What layer 2 leaves alone

Layer 2 of the program is the boundaries `W7 … W11` of the run: the row lookup (`hostOps2`), the slices of the edge
weights (`hostOps2_1`), the message region (region 2, `W9`), the aggregation and the slices of the node weights
(`hostOps3`), the update region (region 3, `W11`). The source and target index arrays and the arguments 2 … 13 are
written by none of them: a host stretch keeps every buffer it does not write, a region keeps every buffer that is not
one of its arrays, and an array a region only reads ends as it was entered. So each of these buffers holds at `W11`
what it held at `W6`.
-/

set_option maxRecDepth 16384

noncomputable section

namespace Cert.KernelIdeal.KCarry2

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg)

/-- A buffer that no operation of a host stretch writes holds after the stretch what it held before: the buffer
    differs from every operation's result buffer. -/
local macro "host_skip " ops:ident b:ident : term =>
  `(StableHlo.after_of_forall_not_mem (b := Proc.devRef .tc $b) _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

set_option hygiene false in
/-- The carry of a buffer that is an array of neither region: three stretches that do not write it, two regions it
    is no array of. -/
local macro "carry_free " n:ident b:ident : command =>
  `(theorem $n (c : Dev nD) : W11 m ρ c (Proc.devRef .tc $b) = W6 m ρ c (Proc.devRef .tc $b) :=
      calc W11 m ρ c (Proc.devRef .tc $b)
        _ = W10 m ρ c (Proc.devRef .tc $b) := W11_of_ne m ρ c $b (by decide)
        _ = W9 m ρ c (Proc.devRef .tc $b) := host_skip hostOps3 $b
        _ = W8 m ρ c (Proc.devRef .tc $b) := W9_of_ne m ρ c $b (by decide)
        _ = W7 m ρ c (Proc.devRef .tc $b) := host_skip hostOps2_1 $b
        _ = W6 m ρ c (Proc.devRef .tc $b) := host_skip hostOps2 $b)

carry_free v1_at main_v1
carry_free v3_at main_v3
carry_free arg2_at main_arg2

/-- The edge attributes are the message region's input window 0: read, never written, so they end as entered. -/
theorem arg3_at (c : Dev nD) : W11 m ρ c (Proc.devRef .tc main_arg3) = W6 m ρ c (Proc.devRef .tc main_arg3) :=
  calc W11 m ρ c (Proc.devRef .tc main_arg3)
    _ = W10 m ρ c (Proc.devRef .tc main_arg3) := W11_of_ne m ρ c main_arg3 (by decide)
    _ = W9 m ρ c (Proc.devRef .tc main_arg3) := host_skip hostOps3 main_arg3
    _ = W8 m ρ c (Proc.devRef .tc main_arg3) :=
        (W9_arr m ρ c 0).trans (((dat2 (V8 m ρ) c).arrAt_in 0 rfl _).trans (A_eq2 (V8 m ρ) c 0))
    _ = W7 m ρ c (Proc.devRef .tc main_arg3) := host_skip hostOps2_1 main_arg3
    _ = W6 m ρ c (Proc.devRef .tc main_arg3) := host_skip hostOps2 main_arg3

carry_free arg4_at main_arg4
carry_free arg5_at main_arg5
carry_free arg6_at main_arg6
carry_free arg7_at main_arg7
carry_free arg8_at main_arg8
carry_free arg9_at main_arg9
carry_free arg10_at main_arg10
carry_free arg11_at main_arg11
carry_free arg12_at main_arg12
carry_free arg13_at main_arg13

end Cert.KernelIdeal.KCarry2

end
-- ==== Proof.EdgeVal0.lean ====
import proofs.«431309_j3118146257466_1_alg».proof.Proof.Gen.KernelIdeal.Frame
import proofs.«431309_j3118146257466_1_alg».proof.Proof.Spec
import Idealize.ShloMosaic.Lib.Pipeline.Value
import Idealize.ShloMosaic.Lib.ValueIdx
import Mathlib.Tactic.FinCases

/-!
# The edge message kernel's result as one array

Over the extended reals. The kernel walks the edges in blocks of 8000 rows. At each block it reads the block's rows of
the edge attributes and of the gathered source rows, and the whole weight matrix and bias; it sends the attribute rows
through the linear map, adds the bias, adds the source rows, and cuts at zero. Row by row this is the specification's
message row. The blocks tile the edges, so the array the kernel leaves is the specification's message array.
-/

noncomputable section

namespace Cert.KernelIdeal.EdgeVal0

open Cert.KernelIdeal Cert.KernelIdeal.Gen Idealize.ShloMosaic Idealize.ShloMosaic.ValueIdx Idealize.ShloMosaic.TcCoe Cert.Mlp

/-! ## The body's value on one row -/

/-- Row `p` of the sum of two arrays is the sum of their rows `p`. -/
theorem add_rowAt {M N : Nat} (u v : FVec Ideal ⟨2, ![M, N]⟩ .f32) (p : Fin M) :
    rowAt (addf u v) p = addRow (rowAt u p) (rowAt v p) := rfl

/-- Row `r` of what the body computes from a block of attributes `x0`, the weights `x2`, the bias `x6` and a block
of source rows `x11` is the message row of row `r` of the two blocks. -/
theorem pay_row (x0 : Vec Ideal S8000x16 .f32) (x2 : Vec Ideal S16x128 .f32) (x6 : Vec Ideal S128 .f32)
    (x11 : Vec Ideal S8000x128 .f32) (r : Fin 8000) :
    rowAt (Gen.k0_pay1 (F := Ideal) x0 x2 x6 x11) r
      = Cert.Gine.msgRow (mat x2) (vecOf x6) (rowAt x11 r) (rowAt x0 r) := by
  unfold Gen.k0_pay1
  dsimp only
  refine (relu_rowAt (M := 8000) (N := 128) _ r).trans (congrArg relu ?_)
  refine (add_rowAt (M := 8000) (N := 128) _ _ r).trans ?_
  rw [shapeCast_self x11, shapeCast_self x2, shapeCast_self x6]
  refine congrArg (addRow (rowAt x11 r)) ?_
  refine (bias_rowAt (M := 8000) (N := 128) _ _ _ r).trans ?_
  rw [rowOf_shapeCast (N := 128) x6 _,
    mxu_rowAt dot_S8000x16_S16x128_S8000x128_1_0_0_1_n_n rfl rfl rfl rfl rfl rfl none _ _ r]
  rfl

/-- A message row is a function of its five arguments. -/
theorem msgRow_congr {K N : Nat} {We We' : Fin K → Fin N → EReal} {be be' hs hs' : Fin N → EReal}
    {a a' : Fin K → EReal} {n n' : Fin N} (h1 : We = We') (h2 : be = be') (h3 : hs = hs') (h4 : a = a')
    (h5 : n = n') : Cert.Gine.msgRow We be hs a n = Cert.Gine.msgRow We' be' hs' a' n' := by
  subst h1 h2 h3 h4 h5; rfl

/-! ## What the body leaves in the output block -/

theorem zero2 : (![0, 0] : Fin 2 → Nat) = fun _ => 0 := funext fun a => by fin_cases a <;> rfl

theorem zero1 : (![0] : Fin 1 → Nat) = fun _ => 0 := funext fun a => by fin_cases a; rfl

/-- The body loads its four blocks whole and stores once over the whole output block: the output block is the body's
value at the four blocks. -/
theorem out_eq (x0 : Vec Ideal S8000x16 .f32) (x1 : Vec Ideal S8000x128 .f32) (x2 : Vec Ideal S16x128 .f32)
    (x3 : Vec Ideal S128 .f32) : Gen.out0_4 (F := Ideal) x0 x1 x2 x3 = Gen.k0_pay1 (F := Ideal) x0 x2 x3 x1 := by
  unfold Gen.out0_4
  rw [View.canon_unit_zero zero2]
  simp only [View.ld_unit_zero (S := S8000x16) zero2, View.ld_unit_zero (S := S16x128) zero2,
    View.ld_unit_zero (S := S128) zero1, View.ld_unit_zero (S := S8000x128) zero2]

/-! ## Where each block sits in its array -/

/-- The block indices over the grid: the attributes', the source rows' and the output's block at point `t` is block
`t` along the edges and block 0 along the features; the weights' and the bias's block is always block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- The edge attributes. -/
abbrev arr0 (c : Dev nD) : Vec Ideal S800000x16 .f32 := V c (Pipeline.arrRef spec0 0)
/-- The gathered source rows. -/
abbrev arr1 (c : Dev nD) : Vec Ideal S800000x128 .f32 := V c (Pipeline.arrRef spec0 1)
/-- The weight matrix. -/
abbrev arr2 (c : Dev nD) : Vec Ideal S16x128 .f32 := V c (Pipeline.arrRef spec0 2)
/-- The bias. -/
abbrev arr3 (c : Dev nD) : Vec Ideal S128 .f32 := V c (Pipeline.arrRef spec0 3)

/-- What point `t` writes back is block `t` of the message array of the four arrays. -/
theorem flushed_eq (c : Dev nD) (t : Fin cfg0.N) :
    (Gen.dat0 (F := Ideal) V c).flushed 4 t
      = ((cfg0.win 4).blk t).view.read (Elt Ideal)
          (Cert.Gine.edgeMsg (arr0 V c) (arr1 V c) (arr2 V c) (arr3 V c)) := by
  show (cfg0.win 4).cut (grid0.coords t) ((Gen.dat0 (F := Ideal) V c).after 4 t) = _
  rw [Gen.after0_4, out_eq]
  obtain ⟨a00, a01, a10, a11, a20, a21, a30, a40, a41⟩ := idx_facts t
  funext j
  obtain ⟨r, n, rfl⟩ : ∃ (r : Fin 8000) (n : Fin 128), j = ix2 r n := ⟨j 0, j 1, eq_ix2 j⟩
  have hr : r.val < 8000 := r.isLt
  have hn : n.val < 128 := n.isLt
  refine (congrFun (pay_row (Gen.iblk0 V c 0 t) (Gen.iblk0 V c 2 t) (Gen.iblk0 V c 3 t) (Gen.iblk0 V c 1 t) r) n).trans ?_
  show _ = Cert.Gine.msgRow (mat (arr2 V c)) (vecOf (arr3 V c))
      (rowAt (M := 800000) (arr1 V c) (((cfg0.win 4).blk t).view.emb (ix2 r n) 0))
      (rowAt (M := 800000) (arr0 V c) (((cfg0.win 4).blk t).view.emb (ix2 r n) 0))
      (((cfg0.win 4).blk t).view.emb (ix2 r n) 1)
  refine msgRow_congr ?_ ?_ ?_ ?_ ?_
  · funext q k
    show V c (Pipeline.arrRef spec0 2) (((cfg0.win 2).blk t).view.emb (ix2 q k)) = V c (Pipeline.arrRef spec0 2) (ix2 q k)
    refine congrArg _ (funext fun a => Fin.ext ?_)
    match a with
    | ⟨0, _⟩ => show win0_2.index t (0 : Fin 2) * 16 + 1 * q.val = q.val; omega
    | ⟨1, _⟩ => show win0_2.index t (1 : Fin 2) * 128 + 1 * k.val = k.val; omega
  · funext k
    show V c (Pipeline.arrRef spec0 3) (((cfg0.win 3).blk t).view.emb (ix1 k)) = V c (Pipeline.arrRef spec0 3) (ix1 k)
    refine congrArg _ (funext fun a => Fin.ext ?_)
    match a with
    | ⟨0, _⟩ => show win0_3.index t (0 : Fin 1) * 128 + 1 * k.val = k.val; omega
  · funext k
    show V c (Pipeline.arrRef spec0 1) (((cfg0.win 1).blk t).view.emb (ix2 r k))
      = V c (Pipeline.arrRef spec0 1) (ix2 (((cfg0.win 4).blk t).view.emb (ix2 r n) 0) k)
    refine congrArg _ (funext fun a => Fin.ext ?_)
    match a with
    | ⟨0, _⟩ => show win0_1.index t (0 : Fin 2) * 8000 + 1 * r.val = win0_4.index t (0 : Fin 2) * 8000 + 1 * r.val; omega
    | ⟨1, _⟩ => show win0_1.index t (1 : Fin 2) * 128 + 1 * k.val = k.val; omega
  · funext k
    show V c (Pipeline.arrRef spec0 0) (((cfg0.win 0).blk t).view.emb (ix2 r k))
      = V c (Pipeline.arrRef spec0 0) (ix2 (((cfg0.win 4).blk t).view.emb (ix2 r n) 0) k)
    refine congrArg _ (funext fun a => Fin.ext ?_)
    match a with
    | ⟨0, _⟩ => show win0_0.index t (0 : Fin 2) * 8000 + 1 * r.val = win0_4.index t (0 : Fin 2) * 8000 + 1 * r.val; omega
    | ⟨1, _⟩ => show win0_0.index t (1 : Fin 2) * 16 + 1 * k.val = k.val; omega
  · refine Fin.ext ?_
    show n.val = win0_4.index t (1 : Fin 2) * 128 + 1 * n.val
    omega

/-- An edge-and-feature index is in point `t`'s output block iff each coordinate is in the block's range. -/
theorem mem_blk (t : Fin cfg0.N) (i : S800000x128.Idx) :
    i ∈ ((cfg0.win 4).blk t).view.set
      ↔ ∀ a : Fin 2, win0_4.index t a * S8000x128.size a ≤ (i a).val
          ∧ (i a).val < win0_4.index t a * S8000x128.size a + S8000x128.size a := by
  show i ∈ ((View.whole (Pipeline.arrRef spec0 4)).slice (win0_4.rect t)).set ↔ _
  rw [View.set_slice_whole, Rect.mem_set_unit]
  exact Iff.rfl

/-- Every index is in the output block of the point its edge's block of 8000 names, and every point writes back. -/
theorem cover (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  have hN : cfg0.N = 100 := Gen.N_0
  have hlt : (i 0).val / 8000 < cfg0.N := by rw [hN]; omega
  obtain ⟨-, -, -, -, -, -, -, e0, e1⟩ := idx_facts ⟨(i 0).val / 8000, hlt⟩
  refine ⟨⟨(i 0).val / 8000, hlt⟩, Gen.flush0_4 _, ?_⟩
  rw [mem_blk]
  intro a
  match a with
  | ⟨0, _⟩ =>
    show win0_4.index ⟨(i 0).val / 8000, hlt⟩ (0 : Fin 2) * 8000 ≤ (i 0).val
      ∧ (i 0).val < win0_4.index ⟨(i 0).val / 8000, hlt⟩ (0 : Fin 2) * 8000 + 8000
    rw [e0]
    show (i 0).val / 8000 * 8000 ≤ (i 0).val ∧ (i 0).val < (i 0).val / 8000 * 8000 + 8000
    omega
  | ⟨1, _⟩ =>
    show win0_4.index ⟨(i 0).val / 8000, hlt⟩ (1 : Fin 2) * 128 ≤ (i 1).val
      ∧ (i 1).val < win0_4.index ⟨(i 0).val / 8000, hlt⟩ (1 : Fin 2) * 128 + 128
    rw [e1]
    omega

/-! ## The array the kernel leaves -/

/-- After the last point the output array is the message array of the edge attributes, the gathered source rows, the
weights and the bias as the kernel found them. -/
theorem edge_region0 (c : Dev nD) :
    (Gen.dat0 (F := Ideal) V c).arrAt 4 cfg0.N
      = Cert.Gine.edgeMsg (arr0 V c) (arr1 V c) (arr2 V c) (arr3 V c) :=
  (Gen.dat0 (F := Ideal) V c).arrAt_eq_of_cover 4 _ (fun t _ => flushed_eq V c t) (cover)

end Cert.KernelIdeal.EdgeVal0

end
-- ==== Proof.NodeVal1.lean ====
import proofs.«431309_j3118146257466_1_alg».proof.Proof.Gen.KernelIdeal.Frame
import proofs.«431309_j3118146257466_1_alg».proof.Proof.Spec
import Idealize.ShloMosaic.Lib.Pipeline.Value
import Idealize.ShloMosaic.Lib.IdealHost

/-!
# The node update region as one whole-array function

Over the extended reals. The region walks the node rows in ten blocks of 5000 rows. At each point it holds the block of
the node features `h`, the block of the aggregates in the same rows, and the two weight matrices and two biases whole;
it writes rows `5000 t … 5000 t + 4999` of the result. On one row the body computes `h · 1 + agg`, then two dense
layers each with its bias and the maximum with zero; the narrowings of the float format between them change nothing on
the extended reals, and one is the unit of the product. So row `p` of the body's result depends only on row `p` of the
two moving blocks, and it is the specification's row update of those rows. A row `r` of the array lies in the block of
point `r / 5000`, every point writes its block back, hence the array after the region is the specification's update
of the whole arrays.
-/

set_option maxRecDepth 16384

noncomputable section

namespace Cert.KernelIdeal.NodeVal1

open Cert.KernelIdeal Cert.KernelIdeal.Gen Idealize.ShloMosaic Idealize.ShloMosaic.ValueIdx Idealize.ShloMosaic.TcCoe Cert.Mlp

/-! ## The body on one row -/

section Rows
variable {M N : Nat}

/-- Row `p` of the sum of two arrays is the sum of their rows `p`. -/
theorem add_rowAt (u v : FVec Ideal ⟨2, ![M, N]⟩ .f32) (p : Fin M) :
    rowAt (addf u v) p = addRow (rowAt u p) (rowAt v p) := rfl

/-- Row `p` of an array times the constant one spread over its shape is row `p` of the array: one is the unit of the
product on the extended reals. -/
theorem mulOne_rowAt (v : FVec Ideal ⟨2, ![M, N]⟩ .f32) (p : Fin M) :
    rowAt (mulf v (broadcast ⟨2, ![M, N]⟩ (Scalar.ofBits (F := Ideal) .f32 0x3F800000#32))) p = rowAt v p := by
  funext n
  show v (ix2 p n) * Ideal.ofBits .f32 0x3F800000#32 = _
  rw [Ideal.ofBits_one_f32, mul_one]
  rfl

end Rows

/-- Row `r` of the body's result is the specification's row update of row `r` of the node block and of the aggregate
block, with the weights and biases as loaded: the same-shape casts and the narrowings are the identity, the product
with one drops, each matrix product into a zero accumulator is the row times the matrix, each bias is laid along the
row, each maximum is with zero. -/
theorem pay_row (x0 x1 : Vec Ideal S5000x128 .f32) (x2 : Vec Ideal S128x128 .f32) (x3 : Vec Ideal S128 .f32)
    (x4 : Vec Ideal S128x128 .f32) (x5 : Vec Ideal S128 .f32) (r : Fin 5000) :
    rowAt (Gen.k1_pay1 (F := Ideal) x0 x1 x2 x3 x4 x5) r
      = Cert.Gine.updRow (mat x2) (vecOf x3) (mat x4) (vecOf x5) (rowAt x0 r) (rowAt x1 r) := by
  unfold Gen.k1_pay1
  dsimp only
  simp only [shapeCast_self]
  unfold Cert.Gine.updRow Cert.Mlp.dense
  refine (relu_rowAt (M := 5000) (N := 128) _ r).trans (congrArg relu ?_)
  refine (bias_rowAt (M := 5000) (N := 128) _ _ broadcasts_S1x128_S5000x128 r).trans ?_
  refine congrArg₂ addRow ?_ (rowOf_shapeCast x5 shapeCasts_S128_S1x128)
  refine (mxu_rowAt dot_S5000x128_S128x128_S5000x128_1_0_0_1_n_n rfl rfl rfl rfl rfl rfl none _ _ r).trans ?_
  refine congrArg (lin (mat x4)) ?_
  refine (relu_rowAt (M := 5000) (N := 128) _ r).trans (congrArg relu ?_)
  refine (bias_rowAt (M := 5000) (N := 128) _ _ broadcasts_S1x128_S5000x128 r).trans ?_
  refine congrArg₂ addRow ?_ (rowOf_shapeCast x3 shapeCasts_S128_S1x128)
  refine (mxu_rowAt dot_S5000x128_S128x128_S5000x128_1_0_0_1_n_n rfl rfl rfl rfl rfl rfl none _ _ r).trans ?_
  refine congrArg (lin (mat x2)) ?_
  refine (add_rowAt (M := 5000) (N := 128) _ x1 r).trans ?_
  exact congrArg (fun u => addRow u (rowAt x1 r)) (mulOne_rowAt (M := 5000) (N := 128) x0 r)

/-- The body's result at row `p`, column `q` of the block, when row `p` of the two moving blocks is row `r` of the whole
arrays `h`, `agg` and the weights and biases are the whole arrays: the specification's update at row `r`, column `q`. -/
theorem pay_at (h agg : Vec Ideal S50000x128 .f32) (W1 : Vec Ideal S128x128 .f32) (b1 : Vec Ideal S128 .f32)
    (W2 : Vec Ideal S128x128 .f32) (b2 : Vec Ideal S128 .f32)
    (x0 x1 : Vec Ideal S5000x128 .f32) (x2 : Vec Ideal S128x128 .f32) (x3 : Vec Ideal S128 .f32)
    (x4 : Vec Ideal S128x128 .f32) (x5 : Vec Ideal S128 .f32) (p : Fin 5000) (q : Fin 128) (r : Fin 50000)
    (e0 : rowAt x0 p = rowAt h r) (e1 : rowAt x1 p = rowAt agg r)
    (e2 : x2 = W1) (e3 : x3 = b1) (e4 : x4 = W2) (e5 : x5 = b2) :
    Gen.k1_pay1 (F := Ideal) x0 x1 x2 x3 x4 x5 (ix2 p q) = Cert.Gine.nodeUpd h agg W1 b1 W2 b2 (ix2 r q) := by
  subst e2 e3 e4 e5
  refine (congrFun (pay_row x0 x1 x2 x3 x4 x5 p) q).trans ?_
  rw [e0, e1]
  rfl

/-! ## The region's arrays and its blocks -/

variable (V : (c : Dev nD) → (b : Ref sig .tc) → Buf (Elt Ideal) ((c : Thread nD τ).loc b))

/-- The node features as the region finds them. -/
abbrev arr0 (c : Dev nD) : Vec Ideal S50000x128 .f32 := V c (Pipeline.arrRef spec1 0)
/-- The aggregates. -/
abbrev arr1 (c : Dev nD) : Vec Ideal S50000x128 .f32 := V c (Pipeline.arrRef spec1 1)
/-- The first layer's weights. -/
abbrev arr2 (c : Dev nD) : Vec Ideal S128x128 .f32 := V c (Pipeline.arrRef spec1 2)
/-- The first layer's bias. -/
abbrev arr3 (c : Dev nD) : Vec Ideal S128 .f32 := V c (Pipeline.arrRef spec1 3)
/-- The second layer's weights. -/
abbrev arr4 (c : Dev nD) : Vec Ideal S128x128 .f32 := V c (Pipeline.arrRef spec1 4)
/-- The second layer's bias. -/
abbrev arr5 (c : Dev nD) : Vec Ideal S128 .f32 := V c (Pipeline.arrRef spec1 5)

/-- The zero offsets of a rank-2 block, as a constant function. -/
theorem zero2 : (![0, 0] : Fin 2 → Nat) = fun _ => 0 := funext fun a => match a with | ⟨0, _⟩ => rfl | ⟨1, _⟩ => rfl
/-- The zero offset of a rank-1 block, as a constant function. -/
theorem zero1 : (![0] : Fin 1 → Nat) = fun _ => 0 := funext fun a => match a with | ⟨0, _⟩ => rfl

/-- The block index maps over the grid: the node rows, the aggregates and the result move one block of rows per point
and stay at column block zero; the weights and biases stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row `p`, column `q` of the result's block at point `t` is row `5000 t + p`, column `q` of the array. -/
theorem emb_out (t : Fin cfg1.N) (p : Fin 5000) (q : Fin 128) (r : Fin 50000) (hr : r.val = t.val * 5000 + p.val) :
    (((cfg1.win 6).blk t).view.emb (ix2 p q) : S50000x128.Idx) = ix2 r q := by
  obtain ⟨-, -, -, -, -, -, -, -, -, -, f60, f61⟩ := idx_facts t
  refine funext fun a => Fin.ext ?_
  match a with
  | ⟨0, _⟩ => show win1_6.index t (0 : Fin 2) * 5000 + 1 * p.val = r.val; omega
  | ⟨1, _⟩ => show win1_6.index t (1 : Fin 2) * 128 + 1 * q.val = q.val; omega

/-- Row `p` of the node block at point `t` is row `5000 t + p` of the node features. -/
theorem row_blk0 (c : Dev nD) (t : Fin cfg1.N) (p : Fin 5000) (r : Fin 50000) (hr : r.val = t.val * 5000 + p.val) :
    rowAt (Gen.iblk1 (F := Ideal) V c 0 t : Vec Ideal S5000x128 .f32) p = rowAt (arr0 V c) r := by
  obtain ⟨f00, f01, -⟩ := idx_facts t
  funext n
  show V c (Pipeline.arrRef spec1 0) (((cfg1.win 0).blk t).view.emb (ix2 p n)) = V c (Pipeline.arrRef spec1 0) (ix2 r n)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * n.val = n.val; omega

/-- Row `p` of the aggregate block at point `t` is row `5000 t + p` of the aggregates. -/
theorem row_blk1 (c : Dev nD) (t : Fin cfg1.N) (p : Fin 5000) (r : Fin 50000) (hr : r.val = t.val * 5000 + p.val) :
    rowAt (Gen.iblk1 (F := Ideal) V c 1 t : Vec Ideal S5000x128 .f32) p = rowAt (arr1 V c) r := by
  obtain ⟨-, -, f10, f11, -⟩ := idx_facts t
  funext n
  show V c (Pipeline.arrRef spec1 1) (((cfg1.win 1).blk t).view.emb (ix2 p n)) = V c (Pipeline.arrRef spec1 1) (ix2 r n)
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * n.val = n.val; omega

/-- The first weight block at every point is the whole matrix. -/
theorem blk2_eq (c : Dev nD) (t : Fin cfg1.N) : (Gen.iblk1 (F := Ideal) V c 2 t : Vec Ideal S128x128 .f32) = arr2 V c := by
  obtain ⟨-, -, -, -, f20, f21, -⟩ := idx_facts t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The first bias block at every point is the whole bias. -/
theorem blk3_eq (c : Dev nD) (t : Fin cfg1.N) : (Gen.iblk1 (F := Ideal) V c 3 t : Vec Ideal S128 .f32) = arr3 V c := by
  obtain ⟨-, -, -, -, -, -, f30, -⟩ := idx_facts t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 1) * 128 + 1 * (y 0).val = (y 0).val; omega

/-- The second weight block at every point is the whole matrix. -/
theorem blk4_eq (c : Dev nD) (t : Fin cfg1.N) : (Gen.iblk1 (F := Ideal) V c 4 t : Vec Ideal S128x128 .f32) = arr4 V c := by
  obtain ⟨-, -, -, -, -, -, -, f40, f41, -⟩ := idx_facts t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The second bias block at every point is the whole bias. -/
theorem blk5_eq (c : Dev nD) (t : Fin cfg1.N) : (Gen.iblk1 (F := Ideal) V c 5 t : Vec Ideal S128 .f32) = arr5 V c := by
  obtain ⟨-, -, -, -, -, -, -, -, -, f50, -⟩ := idx_facts t
  funext y
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 1) * 128 + 1 * (y 0).val = (y 0).val; omega

/-! ## What a point writes back, and the whole array -/

/-- What point `t` writes back is block `t` of the specification's update of the whole arrays. -/
theorem flushed_eq (c : Dev nD) (t : Fin cfg1.N) :
    (Gen.dat1 (F := Ideal) V c).flushed 6 t = ((cfg1.win 6).blk t).view.read (Elt Ideal)
      (Cert.Gine.nodeUpd (arr0 V c) (arr1 V c) (arr2 V c) (arr3 V c) (arr4 V c) (arr5 V c)) := by
  show (cfg1.win 6).cut (grid1.coords t) ((Gen.dat1 (F := Ideal) V c).after 6 t) = _
  rw [Gen.after1_6]
  unfold Gen.out1_6
  rw [View.canon_unit_zero zero2]
  simp only [View.ld_unit_zero (S := S5000x128) zero2, View.ld_unit_zero (S := S128x128) zero2,
    View.ld_unit_zero (S := S128) zero1]
  refine funext fun (j : S5000x128.Idx) => ?_
  obtain ⟨p, q, rfl⟩ : ∃ (p : Fin 5000) (q : Fin 128), j = ix2 p q := ⟨j 0, j 1, eq_ix2 j⟩
  have ht : t.val < 10 := lt_of_lt_of_eq t.isLt Gen.N_1
  have hr : (⟨t.val * 5000 + p.val, by have := p.isLt; omega⟩ : Fin 50000).val = t.val * 5000 + p.val := rfl
  show Gen.k1_pay1 (F := Ideal) (Gen.iblk1 V c 0 t) (Gen.iblk1 V c 1 t) (Gen.iblk1 V c 2 t) (Gen.iblk1 V c 3 t)
      (Gen.iblk1 V c 4 t) (Gen.iblk1 V c 5 t) (ix2 p q)
    = Cert.Gine.nodeUpd (arr0 V c) (arr1 V c) (arr2 V c) (arr3 V c) (arr4 V c) (arr5 V c)
      (((cfg1.win 6).blk t).view.emb (ix2 p q))
  refine (pay_at (arr0 V c) (arr1 V c) (arr2 V c) (arr3 V c) (arr4 V c) (arr5 V c) _ _ _ _ _ _ p q _
    (row_blk0 V c t p _ hr) (row_blk1 V c t p _ hr) (blk2_eq V c t) (blk3_eq V c t) (blk4_eq V c t) (blk5_eq V c t)).trans ?_
  exact congrArg (Cert.Gine.nodeUpd (arr0 V c) (arr1 V c) (arr2 V c) (arr3 V c) (arr4 V c) (arr5 V c))
    (emb_out t p q _ hr).symm

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole (Pipeline.arrRef spec1 6)).slice (win1_6.rect t)).set ↔ _
  rw [View.set_slice_whole, Rect.mem_set_unit]
  exact Iff.rfl

/-- Every index of the array is in the block of the point its row names: row `r` is in block `r / 5000`, and every
point writes its block back. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := Gen.N_1
  have hlt : (i 0).val / 5000 < cfg1.N := by rw [hN]; omega
  obtain ⟨-, -, -, -, -, -, -, -, -, -, f60, f61⟩ := idx_facts ⟨(i 0).val / 5000, hlt⟩
  have f60' : win1_6.index ⟨(i 0).val / 5000, hlt⟩ (0 : Fin 2) = (i 0).val / 5000 := f60
  refine ⟨⟨(i 0).val / 5000, hlt⟩, Gen.flush1_6 _, ?_⟩
  rw [mem_blk]
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    omega
  | ⟨1, _⟩ =>
    show win1_6.index ⟨(i 0).val / 5000, hlt⟩ (1 : Fin 2) * 128 ≤ (i 1).val
      ∧ (i 1).val < win1_6.index ⟨(i 0).val / 5000, hlt⟩ (1 : Fin 2) * 128 + 128
    omega

/-- The array after the region is the specification's update of the node features and the aggregates through the two
layers, as ONE function of the arrays the region finds. -/
theorem final (c : Dev nD) : (Gen.dat1 (F := Ideal) V c).arrAt 6 cfg1.N
    = Cert.Gine.nodeUpd (arr0 V c) (arr1 V c) (arr2 V c) (arr3 V c) (arr4 V c) (arr5 V c) :=
  (Gen.dat1 (F := Ideal) V c).arrAt_eq_of_cover 6
    (Cert.Gine.nodeUpd (arr0 V c) (arr1 V c) (arr2 V c) (arr3 V c) (arr4 V c) (arr5 V c))
    (fun t _ => flushed_eq V c t) cover

end Cert.KernelIdeal.NodeVal1

end
-- ==== Proof.HeadVal6.lean ====
import proofs.«431309_j3118146257466_1_alg».proof.Proof.Gen.KernelIdeal.Frame
import proofs.«431309_j3118146257466_1_alg».proof.Proof.Spec
import Idealize.ShloMosaic.Lib.Pipeline.Value
import Idealize.ShloMosaic.Lib.ValueIdx
import Idealize.ShloMosaic.Lib.ValueLayout

/-!
# The readout region as one whole-array function

The region has one grid point, and every window's block is its whole array, read and written at zero offsets. On a
row the body's operations are the readout of that row: a dense layer with the cut at zero, then a linear map with
bias. So the result array ends holding the readout of every pooled row.
-/

noncomputable section

namespace Cert.KernelIdeal.HeadVal6

open Cert.KernelIdeal Cert.KernelIdeal.Gen Idealize.ShloMosaic Idealize.ShloMosaic.ValueIdx Idealize.ShloMosaic.TcCoe Cert.Mlp

/-! ## The body on a row, and on the whole block -/

/-- Row `r` of what the body stores is the readout of row `r` of the pooled rows. -/
theorem pay_row (x0 : Vec Ideal S64x128 .f32) (x1 : Vec Ideal S128x128 .f32) (x2 : Vec Ideal S128 .f32)
    (x3 : Vec Ideal S128x1 .f32) (x4 : Vec Ideal S1 .f32) (r : Fin 64) :
    rowAt (Gen.k6_pay1 (F := Ideal) x0 x1 x2 x3 x4) r
      = Cert.Gine.headRow (mat x1) (vecOf x2) (mat x3) (vecOf x4) (rowAt x0 r) := by
  unfold Gen.k6_pay1
  dsimp only
  unfold Cert.Gine.headRow dense
  refine (bias_rowAt _ _ _ r).trans ?_
  refine congrArg₂ addRow ?_ (rowOf_shapeCast x4 _)
  refine (mxu_rowAt dot_S64x128_S128x1_S64x1_1_0_0_1_n_n rfl rfl rfl rfl rfl rfl none _ _ r).trans ?_
  refine congrArg (lin (mat x3)) ?_
  refine (relu_rowAt _ r).trans ?_
  refine congrArg relu ?_
  refine (bias_rowAt _ _ _ r).trans ?_
  refine congrArg₂ addRow ?_ (rowOf_shapeCast x2 _)
  refine (mxu_rowAt dot_S64x128_S128x128_S64x128_1_0_0_1_n_n rfl rfl rfl rfl rfl rfl none _ _ r).trans ?_
  show lin (mat x1) (rowAt (shapeCast S64x128 x0 _) r) = _
  rw [shapeCast_self]

/-- What the body stores is the readout of every pooled row. -/
theorem pay_eq (x0 : Vec Ideal S64x128 .f32) (x1 : Vec Ideal S128x128 .f32) (x2 : Vec Ideal S128 .f32)
    (x3 : Vec Ideal S128x1 .f32) (x4 : Vec Ideal S1 .f32) :
    Gen.k6_pay1 (F := Ideal) x0 x1 x2 x3 x4 = Cert.Gine.headOut x0 x1 x2 x3 x4 := by
  funext i
  refine (congrArg (Gen.k6_pay1 (F := Ideal) x0 x1 x2 x3 x4) (eq_ix2 i)).trans ?_
  exact congrFun (pay_row x0 x1 x2 x3 x4 (i 0)) (i 1)

/-! ## Zero offsets, however they are spelt -/

theorem hz2 : (![0, 0] : Fin 2 → Nat) = fun _ => 0 := funext fun a => by fin_cases a <;> rfl
theorem hz1 : (![0] : Fin 1 → Nat) = fun _ => 0 := funext fun a => by fin_cases a; rfl

/-- The staging buffer of the result after the body, from the input blocks: one load of each whole block, one store
    of the whole block. -/
theorem out_eq (x0 : Vec Ideal S64x128 .f32) (x1 : Vec Ideal S128x128 .f32) (x2 : Vec Ideal S128 .f32)
    (x3 : Vec Ideal S128x1 .f32) (x4 : Vec Ideal S1 .f32) :
    Gen.out6_5 (F := Ideal) x0 x1 x2 x3 x4 = Cert.Gine.headOut x0 x1 x2 x3 x4 := by
  unfold Gen.out6_5
  rw [View.canon_unit_zero hz2]
  simp only [View.ld_unit_zero (S := S64x128) hz2, View.ld_unit_zero (S := S128x128) hz2, View.ld_unit_zero (S := S128) hz1,
    View.ld_unit_zero (S := S128x1) hz2, View.ld_unit_zero (S := S1) hz1]
  exact pay_eq x0 x1 x2 x3 x4

/-- Every window's block index is zero on every axis at every point, so every block starts at offset zero. -/
theorem off0 (t : Fin cfg6.N) : (fun a => win6_0.index t a * S64x128.size a) = fun _ => 0 :=
  funext fun a => (by decide +kernel : ∀ (t : Fin grid6.N) (a : Fin 2), win6_0.index t a * S64x128.size a = 0) t a
theorem off1 (t : Fin cfg6.N) : (fun a => win6_1.index t a * S128x128.size a) = fun _ => 0 :=
  funext fun a => (by decide +kernel : ∀ (t : Fin grid6.N) (a : Fin 2), win6_1.index t a * S128x128.size a = 0) t a
theorem off2 (t : Fin cfg6.N) : (fun a => win6_2.index t a * S128.size a) = fun _ => 0 :=
  funext fun a => (by decide +kernel : ∀ (t : Fin grid6.N) (a : Fin 1), win6_2.index t a * S128.size a = 0) t a
theorem off3 (t : Fin cfg6.N) : (fun a => win6_3.index t a * S128x1.size a) = fun _ => 0 :=
  funext fun a => (by decide +kernel : ∀ (t : Fin grid6.N) (a : Fin 2), win6_3.index t a * S128x1.size a = 0) t a
theorem off4 (t : Fin cfg6.N) : (fun a => win6_4.index t a * S1.size a) = fun _ => 0 :=
  funext fun a => (by decide +kernel : ∀ (t : Fin grid6.N) (a : Fin 1), win6_4.index t a * S1.size a = 0) t a
theorem off5 (t : Fin cfg6.N) : (fun a => win6_5.index t a * S64x1.size a) = fun _ => 0 :=
  funext fun a => (by decide +kernel : ∀ (t : Fin grid6.N) (a : Fin 2), win6_5.index t a * S64x1.size a = 0) t a

/-! ## Each block is its whole array -/

variable (V : (c : Dev nD) → (b : Ref sig .tc) → Buf (Elt Ideal) ((c : Thread nD τ).loc b))

/-- The pooled rows. -/
abbrev arr0 (c : Dev nD) : Vec Ideal S64x128 .f32 := V c (Pipeline.arrRef spec6 0)
/-- The first layer's matrix. -/
abbrev arr1 (c : Dev nD) : Vec Ideal S128x128 .f32 := V c (Pipeline.arrRef spec6 1)
/-- The first layer's bias. -/
abbrev arr2 (c : Dev nD) : Vec Ideal S128 .f32 := V c (Pipeline.arrRef spec6 2)
/-- The second layer's matrix. -/
abbrev arr3 (c : Dev nD) : Vec Ideal S128x1 .f32 := V c (Pipeline.arrRef spec6 3)
/-- The second layer's bias. -/
abbrev arr4 (c : Dev nD) : Vec Ideal S1 .f32 := V c (Pipeline.arrRef spec6 4)

theorem blk0 (c : Dev nD) (t : Fin cfg6.N) : (Gen.iblk6 (F := Ideal) V c 0 t : Vec Ideal S64x128 .f32) = arr0 V c :=
  Memref.read_access_unit_zero (Elt Ideal) main_v69 (off0 t) (fun a => by rw [congrFun (off0 t) a]; simp) (V c (Pipeline.arrRef spec6 0))
theorem blk1 (c : Dev nD) (t : Fin cfg6.N) : (Gen.iblk6 (F := Ideal) V c 1 t : Vec Ideal S128x128 .f32) = arr1 V c :=
  Memref.read_access_unit_zero (Elt Ideal) main_arg10 (off1 t) (fun a => by rw [congrFun (off1 t) a]; simp) (V c (Pipeline.arrRef spec6 1))
theorem blk2 (c : Dev nD) (t : Fin cfg6.N) : (Gen.iblk6 (F := Ideal) V c 2 t : Vec Ideal S128 .f32) = arr2 V c :=
  Memref.read_access_unit_zero (Elt Ideal) main_arg11 (off2 t) (fun a => by rw [congrFun (off2 t) a]; simp) (V c (Pipeline.arrRef spec6 2))
theorem blk3 (c : Dev nD) (t : Fin cfg6.N) : (Gen.iblk6 (F := Ideal) V c 3 t : Vec Ideal S128x1 .f32) = arr3 V c :=
  Memref.read_access_unit_zero (Elt Ideal) main_arg12 (off3 t) (fun a => by rw [congrFun (off3 t) a]; simp) (V c (Pipeline.arrRef spec6 3))
theorem blk4 (c : Dev nD) (t : Fin cfg6.N) : (Gen.iblk6 (F := Ideal) V c 4 t : Vec Ideal S1 .f32) = arr4 V c :=
  Memref.read_access_unit_zero (Elt Ideal) main_arg13 (off4 t) (fun a => by rw [congrFun (off4 t) a]; simp) (V c (Pipeline.arrRef spec6 4))

/-- Reading a result-shaped array through the result window's block reads the array. -/
theorem blk5_read (t : Fin cfg6.N) (X : Vec Ideal S64x1 .f32) : ((cfg6.win 5).blk t).view.read (Elt Ideal) X = X :=
  Memref.read_access_unit_zero (Elt Ideal) main_v70 (off5 t) (fun a => by rw [congrFun (off5 t) a]; simp) X

/-! ## What the one point writes back, and the array after the run -/

/-- What point `t` writes back is block `t` of the readout of the arrays as the region finds them. -/
theorem flushed_eq (c : Dev nD) (t : Fin cfg6.N) :
    (Gen.dat6 (F := Ideal) V c).flushed 5 t
      = ((cfg6.win 5).blk t).view.read (Elt Ideal)
          (Cert.Gine.headOut (arr0 V c) (arr1 V c) (arr2 V c) (arr3 V c) (arr4 V c)) := by
  show (cfg6.win 5).cut (grid6.coords t) ((Gen.dat6 (F := Ideal) V c).after 5 t) = _
  rw [Gen.after6_5]
  refine (out_eq (Gen.iblk6 (F := Ideal) V c 0 t) (Gen.iblk6 (F := Ideal) V c 1 t) (Gen.iblk6 (F := Ideal) V c 2 t)
    (Gen.iblk6 (F := Ideal) V c 3 t) (Gen.iblk6 (F := Ideal) V c 4 t)).trans ?_
  rw [blk0 V c t, blk1 V c t, blk2 V c t, blk3 V c t, blk4 V c t]
  exact (blk5_read t _).symm

/-- Every index of the result array is in the one point's block. -/
theorem cover5 (c : Dev nD) (i : ((cfg6.win 5).arr.view.loc (c.tc : Thread nD τ)).2.ty.Idx) :
    ∃ t : Fin cfg6.N, (cfg6.win 5).flush t = true ∧ i ∈ ((cfg6.win 5).blk t).view.set :=
  ⟨t6_0, flush6_5 t6_0, by
    show i ∈ ((View.whole main_v70).slice (win6_5.rect t6_0)).set
    rw [View.set_slice_whole]
    exact View.mem_set_unit_zero (S := S64x1) (off5 t6_0) _ i⟩

/-- THE ARRAY after the run: the readout of every pooled row. -/
theorem head_array (c : Dev nD) :
    (Gen.dat6 (F := Ideal) V c).arrAt 5 cfg6.N
      = Cert.Gine.headOut (arr0 V c) (arr1 V c) (arr2 V c) (arr3 V c) (arr4 V c) :=
  (Gen.dat6 (F := Ideal) V c).arrAt_eq_of_cover 5 _ (fun t _ => flushed_eq V c t) (cover5 c)

end Cert.KernelIdeal.HeadVal6

end
-- ==== Proof.KernelValue.lean ====
import proofs.«431309_j3118146257466_1_alg».proof.Proof.Gen.KernelIdeal.Frame
import proofs.«431309_j3118146257466_1_alg».proof.Proof.NetK
import proofs.«431309_j3118146257466_1_alg».proof.Proof.KHead
import proofs.«431309_j3118146257466_1_alg».proof.Proof.KLayer1
import proofs.«431309_j3118146257466_1_alg».proof.Proof.KLayer2
import proofs.«431309_j3118146257466_1_alg».proof.Proof.KLayer3
import proofs.«431309_j3118146257466_1_alg».proof.Proof.KCarry1
import proofs.«431309_j3118146257466_1_alg».proof.Proof.KCarry2
import proofs.«431309_j3118146257466_1_alg».proof.Proof.KCarry3
import proofs.«431309_j3118146257466_1_alg».proof.Proof.EdgeVal0
import proofs.«431309_j3118146257466_1_alg».proof.Proof.EdgeVal2
import proofs.«431309_j3118146257466_1_alg».proof.Proof.EdgeVal4
import proofs.«431309_j3118146257466_1_alg».proof.Proof.NodeVal1
import proofs.«431309_j3118146257466_1_alg».proof.Proof.NodeVal3
import proofs.«431309_j3118146257466_1_alg».proof.Proof.NodeVal5
import proofs.«431309_j3118146257466_1_alg».proof.Proof.HeadVal6

/-!
# The kernel program's result as the composed network

Over the extended reals. The program runs three layers and a readout. Each layer's node rows are that layer's
whole-array function of the previous layer's node rows and of the edge list, the edge attributes and the layer's slice
of the weights; every array a layer does not write holds what the launch memory held. Substituting layer into layer
and the third layer into the readout gives the result buffer as the whole network of the fourteen launch arrays.
-/

noncomputable section

namespace Cert.KernelIdeal

open Cert.KernelIdeal Cert.KernelIdeal.Gen Idealize.ShloMosaic Idealize.ShloMosaic.ValueIdx Idealize.ShloMosaic.TcCoe

variable [Cert.KernelIdeal.Facts]

namespace KernelValue

variable (m : (ℓ : Loc nD τ sig) → Buf (Elt Ideal) ℓ) (ρ : Dev nD → PrngReg)

/-- A buffer the three layers and the readout leave alone holds at the readout what the launch memory held. -/
theorem carried (c : Dev nD) :
    W16 m ρ c (Proc.devRef .tc main_arg2) = m ((c : Thread nD τ).loc main_arg2)
    ∧ W16 m ρ c (Proc.devRef .tc main_arg10) = m ((c : Thread nD τ).loc main_arg10)
    ∧ W16 m ρ c (Proc.devRef .tc main_arg11) = m ((c : Thread nD τ).loc main_arg11)
    ∧ W16 m ρ c (Proc.devRef .tc main_arg12) = m ((c : Thread nD τ).loc main_arg12)
    ∧ W16 m ρ c (Proc.devRef .tc main_arg13) = m ((c : Thread nD τ).loc main_arg13) :=
  ⟨((KCarry3.arg2_at m ρ c).trans (KCarry2.arg2_at m ρ c)).trans (KCarry1.arg2_at m ρ c),
   ((KCarry3.arg10_at m ρ c).trans (KCarry2.arg10_at m ρ c)).trans (KCarry1.arg10_at m ρ c),
   ((KCarry3.arg11_at m ρ c).trans (KCarry2.arg11_at m ρ c)).trans (KCarry1.arg11_at m ρ c),
   ((KCarry3.arg12_at m ρ c).trans (KCarry2.arg12_at m ρ c)).trans (KCarry1.arg12_at m ρ c),
   ((KCarry3.arg13_at m ρ c).trans (KCarry2.arg13_at m ρ c)).trans (KCarry1.arg13_at m ρ c)⟩

/-- After the first layer the node rows are the first layer of the launch memory's arrays. -/
theorem layer1 (c : Dev nD) : W6 m ρ c (Proc.devRef .tc main_v21)
    = NetK.layerK (m ((c : Thread nD τ).loc main_arg0)) (NetK.srcK (m ((c : Thread nD τ).loc main_arg1))) (NetK.dstK (m ((c : Thread nD τ).loc main_arg1))) (m ((c : Thread nD τ).loc main_arg3))
        (NetK.we0 (m ((c : Thread nD τ).loc main_arg8))) (NetK.vec0 (m ((c : Thread nD τ).loc main_arg9))) (NetK.mat0 (m ((c : Thread nD τ).loc main_arg4))) (NetK.vec0 (m ((c : Thread nD τ).loc main_arg5)))
        (NetK.mat0 (m ((c : Thread nD τ).loc main_arg6))) (NetK.vec0 (m ((c : Thread nD τ).loc main_arg7))) :=
  KLayer1.value m ρ (fun V c => EdgeVal0.edge_region0 V c) (fun V c => NodeVal1.final V c) c

/-- After the second layer the node rows are the second layer of the first layer's, with the launch memory's edge list,
attributes and weights. -/
theorem layer2 (c : Dev nD) : W11 m ρ c (Proc.devRef .tc main_v39)
    = NetK.layerK (W6 m ρ c (Proc.devRef .tc main_v21)) (NetK.srcK (m ((c : Thread nD τ).loc main_arg1))) (NetK.dstK (m ((c : Thread nD τ).loc main_arg1))) (m ((c : Thread nD τ).loc main_arg3))
        (NetK.we1 (m ((c : Thread nD τ).loc main_arg8))) (NetK.vec1 (m ((c : Thread nD τ).loc main_arg9))) (NetK.mat1 (m ((c : Thread nD τ).loc main_arg4))) (NetK.vec1 (m ((c : Thread nD τ).loc main_arg5)))
        (NetK.mat1 (m ((c : Thread nD τ).loc main_arg6))) (NetK.vec1 (m ((c : Thread nD τ).loc main_arg7))) := by
  refine (KLayer2.value m ρ (fun V c => EdgeVal2.edge_region2 V c) (fun V c => NodeVal3.final V c) c).trans ?_
  rw [KCarry1.src_at m ρ c, KCarry1.dst_at m ρ c, KCarry1.arg3_at m ρ c, KCarry1.arg8_at m ρ c, KCarry1.arg9_at m ρ c,
    KCarry1.arg4_at m ρ c, KCarry1.arg5_at m ρ c, KCarry1.arg6_at m ρ c, KCarry1.arg7_at m ρ c]

/-- After the third layer the node rows are the third layer of the second layer's. -/
theorem layer3 (c : Dev nD) : W16 m ρ c (Proc.devRef .tc main_v57)
    = NetK.layerK (W11 m ρ c (Proc.devRef .tc main_v39)) (NetK.srcK (m ((c : Thread nD τ).loc main_arg1))) (NetK.dstK (m ((c : Thread nD τ).loc main_arg1))) (m ((c : Thread nD τ).loc main_arg3))
        (NetK.we2 (m ((c : Thread nD τ).loc main_arg8))) (NetK.vec2 (m ((c : Thread nD τ).loc main_arg9))) (NetK.mat2 (m ((c : Thread nD τ).loc main_arg4))) (NetK.vec2 (m ((c : Thread nD τ).loc main_arg5)))
        (NetK.mat2 (m ((c : Thread nD τ).loc main_arg6))) (NetK.vec2 (m ((c : Thread nD τ).loc main_arg7))) := by
  refine (KLayer3.value m ρ (fun V c => EdgeVal4.edge_region4 V c) (fun V c => NodeVal5.final V c) c).trans ?_
  rw [KCarry2.v1_at m ρ c, KCarry2.v3_at m ρ c, KCarry2.arg3_at m ρ c, KCarry2.arg8_at m ρ c, KCarry2.arg9_at m ρ c,
    KCarry2.arg4_at m ρ c, KCarry2.arg5_at m ρ c, KCarry2.arg6_at m ρ c, KCarry2.arg7_at m ρ c,
    KCarry1.src_at m ρ c, KCarry1.dst_at m ρ c, KCarry1.arg3_at m ρ c, KCarry1.arg8_at m ρ c, KCarry1.arg9_at m ρ c,
    KCarry1.arg4_at m ρ c, KCarry1.arg5_at m ρ c, KCarry1.arg6_at m ρ c, KCarry1.arg7_at m ρ c]

/-- The result buffer at return is the whole network of the launch memory's fourteen arrays. -/
theorem kernel_value (c : Dev nD) : W19 m ρ c (Proc.devRef .tc main_v71)
    = NetK.netK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  obtain ⟨e2, e10, e11, e12, e13⟩ := carried m ρ c
  refine (KHead.value m ρ (fun V c => HeadVal6.head_array V c) c).trans ?_
  rw [e2, e10, e11, e12, e13, layer3 m ρ c, layer2 m ρ c, layer1 m ρ c]
  rfl

end KernelValue

end Cert.KernelIdeal

end
-- ==== Proof.RefStages.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«431309_j3118146257466_1_alg».proof.ReferenceIdeal
import proofs.«431309_j3118146257466_1_alg».proof.Proof.Spec

/-!
# The reference's three stages as whole-array functions

Over the extended reals. The reference computes an edge's messages, a node's update and the readout each as a short
chain of whole-array operations: a product with a weight matrix, a bias laid along every row, a sum of two arrays, a
product with the constant one, a maximum with zero. Each chain, applied to arbitrary operands, is shown here to be
the specification's whole-array function: the chain is read at one index `(p, n)`, every operation in it is read
on row `p` of its operand, and the rows compose into the specification's row function.
-/

noncomputable section

open scoped BigOperators

namespace Cert.ReferenceIdeal.RefStages

open Cert.ReferenceIdeal Idealize.ShloMosaic Idealize.ShloMosaic.ValueIdx Cert.Mlp

/-! ## Sums and the product with one, on a row -/

section Pointwise
variable {M N : Nat}

/-- Row `p` of the sum of two arrays is the sum of their rows `p`. -/
theorem add_rowAt (u v : FVec Ideal ⟨2, ![M, N]⟩ .f32) (p : Fin M) :
    rowAt (addf u v) p = addRow (rowAt u p) (rowAt v p) := rfl

/-- Row `p` of the constant one spread over the shape times an array is row `p` of the array: one is the unit of
the product on the extended reals. -/
theorem oneMul_rowAt (v : FVec Ideal ⟨2, ![M, N]⟩ .f32)
    (h0 : (⟨0, ![]⟩ : Shape).BroadcastsInDim ⟨2, ![M, N]⟩ ![]) (p : Fin M) :
    rowAt (mulf (broadcastInDim ⟨2, ![M, N]⟩ ![] h0 (constant (F := Ideal) ⟨0, ![]⟩ .f32 0x3F800000#32)) v) p
      = rowAt v p := by
  funext n
  show broadcastInDim ⟨2, ![M, N]⟩ ![] h0 (constant (F := Ideal) ⟨0, ![]⟩ .f32 0x3F800000#32) (ix2 p n) * v (ix2 p n) = _
  rw [broadcastInDim_scalar_apply]
  show Ideal.ofBits .f32 0x3F800000#32 * v (ix2 p n) = _
  rw [Ideal.ofBits_one_f32, one_mul]
  rfl

end Pointwise

variable [Cert.ReferenceIdeal.Facts]
open Cert.ReferenceIdeal.Facts₀ Cert.ReferenceIdeal.Facts

/-! ## The edge stage -/

/-- The reference's message chain — the attributes through the linear map, the bias, the gathered source rows added,
the maximum with zero — is the specification's message array. -/
theorem edge_stage (ea : FVec Ideal S800000x16 .f32) (hs : FVec Ideal S800000x128 .f32)
    (We : FVec Ideal S16x128 .f32) (be : FVec Ideal S128 .f32) :
    maximumf (addf hs (addf (Host.dotGeneral dot_S800000x16_S16x128_S800000x128_1_0_0_1_n_n none ea We)
        (broadcastInDim S800000x128 ![0, 1] bcast_S1x128_S800000x128_0_1 (broadcastInDim S1x128 ![1] bcast_S128_S1x128_1 be))))
      (broadcastInDim S800000x128 ![] bcast_S_S800000x128 (constant (F := Ideal) S_ .f32 0x00000000#32))
      = Cert.Gine.edgeMsg ea hs We be := by
  funext i
  obtain ⟨p, n, rfl⟩ : ∃ (p : Fin 800000) (n : Fin 128), i = ix2 p n := ⟨i 0, i 1, eq_ix2 i⟩
  refine (congrFun (hostRelu_rowAt (M := 800000) (N := 128) _ bcast_S_S800000x128 p) n).trans ?_
  rw [add_rowAt, hostBias_rowAt (M := 800000) (N := 128) _ be bcast_S128_S1x128_1 bcast_S1x128_S800000x128_0_1 p,
    dot_rowAt dot_S800000x16_S16x128_S800000x128_1_0_0_1_n_n rfl rfl rfl rfl rfl rfl none ea We p]
  rfl

/-! ## The node stage -/

/-- The reference's update chain — one times the node rows plus the aggregate, through two dense layers each with its
bias and the maximum with zero — is the specification's update array. -/
theorem node_stage (h agg : FVec Ideal S50000x128 .f32) (W1 : FVec Ideal S128x128 .f32) (b1 : FVec Ideal S128 .f32)
    (W2 : FVec Ideal S128x128 .f32) (b2 : FVec Ideal S128 .f32) :
    maximumf (addf (Host.dotGeneral dot_S50000x128_S128x128_S50000x128_1_0_0_1_n_n none
        (maximumf (addf (Host.dotGeneral dot_S50000x128_S128x128_S50000x128_1_0_0_1_n_n none
            (addf (mulf (broadcastInDim S50000x128 ![] bcast_S_S50000x128 (constant (F := Ideal) S_ .f32 0x3F800000#32)) h) agg) W1)
          (broadcastInDim S50000x128 ![0, 1] bcast_S1x128_S50000x128_0_1 (broadcastInDim S1x128 ![1] bcast_S128_S1x128_1 b1)))
          (broadcastInDim S50000x128 ![] bcast_S_S50000x128 (constant (F := Ideal) S_ .f32 0x00000000#32))) W2)
        (broadcastInDim S50000x128 ![0, 1] bcast_S1x128_S50000x128_0_1 (broadcastInDim S1x128 ![1] bcast_S128_S1x128_1 b2)))
      (broadcastInDim S50000x128 ![] bcast_S_S50000x128 (constant (F := Ideal) S_ .f32 0x00000000#32))
      = Cert.Gine.nodeUpd h agg W1 b1 W2 b2 := by
  funext i
  obtain ⟨p, n, rfl⟩ : ∃ (p : Fin 50000) (n : Fin 128), i = ix2 p n := ⟨i 0, i 1, eq_ix2 i⟩
  refine (congrFun (hostRelu_rowAt (M := 50000) (N := 128) _ bcast_S_S50000x128 p) n).trans ?_
  rw [hostBias_rowAt (M := 50000) (N := 128) _ b2 bcast_S128_S1x128_1 bcast_S1x128_S50000x128_0_1 p,
    dot_rowAt dot_S50000x128_S128x128_S50000x128_1_0_0_1_n_n rfl rfl rfl rfl rfl rfl none _ W2 p,
    hostRelu_rowAt (M := 50000) (N := 128) _ bcast_S_S50000x128 p,
    hostBias_rowAt (M := 50000) (N := 128) _ b1 bcast_S128_S1x128_1 bcast_S1x128_S50000x128_0_1 p,
    dot_rowAt dot_S50000x128_S128x128_S50000x128_1_0_0_1_n_n rfl rfl rfl rfl rfl rfl none _ W1 p,
    add_rowAt, oneMul_rowAt (M := 50000) (N := 128) h bcast_S_S50000x128 p]
  rfl

/-! ## The readout -/

/-- The reference's readout chain — a dense layer with its bias and the maximum with zero, then a linear map with its
bias — is the specification's readout array. -/
theorem head_stage (g : FVec Ideal S64x128 .f32) (Wh1 : FVec Ideal S128x128 .f32) (bh1 : FVec Ideal S128 .f32)
    (Wh2 : FVec Ideal S128x1 .f32) (bh2 : FVec Ideal S1 .f32) :
    addf (Host.dotGeneral dot_S64x128_S128x1_S64x1_1_0_0_1_n_n none
        (maximumf (addf (Host.dotGeneral dot_S64x128_S128x128_S64x128_1_0_0_1_n_n none g Wh1)
          (broadcastInDim S64x128 ![0, 1] bcast_S1x128_S64x128_0_1 (broadcastInDim S1x128 ![1] bcast_S128_S1x128_1 bh1)))
          (broadcastInDim S64x128 ![] bcast_S_S64x128 (constant (F := Ideal) S_ .f32 0x00000000#32))) Wh2)
      (broadcastInDim S64x1 ![0, 1] bcast_S1x1_S64x1_0_1 (broadcastInDim S1x1 ![1] bcast_S1_S1x1_1 bh2))
      = Cert.Gine.headOut g Wh1 bh1 Wh2 bh2 := by
  funext i
  obtain ⟨p, n, rfl⟩ : ∃ (p : Fin 64) (n : Fin 1), i = ix2 p n := ⟨i 0, i 1, eq_ix2 i⟩
  refine (congrFun (hostBias_rowAt (M := 64) (N := 1) _ bh2 bcast_S1_S1x1_1 bcast_S1x1_S64x1_0_1 p) n).trans ?_
  rw [dot_rowAt dot_S64x128_S128x1_S64x1_1_0_0_1_n_n rfl rfl rfl rfl rfl rfl none _ Wh2 p,
    hostRelu_rowAt (M := 64) (N := 128) _ bcast_S_S64x128 p,
    hostBias_rowAt (M := 64) (N := 128) _ bh1 bcast_S128_S1x128_1 bcast_S1x128_S64x128_0_1 p,
    dot_rowAt dot_S64x128_S128x128_S64x128_1_0_0_1_n_n rfl rfl rfl rfl rfl rfl none g Wh1 p]
  rfl

end Cert.ReferenceIdeal.RefStages

end
-- ==== Proof.NetR.lean ====
import proofs.«431309_j3118146257466_1_alg».proof.Proof.Spec
import proofs.«431309_j3118146257466_1_alg».proof.ReferenceIdeal

/-!
# The reference program's network, as a composition of whole-array functions

One layer: gather the source rows (a negative index wraps by the table's length), form every edge's message, add the messages into their target nodes, update
every node. The three layers use the three slices of the stacked weights. The readout pools the node rows by graph
(a sum per graph divided by the graph's node count, at least one), applies the readout rows and flattens.
-/

noncomputable section

namespace Cert.ReferenceIdeal.NetR

open Cert.ReferenceIdeal Idealize.ShloMosaic Idealize.ShloMosaic.ValueIdx

variable [Cert.ReferenceIdeal.Facts]
open Cert.ReferenceIdeal.Facts₀ Cert.ReferenceIdeal.Facts

/-- Row 0 of the edge list: the source nodes. -/
def srcR (ei : IVec S2x800000 32) : IVec S800000 32 :=
  shapeCast S800000 (extractStridedSlice S1x800000 ![0, 0] ei slices_S2x800000_S1x800000_0_0) shapeCasts_S1x800000_S800000
/-- Row 1 of the edge list: the target nodes. -/
def dstR (ei : IVec S2x800000 32) : IVec S800000 32 :=
  shapeCast S800000 (extractStridedSlice S1x800000 ![1, 0] ei slices_S2x800000_S1x800000_1_0) shapeCasts_S1x800000_S800000

/-- Slice `l` of a stack of three `[16, 128]` matrices. -/
def we0 (W : FVec Ideal S3x16x128 .f32) : FVec Ideal S16x128 .f32 :=
  shapeCast S16x128 (extractStridedSlice S1x16x128 ![0, 0, 0] W slices_S3x16x128_S1x16x128_0_0_0) shapeCasts_S1x16x128_S16x128
def we1 (W : FVec Ideal S3x16x128 .f32) : FVec Ideal S16x128 .f32 :=
  shapeCast S16x128 (extractStridedSlice S1x16x128 ![1, 0, 0] W slices_S3x16x128_S1x16x128_1_0_0) shapeCasts_S1x16x128_S16x128
def we2 (W : FVec Ideal S3x16x128 .f32) : FVec Ideal S16x128 .f32 :=
  shapeCast S16x128 (extractStridedSlice S1x16x128 ![2, 0, 0] W slices_S3x16x128_S1x16x128_2_0_0) shapeCasts_S1x16x128_S16x128

/-- Slice `l` of a stack of three rows of 128. -/
def vec0 (b : FVec Ideal S3x128 .f32) : FVec Ideal S128 .f32 :=
  shapeCast S128 (extractStridedSlice S1x128 ![0, 0] b slices_S3x128_S1x128_0_0) shapeCasts_S1x128_S128
def vec1 (b : FVec Ideal S3x128 .f32) : FVec Ideal S128 .f32 :=
  shapeCast S128 (extractStridedSlice S1x128 ![1, 0] b slices_S3x128_S1x128_1_0) shapeCasts_S1x128_S128
def vec2 (b : FVec Ideal S3x128 .f32) : FVec Ideal S128 .f32 :=
  shapeCast S128 (extractStridedSlice S1x128 ![2, 0] b slices_S3x128_S1x128_2_0) shapeCasts_S1x128_S128

/-- Slice `l` of a stack of three `[128, 128]` matrices. -/
def mat0 (W : FVec Ideal S3x128x128 .f32) : FVec Ideal S128x128 .f32 :=
  shapeCast S128x128 (extractStridedSlice S1x128x128 ![0, 0, 0] W slices_S3x128x128_S1x128x128_0_0_0) shapeCasts_S1x128x128_S128x128
def mat1 (W : FVec Ideal S3x128x128 .f32) : FVec Ideal S128x128 .f32 :=
  shapeCast S128x128 (extractStridedSlice S1x128x128 ![1, 0, 0] W slices_S3x128x128_S1x128x128_1_0_0) shapeCasts_S1x128x128_S128x128
def mat2 (W : FVec Ideal S3x128x128 .f32) : FVec Ideal S128x128 .f32 :=
  shapeCast S128x128 (extractStridedSlice S1x128x128 ![2, 0, 0] W slices_S3x128x128_S1x128x128_2_0_0) shapeCasts_S1x128x128_S128x128

/-- The index column: a negative index wraps by the table's length; then one column. -/
def wrapIdx (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The messages added into their target nodes, from zero. -/
def aggR (dst : IVec S800000 32) (msg : FVec Ideal S800000x128 .f32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst) msg

/-- One layer on the node rows `h`, with that layer's weights. -/
def layerR (h : FVec Ideal S50000x128 .f32) (src dst : IVec S800000 32) (ea : FVec Ideal S800000x16 .f32)
    (We : FVec Ideal S16x128 .f32) (be : FVec Ideal S128 .f32) (W1 : FVec Ideal S128x128 .f32) (b1 : FVec Ideal S128 .f32)
    (W2 : FVec Ideal S128x128 .f32) (b2 : FVec Ideal S128 .f32) : FVec Ideal S50000x128 .f32 :=
  Cert.Gine.nodeUpd h (aggR dst (Cert.Gine.edgeMsg ea (Host.gather gather_S50000x128_S800000x1_S800000x128_1_0_n_n_0_1_1128 h (wrapIdx src)) We be)) W1 b1 W2 b2

/-- The node rows pooled by graph: the sum of each graph's rows over its node count, at least one. -/
def poolR (h : FVec Ideal S50000x128 .f32) (batch : IVec S50000 32) : FVec Ideal S64x128 .f32 :=
  Host.divf
    (Host.scatterAdd scatter_S64x128_S50000x1_S50000x128_1_0_0_1
      (broadcastInDim S64x128 ![] bcast_S_S64x128 (constant (F := Ideal) S_ .f32 0x00000000#32))
      (broadcastInDim S50000x1 ![0] bcast_S50000_S50000x1_0 batch) h)
    (broadcastInDim S64x128 ![0, 1] bcast_S64x1_S64x128_0_1 (broadcastInDim S64x1 ![0] bcast_S64_S64x1_0
      (maximumf
        (Host.scatterAdd scatter_S64_S50000x1_S50000_n_0_0_1
          (broadcastInDim S64 ![] bcast_S_S64 (constant (F := Ideal) S_ .f32 0x00000000#32))
          (broadcastInDim S50000x1 ![0] bcast_S50000_S50000x1_0 batch)
          (broadcastInDim S50000 ![] bcast_S_S50000 (constant (F := Ideal) S_ .f32 0x3F800000#32)))
        (broadcastInDim S64 ![] bcast_S_S64 (constant (F := Ideal) S_ .f32 0x3F800000#32)))))

/-- The readout of the pooled rows, flattened. -/
def headR (h : FVec Ideal S50000x128 .f32) (batch : IVec S50000 32) (Wh1 : FVec Ideal S128x128 .f32)
    (bh1 : FVec Ideal S128 .f32) (Wh2 : FVec Ideal S128x1 .f32) (bh2 : FVec Ideal S1 .f32) : FVec Ideal S64 .f32 :=
  shapeCast S64 (Cert.Gine.headOut (poolR h batch) Wh1 bh1 Wh2 bh2) shapeCasts_S64x1_S64

/-- The whole network: three layers, then the readout. -/
def netR (x : FVec Ideal S50000x128 .f32) (ei : IVec S2x800000 32) (batch : IVec S50000 32) (ea : FVec Ideal S800000x16 .f32)
    (W1 : FVec Ideal S3x128x128 .f32) (b1 : FVec Ideal S3x128 .f32) (W2 : FVec Ideal S3x128x128 .f32) (b2 : FVec Ideal S3x128 .f32)
    (We : FVec Ideal S3x16x128 .f32) (be : FVec Ideal S3x128 .f32) (Wh1 : FVec Ideal S128x128 .f32) (bh1 : FVec Ideal S128 .f32)
    (Wh2 : FVec Ideal S128x1 .f32) (bh2 : FVec Ideal S1 .f32) : FVec Ideal S64 .f32 :=
  headR
    (layerR
      (layerR
        (layerR x (srcR ei) (dstR ei) ea (we0 We) (vec0 be) (mat0 W1) (vec0 b1) (mat0 W2) (vec0 b2))
        (srcR ei) (dstR ei) ea (we1 We) (vec1 be) (mat1 W1) (vec1 b1) (mat1 W2) (vec1 b2))
      (srcR ei) (dstR ei) ea (we2 We) (vec2 be) (mat2 W1) (vec2 b1) (mat2 W2) (vec2 b2))
    batch Wh1 bh1 Wh2 bh2

end Cert.ReferenceIdeal.NetR

end
-- ==== Proof.RefSide.lean ====
import proofs.«431309_j3118146257466_1_alg».proof.Defs
import proofs.«431309_j3118146257466_1_alg».proof.Proof.Gen.ReferenceIdeal
import proofs.«431309_j3118146257466_1_alg».proof.Proof.Gen.ReferenceIdeal.Run
import proofs.«431309_j3118146257466_1_alg».proof.Proof.Spec
import proofs.«431309_j3118146257466_1_alg».proof.Proof.RefStages
import proofs.«431309_j3118146257466_1_alg».proof.Proof.NetR

/-!
# The reference program's result as the composed network

Over the extended reals. The reference program's result is one closed term of its fourteen arguments: three times the
same chain of whole-array operations, each on the previous chain's result and on one slice of the stacked weights,
then the pooling quotient, the readout chain and the final flattening. One layer's chain, on arbitrary operands, is
the layer function: its message chain and its update chain are the specification's message and update arrays, and
what is left around them (the gather at the wrapped index, the sum of the messages into their target nodes) is
spelt as the layer function spells it. Likewise the readout chain is the readout function. The result is then the
three layer functions composed, under the readout: the network.
-/

noncomputable section

namespace Cert.ReferenceIdeal.RefSide

open Cert.ReferenceIdeal Idealize.ShloMosaic Idealize.ShloMosaic.TcCoe Idealize.SL.Sem Idealize.ShloMosaic.ValueIdx

variable [Cert.ReferenceIdeal.Facts]
open Cert.ReferenceIdeal.Facts₀ Cert.ReferenceIdeal.Facts

/-! ## One layer's chain of operations -/

/-- The reference's chain for one layer on arbitrary operands — the source rows gathered at the wrapped index, the
message chain, the messages added into their target nodes from zero, the update chain — is the layer function. -/
theorem layer_chain (h : FVec Ideal S50000x128 .f32) (src dst : IVec S800000 32) (ea : FVec Ideal S800000x16 .f32)
    (We : FVec Ideal S16x128 .f32) (be : FVec Ideal S128 .f32) (W1 : FVec Ideal S128x128 .f32) (b1 : FVec Ideal S128 .f32)
    (W2 : FVec Ideal S128x128 .f32) (b2 : FVec Ideal S128 .f32) :
    maximumf (addf (Host.dotGeneral dot_S50000x128_S128x128_S50000x128_1_0_0_1_n_n none
        (maximumf (addf (Host.dotGeneral dot_S50000x128_S128x128_S50000x128_1_0_0_1_n_n none
            (addf (mulf (broadcastInDim S50000x128 ![] bcast_S_S50000x128 (constant (F := Ideal) S_ .f32 0x3F800000#32)) h)
              (Host.scatterAdd scatter_S50000x128_S800000x1_S800000x128_1_0_0_1
                (broadcastInDim S50000x128 ![] bcast_S_S50000x128 (constant (F := Ideal) S_ .f32 0x00000000#32))
                (broadcastInDim S800000x1 ![0] bcast_S800000_S800000x1_0 dst)
                (maximumf (addf (Host.gather gather_S50000x128_S800000x1_S800000x128_1_0_n_n_0_1_1128 h
                    (broadcastInDim S800000x1 ![0] bcast_S800000_S800000x1_0
                      (select (cmpi .slt src (broadcastInDim S800000 ![] bcast_S_S800000 (constantI S_ 32 0#32)))
                        (addi src (broadcastInDim S800000 ![] bcast_S_S800000 (constantI S_ 32 50000#32))) src)))
                  (addf (Host.dotGeneral dot_S800000x16_S16x128_S800000x128_1_0_0_1_n_n none ea We)
                    (broadcastInDim S800000x128 ![0, 1] bcast_S1x128_S800000x128_0_1 (broadcastInDim S1x128 ![1] bcast_S128_S1x128_1 be))))
                  (broadcastInDim S800000x128 ![] bcast_S_S800000x128 (constant (F := Ideal) S_ .f32 0x00000000#32))))) W1)
          (broadcastInDim S50000x128 ![0, 1] bcast_S1x128_S50000x128_0_1 (broadcastInDim S1x128 ![1] bcast_S128_S1x128_1 b1)))
          (broadcastInDim S50000x128 ![] bcast_S_S50000x128 (constant (F := Ideal) S_ .f32 0x00000000#32))) W2)
        (broadcastInDim S50000x128 ![0, 1] bcast_S1x128_S50000x128_0_1 (broadcastInDim S1x128 ![1] bcast_S128_S1x128_1 b2)))
      (broadcastInDim S50000x128 ![] bcast_S_S50000x128 (constant (F := Ideal) S_ .f32 0x00000000#32))
    = NetR.layerR h src dst ea We be W1 b1 W2 b2 := by
  rw [RefStages.edge_stage, RefStages.node_stage]
  rfl

/-! ## The readout's chain -/

/-- The reference's readout chain on the pooled rows, flattened, is the readout function. -/
theorem head_chain (h : FVec Ideal S50000x128 .f32) (batch : IVec S50000 32) (Wh1 : FVec Ideal S128x128 .f32)
    (bh1 : FVec Ideal S128 .f32) (Wh2 : FVec Ideal S128x1 .f32) (bh2 : FVec Ideal S1 .f32) :
    shapeCast S64 (addf (Host.dotGeneral dot_S64x128_S128x1_S64x1_1_0_0_1_n_n none
        (maximumf (addf (Host.dotGeneral dot_S64x128_S128x128_S64x128_1_0_0_1_n_n none (NetR.poolR h batch) Wh1)
          (broadcastInDim S64x128 ![0, 1] bcast_S1x128_S64x128_0_1 (broadcastInDim S1x128 ![1] bcast_S128_S1x128_1 bh1)))
          (broadcastInDim S64x128 ![] bcast_S_S64x128 (constant (F := Ideal) S_ .f32 0x00000000#32))) Wh2)
      (broadcastInDim S64x1 ![0, 1] bcast_S1x1_S64x1_0_1 (broadcastInDim S1x1 ![1] bcast_S1_S1x1_1 bh2))) shapeCasts_S64x1_S64
    = NetR.headR h batch Wh1 bh1 Wh2 bh2 := by
  rw [RefStages.head_stage]
  rfl

/-! ## The whole program -/

set_option maxRecDepth 16384 in
/-- The reference program's result is the composed network of its fourteen arguments. -/
theorem ref_value (m : (ℓ : Loc nD τ sig) → Buf (Elt Ideal) ℓ) (c : Dev nD) :
    Cert.ReferenceIdeal.Value.res_main_v148 (F := Ideal) m c
      = NetR.netR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) := by
  unfold NetR.netR
  rw [← head_chain, ← layer_chain, ← layer_chain, ← layer_chain]
  rfl

end Cert.ReferenceIdeal.RefSide

end
-- ==== Proof.TakeRows.lean ====
import Idealize.ShloMosaic.PureOps.Ideal
import Idealize.ShloMosaic.PureOps.Reduce
import Idealize.ShloMosaic.Lib.Affine
import Idealize.ShloMosaic.Lib.ValueIdx
import Idealize.ShloMosaic.Lib.ValueLayout
import Idealize.ShloMosaic.Lib.IdealHost
import Idealize.ShloMosaic.Lib.Pipeline.Value
import proofs.«431309_j3118146257466_1_alg».proof.KernelIdeal
import proofs.«431309_j3118146257466_1_alg».proof.Proof.TakeDefs

/-!
# A row lookup with fill, when every index is in range

The lookup takes a table of 50000 rows of 128 entries and a column of 800000 signed 32-bit indices. A negative index is
wrapped once by the table's length; a row whose wrapped index still lies outside `[0, 49999]` is replaced by a fill
word; every other row is the gathered row of the table. When every index `e` satisfies `0 ≤ src e < 50000` the wrap
leaves the index as it is, both bounds hold on every row, their conjunction folded along the axis of extent one is the
bit 1, and so the lookup is the plain gather at the wrapped indices. The gather itself is never opened.
-/

noncomputable section

namespace Cert.KernelIdeal.TakeRows

open Cert.KernelIdeal Idealize.ShloMosaic Idealize.ShloMosaic.ValueIdx

variable [Cert.KernelIdeal.Facts]

open Cert.KernelIdeal.Facts₀ Cert.KernelIdeal.Facts

/-! ## A fold of conjunctions over bits that are all 1 -/

/-- A left fold by `and` that starts at the bit 1 and meets only 1s ends at 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl =>
    foldl_andi_one f l _ (IntOp.andi_eq_one.2 ⟨hi, hl a (List.mem_cons_self ..)⟩)
      (fun n hn => hl n (List.mem_cons_of_mem _ hn))

/-- An `and`-reduction from the bit 1 of an array whose every bit is 1 is 1 at every result index. -/
theorem reduce_andi_of_all_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x _ _ (hinit _) (fun i _ => hx i)

/-! ## The wrapped index column under the range hypothesis -/

/-- Read at row `e`, column `c`, the wrapped index column is the wrap of `src e`. -/
theorem wrapIdx_apply' (src : IVec S800000 32) (e : Fin 800000) (c : Fin 1) :
    wrapIdx src (ix2 e c) =
      Scalar.select (IntOp.cmpi .slt (src (ix1 e)) 0#32) (IntOp.addi (src (ix1 e)) 50000#32) (src (ix1 e)) := by
  unfold wrapIdx
  rw [broadcastInDim_apply ![0] bcast_S800000_S800000x1_0 _ (ix2 e c) (ix1 e) (fun a => by
    match a with
    | ⟨0, _⟩ => rfl)]
  rw [select_apply]
  rfl

/-- A nonnegative index is not wrapped. -/
theorem wrapIdx_apply (src : IVec S800000 32) (e : Fin 800000) (c : Fin 1) (h0 : 0 ≤ (src (ix1 e)).toInt) :
    wrapIdx src (ix2 e c) = src (ix1 e) := by
  rw [wrapIdx_apply']
  have hc : IntOp.cmpi .slt (src (ix1 e)) 0#32 = 0#1 := by
    apply eq_zero_of_ne_one
    rw [IntOp.cmpi_slt]
    have : (0#32 : BitVec 32).toInt = 0 := by decide
    omega
  rw [hc, select_zero]

/-! ## The mask -/

/-- With the index in range both bounds hold, so the conjunction of the two comparisons is the bit 1. -/
theorem bounds_apply (src : IVec S800000 32)
    (hr : ∀ e : Fin 800000, 0 ≤ (src (ix1 e)).toInt ∧ (src (ix1 e)).toInt < 50000) (k : S800000x1.Idx) :
    andi (cmpi .sge (wrapIdx src) (broadcastInDim S800000x1 ![] bcast_S_S800000x1 (constantI S_ 32 0#32)))
      (cmpi .sle (wrapIdx src) (broadcastInDim S800000x1 ![0, 1] bcast_S1x1_S800000x1_0_1
        (broadcastInDim S1x1 ![1] bcast_S1_S1x1_1 (constantI S1 32 49999#32)))) k = 1#1 := by
  rw [eq_ix2 k]
  show IntOp.andi (IntOp.cmpi .sge (wrapIdx src (ix2 (k 0) (k 1))) _) (IntOp.cmpi .sle (wrapIdx src (ix2 (k 0) (k 1))) _) = 1#1
  rw [wrapIdx_apply src (k 0) (k 1) (hr (k 0)).1]
  have h0 : (0#32 : BitVec 32).toInt = 0 := by decide
  have h1 : (49999#32 : BitVec 32).toInt = 49999 := by decide
  refine IntOp.andi_eq_one.2 ⟨?_, ?_⟩
  · rw [IntOp.cmpi_sge]
    show (0#32 : BitVec 32).toInt ≤ _
    rw [h0]; exact (hr (k 0)).1
  · rw [IntOp.cmpi_sle]
    show _ ≤ (49999#32 : BitVec 32).toInt
    rw [h1]; have := (hr (k 0)).2; omega

/-- The lookup with fill is the plain gather at the wrapped indices when every index lies in `[0, 49999]`. -/
theorem takeRows_eq_gather (h : FVec Ideal S50000x128 .f32) (src : IVec S800000 32)
    (hr : ∀ e : Fin 800000, 0 ≤ (src (ix1 e)).toInt ∧ (src (ix1 e)).toInt < 50000) :
    takeRows h src = Host.gather gather_S50000x128_S800000x1_S800000x128_1_0_n_n_0_1_1128 h (wrapIdx src) := by
  funext i
  unfold takeRows
  rw [select_apply]
  have hm : broadcastInDim S800000x128 ![0] bcast_S800000_S800000x128_0 (Host.reduce IntOp.andi (andi (cmpi .sge (wrapIdx src) (broadcastInDim S800000x1 ![] bcast_S_S800000x1 (constantI S_ 32 0#32))) (cmpi .sle (wrapIdx src) (broadcastInDim S800000x1 ![0, 1] bcast_S1x1_S800000x1_0_1 (broadcastInDim S1x1 ![1] bcast_S1_S1x1_1 (constantI S1 32 49999#32))))) (constantI S_ 1 1#1) reducesTo_S800000x1_S800000_d1 h_S_) i = 1#1 := by
    unfold broadcastInDim
    exact reduce_andi_of_all_one _ _ _ _ (fun _ => rfl) (bounds_apply src hr) _
  rw [hm, select_one]

end Cert.KernelIdeal.TakeRows
-- ==== Proof.Bridge.lean ====
import proofs.«431309_j3118146257466_1_alg».proof.Proof.NetK
import proofs.«431309_j3118146257466_1_alg».proof.Proof.NetR
import proofs.«431309_j3118146257466_1_alg».proof.Proof.TakeRows

/-!
# The two networks are one function where every source index is in range

The kernel program's row lookup replaces a row whose index is outside the node table by a fill; the reference's
gather does not. Where every source index lies in `[0, 50000)` no row is replaced, so each layer of the kernel
program is the reference's layer on the same node rows, and the readouts are the same composition of operations.
-/

noncomputable section

namespace Cert.Gine.Bridge

open Idealize.ShloMosaic Idealize.ShloMosaic.ValueIdx

variable [Cert.KernelIdeal.Facts] [Cert.ReferenceIdeal.Facts]

open Cert.KernelIdeal in
/-- One layer: with the source indices in range the lookup with fill is the gather. -/
theorem layer_eq (h : FVec Ideal S50000x128 .f32) (src dst : IVec S800000 32) (ea : FVec Ideal S800000x16 .f32)
    (We : FVec Ideal S16x128 .f32) (be : FVec Ideal S128 .f32) (W1 : FVec Ideal S128x128 .f32) (b1 : FVec Ideal S128 .f32)
    (W2 : FVec Ideal S128x128 .f32) (b2 : FVec Ideal S128 .f32)
    (hr : ∀ e : Fin 800000, 0 ≤ (src (ix1 e)).toInt ∧ (src (ix1 e)).toInt < 50000) :
    Cert.KernelIdeal.NetK.layerK h src dst ea We be W1 b1 W2 b2
      = Cert.ReferenceIdeal.NetR.layerR h src dst ea We be W1 b1 W2 b2 := by
  unfold Cert.KernelIdeal.NetK.layerK Cert.ReferenceIdeal.NetR.layerR
  rw [Cert.KernelIdeal.TakeRows.takeRows_eq_gather h src hr]
  rfl

open Cert.KernelIdeal in
/-- The whole network. -/
theorem net_eq (x : FVec Ideal S50000x128 .f32) (ei : IVec S2x800000 32) (batch : IVec S50000 32) (ea : FVec Ideal S800000x16 .f32)
    (W1 : FVec Ideal S3x128x128 .f32) (b1 : FVec Ideal S3x128 .f32) (W2 : FVec Ideal S3x128x128 .f32) (b2 : FVec Ideal S3x128 .f32)
    (We : FVec Ideal S3x16x128 .f32) (be : FVec Ideal S3x128 .f32) (Wh1 : FVec Ideal S128x128 .f32) (bh1 : FVec Ideal S128 .f32)
    (Wh2 : FVec Ideal S128x1 .f32) (bh2 : FVec Ideal S1 .f32)
    (hr : ∀ e : Fin 800000, 0 ≤ (Cert.KernelIdeal.NetK.srcK ei (ix1 e)).toInt ∧ (Cert.KernelIdeal.NetK.srcK ei (ix1 e)).toInt < 50000) :
    Cert.KernelIdeal.NetK.netK x ei batch ea W1 b1 W2 b2 We be Wh1 bh1 Wh2 bh2
      = Cert.ReferenceIdeal.NetR.netR x ei batch ea W1 b1 W2 b2 We be Wh1 bh1 Wh2 bh2 := by
  unfold Cert.KernelIdeal.NetK.netK Cert.ReferenceIdeal.NetR.netR
  rw [layer_eq _ _ _ _ _ _ _ _ _ _ hr, layer_eq _ _ _ _ _ _ _ _ _ _ hr, layer_eq _ _ _ _ _ _ _ _ _ _ hr]
  rfl

end Cert.Gine.Bridge

end
-- ==== Proof.SrcRange.lean ====
import Idealize.ShloMosaic.Lib.Affine
import Idealize.ShloMosaic.Lib.ReduceAll
import Idealize.ShloMosaic.Lib.ValueIdx
import Idealize.ShloMosaic.Lib.ValueLayout
import Idealize.ShloMosaic.Lib.IdealHost
import proofs.«431309_j3118146257466_1_alg».proof.Pre_finite_inputs

/-!
# The range of the source-node indices

The precondition is a conjunction of "every entry is finite" tests followed by one test on the edge list: every
entry of its row 0 (the source node of each edge) is at least 0 and below 50000, the number of nodes. The conjunction
being true, its last conjunct is true; that conjunct is an "and" over all 800000 edges of the two signed comparisons,
so each edge's source index, read as a signed integer, lies in [0, 50000).
-/

noncomputable section

namespace Cert.Gine.SrcRange

open Idealize.ShloMosaic Idealize.ShloMosaic.ValueIdx Cert.Pre_finite_inputs

variable [Cert.Pre_finite_inputs.Facts]
open Cert.Pre_finite_inputs.Facts

/-- A rank-0 array has one index. -/
instance : Subsingleton S_.Idx := ⟨fun a b => funext fun d => d.elim0⟩

/-- The source indices: row 0 of the edge list as a rank-1 array. -/
def srcOf (a1 : IVec S2x800000 32) : IVec S800000 32 :=
  shapeCast S800000 (extractStridedSlice S1x800000 ![0, 0] a1 slices_S2x800000_S1x800000_0_0)
    shapeCasts_S1x800000_S800000

/-- The last stretch of the precondition, with the earlier conjuncts and the float tests left opaque: if it is true,
every source index is in [0, 50000). -/
theorem part3_src {F : FTy → Type} [FloatOps F] (a1 : IVec S2x800000 32) (a13 : FVec F S1 .f32) (v48 : IVec S_ 1)
    (v49 v50 : FVec F S128x1 .f32) (h : fn_part3 (F := F) a1 a13 v48 v49 v50 ix0 = 1#1) (e : Fin 800000) :
    0 ≤ (srcOf a1 (ix1 e)).toInt ∧ (srcOf a1 (ix1 e)).toInt < 50000 := by
  dsimp only [fn_part3, fn_part4] at h
  -- the last conjunct: the "and" over all edges of the two comparisons
  have hall := (IntOp.andi_eq_one.1 h).2
  -- at edge e
  have he := Host.reduce_andi_all _ _ _ _ _ hall (ix1 e)
  obtain ⟨hge, hlt⟩ := IntOp.andi_eq_one.1 he
  have hge' := IntOp.cmpi_sge.1 hge
  have hlt' := IntOp.cmpi_slt.1 hlt
  rw [broadcastInDim_scalar_apply, constantI_apply] at hge' hlt'
  have h0 : (0#32 : BitVec 32).toInt = 0 := by decide
  have h5 : (50000#32 : BitVec 32).toInt = 50000 := by decide
  rw [h0] at hge'
  rw [h5] at hlt'
  exact ⟨hge', hlt'⟩

/-- If the precondition holds of the fourteen arguments, every source index is in [0, 50000). -/
theorem src_in_range (a0 : FVec Ideal S50000x128 .f32) (a1 : IVec S2x800000 32) (a2 : IVec S50000 32)
    (a3 : FVec Ideal S800000x16 .f32) (a4 : FVec Ideal S3x128x128 .f32) (a5 : FVec Ideal S3x128 .f32)
    (a6 : FVec Ideal S3x128x128 .f32) (a7 : FVec Ideal S3x128 .f32) (a8 : FVec Ideal S3x16x128 .f32)
    (a9 : FVec Ideal S3x128 .f32) (a10 : FVec Ideal S128x128 .f32) (a11 : FVec Ideal S128 .f32)
    (a12 : FVec Ideal S128x1 .f32) (a13 : FVec Ideal S1 .f32)
    (h : Cert.Pre_finite_inputs.fn (F := Ideal) a0 a1 a2 a3 a4 a5 a6 a7 a8 a9 a10 a11 a12 a13 = (fun _ => 1#1))
    (e : Fin 800000) : 0 ≤ (srcOf a1 (ix1 e)).toInt ∧ (srcOf a1 (ix1 e)).toInt < 50000 := by
  have h0 := congrFun h ix0
  unfold fn fn_part1 fn_part2 at h0
  exact part3_src a1 a13 _ _ _ h0 e

end Cert.Gine.SrcRange

end
-- ==== Proof.lean ====
/- The five claims of the certificate, assembled.

   Frames: the kernel program and its idealization each terminate, fault nowhere and leave their arguments as
   launched (the generated frames over the seven regions); the reference does so by its run with the result dropped.
   The idealization's ledger is empty, so nothing is to be preserved. The value claim: under the precondition every
   source-node index lies in [0, 50000), so the kernel program's row lookup with fill replaces no row and is the
   reference's gather; each of the three message-passing layers of the kernel program (lookup, fused edge message
   kernel, scatter-add, fused node update kernel) is then the reference's layer as one whole-array function of the
   node rows, and the pooled readout kernel is the reference's readout; the two results are one function of the
   arguments, on which the two memories agree. -/
import proofs.«431309_j3118146257466_1_alg».proof.Defs
import proofs.«431309_j3118146257466_1_alg».proof.Proof.Gen.Kernel
import proofs.«431309_j3118146257466_1_alg».proof.Proof.Gen.Kernel.Frame
import proofs.«431309_j3118146257466_1_alg».proof.Proof.Gen.KernelIdeal
import proofs.«431309_j3118146257466_1_alg».proof.Proof.Gen.KernelIdeal.Frame
import proofs.«431309_j3118146257466_1_alg».proof.Proof.Gen.ReferenceIdeal
import proofs.«431309_j3118146257466_1_alg».proof.Proof.Gen.ReferenceIdeal.Run
import proofs.«431309_j3118146257466_1_alg».proof.Proof.Gen.Pre_finite_inputs
import proofs.«431309_j3118146257466_1_alg».proof.Proof.RunK
import proofs.«431309_j3118146257466_1_alg».proof.Proof.KernelValue
import proofs.«431309_j3118146257466_1_alg».proof.Proof.RefSide
import proofs.«431309_j3118146257466_1_alg».proof.Proof.Bridge
import proofs.«431309_j3118146257466_1_alg».proof.Proof.SrcRange
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The value claim: both programs end at the network's function of the arguments. -/
theorem algebraic : Cert.algebraic_KernelIdeal_ReferenceIdeal := by
  intro m ρ m' ρ' hpre hagree
  refine ⟨fun c => Cert.KernelIdeal.NetK.netK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.KernelValue.kernel_value m ρ c), (h c).2⟩)
      (Cert.KernelIdeal.RunK.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefSide.ref_value m' c]
    obtain ⟨h0, h1, h2, h3, h4, h5, h6, h7, h8, h9, h10, h11, h12, h13⟩ := hagree c
    rw [h0, h1, h2, h3, h4, h5, h6, h7, h8, h9, h10, h11, h12, h13]
    exact (Cert.Gine.Bridge.net_eq _ _ _ _ _ _ _ _ _ _ _ _ _ _
      (fun e => Cert.Gine.SrcRange.src_in_range _ _ _ _ _ _ _ _ _ _ _ _ _ _ (hpre c) e)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
